-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x2 : Shape := ⟨2, ![600000, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x2 : S_.BroadcastsInDim S600000x2 (![] : Fin 0 → Fin S600000x2.rank)
  reducesTo_S600000x2_S_d0_1 : S600000x2.ReducesTo [0, 1] S_

variable [Facts]

def fn {F : FTy → Type} [FloatOps F] (main_arg0 : FVec F S50000x128 .f32) (main_arg1 : IVec S600000x2 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_c_0 : IVec S_ 32 := constantI S_ 32 0#32
  let main_v4 : IVec S600000x2 32 := broadcastInDim S600000x2 ![] bcast_S_S600000x2 main_c_0
  let main_v5 : IVec S600000x2 1 := cmpi .sge main_arg1 main_v4
  let main_c_1 : IVec S_ 1 := constantI S_ 1 1#1
  let main_v6 : IVec S_ 1 := (fun x v => Host.reduce IntOp.andi x v reducesTo_S600000x2_S_d0_1 h_S_) main_v5 main_c_1
  let main_v7 : IVec S_ 1 := andi main_v3 main_v6
  let main_c_2 : IVec S_ 32 := constantI S_ 32 50000#32
  let main_v8 : IVec S600000x2 32 := broadcastInDim S600000x2 ![] bcast_S_S600000x2 main_c_2
  let main_v9 : IVec S600000x2 1 := cmpi .slt main_arg1 main_v8
  let main_c_3 : IVec S_ 1 := constantI S_ 1 1#1
  let main_v10 : IVec S_ 1 := (fun x v => Host.reduce IntOp.andi x v reducesTo_S600000x2_S_d0_1 h_S_) main_v9 main_c_3
  let main_v11 : IVec S_ 1 := andi main_v7 main_v10
  main_v11
-- ==== Kernel.lean ====
abbrev S50000x128 : Shape := ⟨2, ![50000, 128]⟩
abbrev S600000x2 : Shape := ⟨2, ![600000, 2]⟩
abbrev S600000x1 : Shape := ⟨2, ![600000, 1]⟩
abbrev S600000 : Shape := ⟨1, ![600000]⟩
abbrev S_ : Shape := ⟨0, ![]⟩
abbrev S1 : Shape := ⟨1, ![1]⟩
abbrev S1x1 : Shape := ⟨2, ![1, 1]⟩
abbrev S600000x128 : Shape := ⟨2, ![600000, 128]⟩
abbrev S10000x128 : Shape := ⟨2, ![10000, 128]⟩
abbrev S10000x1 : Shape := ⟨2, ![10000, 1]⟩
abbrev S10000 : Shape := ⟨1, ![10000]⟩

abbrev nBuf : Space → Nat
  | .hbm => 61
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S600000x2, .i32⟩
  | .hbm, ⟨2, _⟩ => ⟨S600000x1, .i32⟩
  | .hbm, ⟨3, _⟩ => ⟨S600000, .i32⟩
  | .hbm, ⟨4, _⟩ => ⟨S600000x1, .i32⟩
  | .hbm, ⟨5, _⟩ => ⟨S600000, .i32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S1, .i32⟩
  | .hbm, ⟨15, _⟩ => ⟨S_, .i32⟩
  | .hbm, ⟨16, _⟩ => ⟨S600000x1, .i32⟩
  | .hbm, ⟨17, _⟩ => ⟨S600000x1, .i1⟩
  | .hbm, ⟨18, _⟩ => ⟨S1x1, .i32⟩
  | .hbm, ⟨19, _⟩ => ⟨S600000x1, .i32⟩
  | .hbm, ⟨20, _⟩ => ⟨S600000x1, .i1⟩
  | .hbm, ⟨21, _⟩ => ⟨S600000x1, .i1⟩
  | .hbm, ⟨22, _⟩ => ⟨S_, .i1⟩
  | .hbm, ⟨23, _⟩ => ⟨S600000, .i1⟩
  | .hbm, ⟨24, _⟩ => ⟨S600000x128, .f32⟩
  | .hbm, ⟨25, _⟩ => ⟨S600000x128, .i1⟩
  | .hbm, ⟨26, _⟩ => ⟨S_, .f32⟩
  | .hbm, ⟨27, _⟩ => ⟨S600000x128, .f32⟩
  | .hbm, ⟨28, _⟩ => ⟨S600000x128, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S1, .i32⟩
  | .hbm, ⟨38, _⟩ => ⟨S_, .i32⟩
  | .hbm, ⟨39, _⟩ => ⟨S600000x1, .i32⟩
  | .hbm, ⟨40, _⟩ => ⟨S600000x1, .i1⟩
  | .hbm, ⟨41, _⟩ => ⟨S1x1, .i32⟩
  | .hbm, ⟨42, _⟩ => ⟨S600000x1, .i32⟩
  | .hbm, ⟨43, _⟩ => ⟨S600000x1, .i1⟩
  | .hbm, ⟨44, _⟩ => ⟨S600000x1, .i1⟩
  | .hbm, ⟨45, _⟩ => ⟨S_, .i1⟩
  | .hbm, ⟨46, _⟩ => ⟨S600000, .i1⟩
  | .hbm, ⟨47, _⟩ => ⟨S600000x128, .f32⟩
  | .hbm, ⟨48, _⟩ => ⟨S600000x128, .i1⟩
  | .hbm, ⟨49, _⟩ => ⟨S_, .f32⟩
  | .hbm, ⟨50, _⟩ => ⟨S600000x128, .f32⟩
  | .hbm, ⟨51, _⟩ => ⟨S600000x128, .f32⟩
  | .hbm, ⟨52, _⟩ => ⟨S600000x1, .f32⟩
  | .hbm, ⟨53, _⟩ => ⟨S1x1, .f32⟩
  | .hbm, ⟨54, _⟩ => ⟨S1x1, .f32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S10000x1, .f32⟩
  | .local _ .vmem, ⟨11, _⟩ => ⟨S10000x1, .f32⟩
  | .local _ .vmem, ⟨12, _⟩ => ⟨S10000x128, .f32⟩
  | .local _ .vmem, ⟨13, _⟩ => ⟨S10000x128, .f32⟩
  | .local _ .vmem, ⟨14, _⟩ => ⟨S1x1, .f32⟩
  | .local _ .vmem, ⟨15, _⟩ => ⟨S1x1, .f32⟩
  | .local _ .vmem, ⟨16, _⟩ => ⟨S10000x128, .f32⟩
  | .local _ .vmem, ⟨17, _⟩ => ⟨S10000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v5 : Ref sig .tc := ⟨.hbm, 51, rfl⟩
abbrev main_v6_0 : Ref sig .tc := ⟨.hbm, 52, rfl⟩
abbrev main_v6_1 : Ref sig .tc := ⟨.hbm, 53, rfl⟩
abbrev main_v6_2 : Ref sig .tc := ⟨.hbm, 54, rfl⟩
abbrev main_v7 : Ref sig .tc := ⟨.hbm, 55, rfl⟩
abbrev main_cst : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![60], ![false]⟩

def k0_cond2 (i : grid0.Coords) : BitVec 1 :=
  let arg0 : BitVec 32 := BitVec.ofNat 32 (i 0).val
  let c59_i32 : BitVec 32 := 59#32
  let v37 : BitVec 1 := Scalar.cmpi .eq arg0 c59_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  reduces_S10000x128_S10000 : S10000x128.Reduces [1] S10000
  shapeCasts_S10000_S10000x1 : S10000.ShapeCasts S10000x1
  reduces_S10000x1_S1 : S10000x1.Reduces [0] S1
  shapeCasts_S1_S1x1 : S1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S600000x128.size a
  hwx0_0 : ∀ i : grid0.Coords, EltTy.bits .f32 = 32 ∨ (Rect.block (s := S600000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S600000x128.size a
  hwx0_1 : ∀ i : grid0.Coords, EltTy.bits .f32 = 32 ∨ (Rect.block (s := S600000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S600000x1.size a
  hwx0_2 : ∀ i : grid0.Coords, EltTy.bits .f32 = 32 ∨ (Rect.block (s := S600000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x1.size a ≤ S600000x1.size a
  hwx1_0 : ∀ i : grid1.Coords, EltTy.bits .f32 = 32 ∨ (Rect.block (s := S600000x1) S10000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S600000x128.size a
  hwx1_1 : ∀ i : grid1.Coords, EltTy.bits .f32 = 32 ∨ (Rect.block (s := S600000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S600000x128.size a
  hwx1_4 : ∀ i : grid1.Coords, EltTy.bits .f32 = 32 ∨ (Rect.block (s := S600000x128) S10000x128.size (cc1_transform_4 i) (hinb1_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_v4) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S10000x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v6_0) S10000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_1) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_2) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x2 : Shape := ⟨2, ![600000, 2]⟩
abbrev S600000x1 : Shape := ⟨2, ![600000, 1]⟩
abbrev S600000 : Shape := ⟨1, ![600000]⟩
abbrev S_ : Shape := ⟨0, ![]⟩
abbrev S600000x128 : Shape := ⟨2, ![600000, 128]⟩
abbrev S1 : Shape := ⟨1, ![1]⟩

abbrev nBuf : Space → Nat
  | .hbm => 56
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x2, .i32⟩
  | .hbm, ⟨2, _⟩ => ⟨S600000x1, .i32⟩
  | .hbm, ⟨3, _⟩ => ⟨S600000, .i32⟩
  | .hbm, ⟨4, _⟩ => ⟨S600000x1, .i32⟩
  | .hbm, ⟨5, _⟩ => ⟨S600000, .i32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S_, .f32⟩
  | .hbm, ⟨29, _⟩ => ⟨S600000, .f32⟩
  | .hbm, ⟨30, _⟩ => ⟨S600000, .i1⟩
  | .hbm, ⟨31, _⟩ => ⟨S_, .f32⟩
  | .hbm, ⟨32, _⟩ => ⟨S600000, .f32⟩
  | .hbm, ⟨33, _⟩ => ⟨S600000, .f32⟩
  | .hbm, ⟨34, _⟩ => ⟨S600000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S600000, .f32⟩
  | .hbm, ⟨41, _⟩ => ⟨S600000, .f32⟩
  | .hbm, ⟨42, _⟩ => ⟨S600000, .f32⟩
  | .hbm, ⟨43, _⟩ => ⟨S_, .f32⟩
  | .hbm, ⟨44, _⟩ => ⟨S_, .f32⟩
  | .hbm, ⟨45, _⟩ => ⟨S1, .f32⟩
  | .hbm, ⟨46, _⟩ => ⟨S600000, .f32⟩
  | .hbm, ⟨47, _⟩ => ⟨S600000, .f32⟩
  | .hbm, ⟨48, _⟩ => ⟨S600000x1, .f32⟩
  | .hbm, ⟨49, _⟩ => ⟨S600000x128, .f32⟩
  | .hbm, ⟨50, _⟩ => ⟨S600000x128, .f32⟩
  | .hbm, ⟨51, _⟩ => ⟨S_, .f32⟩
  | .hbm, ⟨52, _⟩ => ⟨S50000x128, .f32⟩
  | .hbm, ⟨53, _⟩ => ⟨S600000x1, .i32⟩
  | .hbm, ⟨54, _⟩ => ⟨S50000x128, .f32⟩
  | .hbm, ⟨55, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_cst_3 : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S_S600000 : S_.BroadcastsInDim S600000 (![] : Fin 0 → Fin S600000.rank)
  bcast_S600000_S600000x1_0 : S600000.BroadcastsInDim S600000x1 (![0] : Fin 1 → Fin S600000x1.rank)
  reducesTo_S600000x128_S600000_d1 : S600000x128.ReducesTo [1] S600000
  h_S_ : 0 < S_.numel
  reducesTo_S600000_S_d0 : S600000.ReducesTo [0] S_
  bcast_S_S1 : S_.BroadcastsInDim S1 (![] : Fin 0 → Fin S1.rank)
  bcast_S1_S600000_0 : S1.BroadcastsInDim S600000 (![0] : Fin 1 → Fin S600000.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.K.Data.lean ====
/-
  The proof data of the program's two kernel regions, as definitions only.

  Region 0 scores a block of 10000 edges per grid point and keeps, in two one-word scratch buffers, the running
  maximum of the scores seen so far and the running sum of their exponentials taken against that maximum; region 1
  turns each score into its softmax weight with the two totals and scales the neighbour's row by it.
  Here: each window's block at a point read off the array the region finds (`iblk0`, `iblk1`); what the two
  scratch words hold after each point of region 0, by recursion on the point (`scAt0`: the first point starts
  from `-∞` and `0`, every later one from what the point before left); the region invariant carrying them
  (`PhiS0`); and the two regions' proof data (`dat0`, `dat1`).
-/
import proofs.«427403_j16810501996741_2_alg».proof.Proof.Gen.Kernel.Launch
import proofs.«427403_j16810501996741_2_alg».proof.Proof.Gen.Kernel.Skeleton
import proofs.«427403_j16810501996741_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: every definition below is stated at this parameter
variable (V : (c : Dev nD) → (b : Ref sig .tc) → Buf (Elt F) ((c : Thread nD τ).loc b))

/-! ## Region 0: scores, running maximum, running sum -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch words of region 0 as memrefs: the running maximum and the running sum. -/
abbrev scM0_0 : Memref sig .tc .vmem S1x1 .f32 := Memref.whole cc0_scratch0
abbrev scM0_1 : Memref sig .tc .vmem S1x1 .f32 := Memref.whole cc0_scratch1

/-- What the two scratch words hold after point `n`: (running maximum, running sum). The first point folds its
    block into the reset values `-∞` and `0`; a later point folds its block into what the point before left. -/
def scAt0 (c : Dev nD) : (n : ℕ) → n < cfg0.N → Vec F S1x1 .f32 × Vec F S1x1 .f32
  | 0, hn =>
    (k0_pay6 (iblk0 V c 0 ⟨0, hn⟩) (iblk0 V c 1 ⟨0, hn⟩) (k0_pay1 (F := F)),
     k0_pay5 (iblk0 V c 0 ⟨0, hn⟩) (iblk0 V c 1 ⟨0, hn⟩) (k0_pay1 (F := F)) (k0_pay1 (F := F)) (k0_pay2 (F := F)))
  | n + 1, hn =>
    (k0_pay6 (iblk0 V c 0 ⟨n + 1, hn⟩) (iblk0 V c 1 ⟨n + 1, hn⟩) (scAt0 c n (Nat.lt_of_succ_lt hn)).1,
     k0_pay5 (iblk0 V c 0 ⟨n + 1, hn⟩) (iblk0 V c 1 ⟨n + 1, hn⟩) (scAt0 c n (Nat.lt_of_succ_lt hn)).1
       (scAt0 c n (Nat.lt_of_succ_lt hn)).1 (scAt0 c n (Nat.lt_of_succ_lt hn)).2)

theorem scAt0_zero (c : Dev nD) (hn : 0 < cfg0.N) :
    scAt0 V c 0 hn = (k0_pay6 (iblk0 V c 0 ⟨0, hn⟩) (iblk0 V c 1 ⟨0, hn⟩) (k0_pay1 (F := F)),
      k0_pay5 (iblk0 V c 0 ⟨0, hn⟩) (iblk0 V c 1 ⟨0, hn⟩) (k0_pay1 (F := F)) (k0_pay1 (F := F)) (k0_pay2 (F := F))) := rfl

theorem scAt0_succ (c : Dev nD) (n : ℕ) (hn : n + 1 < cfg0.N) :
    scAt0 V c (n + 1) hn =
      (k0_pay6 (iblk0 V c 0 ⟨n + 1, hn⟩) (iblk0 V c 1 ⟨n + 1, hn⟩) (scAt0 V c n (Nat.lt_of_succ_lt hn)).1,
       k0_pay5 (iblk0 V c 0 ⟨n + 1, hn⟩) (iblk0 V c 1 ⟨n + 1, hn⟩) (scAt0 V c n (Nat.lt_of_succ_lt hn)).1
         (scAt0 V c n (Nat.lt_of_succ_lt hn)).1 (scAt0 V c n (Nat.lt_of_succ_lt hn)).2) := rfl

/-- The core's scoped buffers that region 0 neither stages nor uses as scratch (region 1's staging buffers), each
    whole at some contents. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The region invariant of region 0 before position `n`: before the first point what the launch hands a region
    (every scoped buffer no window stages at anything, the generator register at some state); afterwards the two
    scratch words at what the point before left, the other scoped buffers at anything, the generator register. -/
def PhiS0 (c : Dev nD) : (n : ℕ) → n ≤ cfg0.N → sProp 𝕄
  | 0, _ => Pipeline.ΦA spec0 c
  | n + 1, hn =>
    iprop(owns (c : Thread nD τ) scM0_0 fullShare (scAt0 V c n hn).1
      ∗ owns (c : Thread nD τ) scM0_1 fullShare (scAt0 V c n hn).2
      ∗ otherScoped0 (F := F) c ∗ (∃ r, prngReg c r))

/-- The proof data of region 0 on core `c`: the arrays as the region finds them; after the body at point `t`
    the two row blocks in place, the score block, and in the two one-word output windows the scratch words of
    that point (only the last point stores and writes them back; at the others the windows are idle and this
    entry is never consulted). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (iblk0 V c 0 t) (iblk0 V c 1 t)
    | ⟨3, _⟩ => (scAt0 V c t.val t.isLt).1
    | ⟨4, _⟩ => (scAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay3 (iblk0 V c 0 t) (iblk0 V c 1 t) := by dsimp only [dat0]
theorem after0_3 (c : Dev nD) (t : Fin cfg0.N) : (dat0 V c).after 3 t = (scAt0 V c t.val t.isLt).1 := by dsimp only [dat0]
theorem after0_4 (c : Dev nD) (t : Fin cfg0.N) : (dat0 V c).after 4 t = (scAt0 V c t.val t.isLt).2 := by dsimp only [dat0]

/-! ## Region 1: the weighted rows -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1 on core `c`: the arrays as the region finds them; after the body at point `t` the
    four inputs in place and the output block at the weighted rows of the point's blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 0 t) (iblk1 V c 1 t) (iblk1 V c 2 t) (iblk1 V c 3 t) := by dsimp only [dat1]

end Cert.Kernel.Hand

end
-- ==== Proof.K.R0Body.lean ====
/-
  Region 0's body obligation: at every grid point the score kernel, handed its two row blocks and the scratch words the
  point before left, leaves the score block, the updated scratch words and, at the last point, the two totals.
-/
import proofs.«427403_j16810501996741_2_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel's two conditions and its whole-buffer accesses -/

/-- The condition under which the kernel resets the two scratch words: the grid coordinate is 0. -/
abbrev condFirst (i : grid0.Coords) : Prop := (Scalar.cmpi .ne (Scalar.extui (Scalar.cmpi .eq (BitVec.ofNat 32 (i 0).val) 0#32)) 0#32) = 1#1
/-- The condition under which the kernel copies the two scratch words into the two one-word outputs: the grid coordinate is 59. -/
abbrev condLast (i : grid0.Coords) : Prop := k0_cond2 i = 1#1

/-- The zero offsets of a rank-2 access, as a constant function. -/
theorem hz2 : (![0, 0] : Fin 2 → Nat) = fun _ => 0 := funext fun a => by fin_cases a <;> rfl

/-- A list of stores whose last one is through the whole-shape rectangle at zero offsets covers the shape. -/
theorem cover_cons_unit_zero {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self, View.mem_set_unit_zero h inb y⟩

/-! ## The kernel on whole buffers, in each of its three control cases

Every load and store of the kernel is through the whole buffer, so a stored buffer reads back as the stored value and a
load reads the contents. At a middle point the score block becomes the scores of the two row blocks, the running maximum
`mo` becomes the maximum of `mo` and the block's largest score, and the running sum `lo` is rescaled to the new maximum
and increased by the block's exponentials; the two one-word outputs are untouched. The first point does the same from the
reset values; the last point also copies the two updated words into the two one-word outputs. -/

set_option maxHeartbeats 1000000 in
theorem run_mid (c : Dev nD) (i : grid0.Coords) (hc0 : ¬ condFirst i) (hc1 : ¬ condLast i)
    (arg1 : Memref sig .tc .vmem S10000x128 .f32) (h1 : arg1.IsWhole) (arg2 : Memref sig .tc .vmem S10000x128 .f32) (h2 : arg2.IsWhole)
    (arg3 : Memref sig .tc .vmem S10000x1 .f32) (h3 : arg3.IsWhole)
    (arg4 : Memref sig .tc .vmem S1x1 .f32) (h4 : arg4.IsWhole) (arg5 : Memref sig .tc .vmem S1x1 .f32) (h5 : arg5.IsWhole)
    (arg6 : Memref sig .tc .vmem S1x1 .f32) (h6 : arg6.IsWhole) (arg7 : Memref sig .tc .vmem S1x1 .f32) (h7 : arg7.IsWhole)
    (x0 x1 : Vec F S10000x128 .f32) (y3 y4 mo lo : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4 ∗ owns (c : Thread nD τ) arg6 fullShare mo ∗ owns (c : Thread nD τ) arg7 fullShare lo
        ∗ (iprop(owns (c : Thread nD τ) arg1 fullShare x0 ∗ owns (c : Thread nD τ) arg2 fullShare x1 ∗ owns (c : Thread nD τ) arg3 fullShare (k0_pay3 x0 x1)
            ∗ owns (c : Thread nD τ) arg4 fullShare y3 ∗ owns (c : Thread nD τ) arg5 fullShare y4
            ∗ owns (c : Thread nD τ) arg6 fullShare (k0_pay6 x0 x1 mo) ∗ owns (c : Thread nD τ) arg7 fullShare (k0_pay5 x0 x1 mo mo lo)) -∗ K ⟨⟩))
      ⊢ wp frame (wpE (defs₀ (F := F)) Variants.none c none) E (cc0__scores_kernel i arg1 h1 arg2 h2 arg3 h3 arg4 h4 arg5 h5 arg6 h6 arg7 h7) K := by
  simp only [cc0__scores_kernel_eq_skeleton]; unfold cc0__scores_kernel_skel
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  obtain rfl := h1.eq_unread hf1; obtain rfl := h2.eq_unread hf2
  obtain rfl := h4.eq_unread hf4; obtain rfl := h5.eq_unread hf5
  obtain rfl := h6.eq_unread hf6; obtain rfl := h7.eq_unread hf7
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    sl_unfold_words
    rw [View.read_writes_eq_canon _ _ _ (cover_cons_unit_zero hz2 _ _ _), View.canon_cons_unit_zero hz2]
    simp only [View.readAt_eq_ld, h1.read_unread, h2.read_unread, h6.read_unread, h7.read_unread, View.ld_unit_zero (S := S10000x128) hz2, View.ld_unit_zero (S := S1x1) hz2]
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    sl_unfold_words
    rw [View.read_writes_eq_canon _ _ _ (cover_cons_unit_zero hz2 _ _ _), View.canon_cons_unit_zero hz2]
    simp only [View.readAt_eq_ld, h1.read_unread, h2.read_unread, h6.read_unread, h7.read_unread, View.ld_unit_zero (S := S10000x128) hz2, View.ld_unit_zero (S := S1x1) hz2]
  iexists _; isplitr
  swap; · iexact H7
  ipureintro
  sl_unfold_words
  rw [View.read_writes_eq_canon _ _ _ (cover_cons_unit_zero hz2 _ _ _), View.canon_cons_unit_zero hz2]
  simp only [View.readAt_eq_ld, h1.read_unread, h2.read_unread, h6.read_unread, h7.read_unread, View.ld_unit_zero (S := S10000x128) hz2, View.ld_unit_zero (S := S1x1) hz2]

set_option maxHeartbeats 1000000 in
theorem run_first (c : Dev nD) (i : grid0.Coords) (hc0 : condFirst i) (hc1 : ¬ condLast i)
    (arg1 : Memref sig .tc .vmem S10000x128 .f32) (h1 : arg1.IsWhole) (arg2 : Memref sig .tc .vmem S10000x128 .f32) (h2 : arg2.IsWhole)
    (arg3 : Memref sig .tc .vmem S10000x1 .f32) (h3 : arg3.IsWhole)
    (arg4 : Memref sig .tc .vmem S1x1 .f32) (h4 : arg4.IsWhole) (arg5 : Memref sig .tc .vmem S1x1 .f32) (h5 : arg5.IsWhole)
    (arg6 : Memref sig .tc .vmem S1x1 .f32) (h6 : arg6.IsWhole) (arg7 : Memref sig .tc .vmem S1x1 .f32) (h7 : arg7.IsWhole)
    (x0 x1 : Vec F S10000x128 .f32) (y3 y4 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k0_pay3 x0 x1)
            ∗ owns (c : Thread nD τ) arg4 fullShare y3 ∗ owns (c : Thread nD τ) arg5 fullShare y4
            ∗ owns (c : Thread nD τ) arg6 fullShare (k0_pay6 x0 x1 (k0_pay1 (F := F))) ∗ owns (c : Thread nD τ) arg7 fullShare (k0_pay5 x0 x1 (k0_pay1 (F := F)) (k0_pay1 (F := F)) (k0_pay2 (F := F)))) -∗ K ⟨⟩))
      ⊢ wp frame (wpE (defs₀ (F := F)) Variants.none c none) E (cc0__scores_kernel i arg1 h1 arg2 h2 arg3 h3 arg4 h4 arg5 h5 arg6 h6 arg7 h7) K := by
  simp only [cc0__scores_kernel_eq_skeleton]; unfold cc0__scores_kernel_skel
  unfold owns
  iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  obtain rfl := h1.eq_unread hf1; obtain rfl := h2.eq_unread hf2
  obtain rfl := h4.eq_unread hf4; obtain rfl := h5.eq_unread hf5
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    sl_unfold_words
    rw [View.read_writes_eq_canon _ _ _ (cover_cons_unit_zero hz2 _ _ _), View.canon_cons_unit_zero hz2]
    simp only [View.readAt_eq_ld, h1.read_unread, h2.read_unread, View.ld_unit_zero (S := S10000x128) hz2, View.ld_unit_zero (S := S1x1) hz2, View.readCov_unit_zero (S := S1x1) _ hz2]
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    sl_unfold_words
    rw [View.read_writes_eq_canon _ _ _ (cover_cons_unit_zero hz2 _ _ _), View.canon_cons_unit_zero hz2]
    simp only [View.readAt_eq_ld, h1.read_unread, h2.read_unread, View.ld_unit_zero (S := S10000x128) hz2, View.ld_unit_zero (S := S1x1) hz2, View.readCov_unit_zero (S := S1x1) _ hz2]
  iexists _; isplitr
  swap; · iexact H7
  ipureintro
  sl_unfold_words
  rw [View.read_writes_eq_canon _ _ _ (cover_cons_unit_zero hz2 _ _ _), View.canon_cons_unit_zero hz2]
  simp only [View.readAt_eq_ld, h1.read_unread, h2.read_unread, View.ld_unit_zero (S := S10000x128) hz2, View.ld_unit_zero (S := S1x1) hz2, View.readCov_unit_zero (S := S1x1) _ hz2]

set_option maxHeartbeats 1000000 in
theorem run_last (c : Dev nD) (i : grid0.Coords) (hc0 : ¬ condFirst i) (hc1 : condLast i)
    (arg1 : Memref sig .tc .vmem S10000x128 .f32) (h1 : arg1.IsWhole) (arg2 : Memref sig .tc .vmem S10000x128 .f32) (h2 : arg2.IsWhole)
    (arg3 : Memref sig .tc .vmem S10000x1 .f32) (h3 : arg3.IsWhole)
    (arg4 : Memref sig .tc .vmem S1x1 .f32) (h4 : arg4.IsWhole) (arg5 : Memref sig .tc .vmem S1x1 .f32) (h5 : arg5.IsWhole)
    (arg6 : Memref sig .tc .vmem S1x1 .f32) (h6 : arg6.IsWhole) (arg7 : Memref sig .tc .vmem S1x1 .f32) (h7 : arg7.IsWhole)
    (x0 x1 : Vec F S10000x128 .f32) (mo lo : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d) ∗ owns (c : Thread nD τ) arg6 fullShare mo ∗ owns (c : Thread nD τ) arg7 fullShare lo
        ∗ (iprop(owns (c : Thread nD τ) arg1 fullShare x0 ∗ owns (c : Thread nD τ) arg2 fullShare x1 ∗ owns (c : Thread nD τ) arg3 fullShare (k0_pay3 x0 x1)
            ∗ owns (c : Thread nD τ) arg4 fullShare (k0_pay6 x0 x1 mo) ∗ owns (c : Thread nD τ) arg5 fullShare (k0_pay5 x0 x1 mo mo lo)
            ∗ owns (c : Thread nD τ) arg6 fullShare (k0_pay6 x0 x1 mo) ∗ owns (c : Thread nD τ) arg7 fullShare (k0_pay5 x0 x1 mo mo lo)) -∗ K ⟨⟩))
      ⊢ wp frame (wpE (defs₀ (F := F)) Variants.none c none) E (cc0__scores_kernel i arg1 h1 arg2 h2 arg3 h3 arg4 h4 arg5 h5 arg6 h6 arg7 h7) K := by
  simp only [cc0__scores_kernel_eq_skeleton]; unfold cc0__scores_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  obtain rfl := h1.eq_unread hf1; obtain rfl := h2.eq_unread hf2
  obtain rfl := h6.eq_unread hf6; obtain rfl := h7.eq_unread hf7
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    sl_unfold_words
    rw [View.read_writes_eq_canon _ _ _ (cover_cons_unit_zero hz2 _ _ _), View.canon_cons_unit_zero hz2]
    simp only [View.readAt_eq_ld, h1.read_unread, h2.read_unread, h6.read_unread, h7.read_unread, View.ld_unit_zero (S := S10000x128) hz2, View.ld_unit_zero (S := S1x1) hz2, View.readCov_unit_zero (S := S1x1) _ hz2]
  isplitl [H4]
  · iexists _; isplitr
    swap; · iexact H4
    ipureintro
    sl_unfold_words
    rw [View.read_writes_eq_canon _ _ _ (cover_cons_unit_zero hz2 _ _ _), View.canon_cons_unit_zero hz2]
    simp only [View.readAt_eq_ld, h1.read_unread, h2.read_unread, h6.read_unread, h7.read_unread, View.ld_unit_zero (S := S10000x128) hz2, View.ld_unit_zero (S := S1x1) hz2, View.readCov_unit_zero (S := S1x1) _ hz2]
  isplitl [H5]
  · iexists _; isplitr
    swap; · iexact H5
    ipureintro
    sl_unfold_words
    rw [View.read_writes_eq_canon _ _ _ (cover_cons_unit_zero hz2 _ _ _), View.canon_cons_unit_zero hz2]
    simp only [View.readAt_eq_ld, h1.read_unread, h2.read_unread, h6.read_unread, h7.read_unread, View.ld_unit_zero (S := S10000x128) hz2, View.ld_unit_zero (S := S1x1) hz2, View.readCov_unit_zero (S := S1x1) _ hz2]
  isplitl [H6]
  · iexists _; isplitr
    swap; · iexact H6
    ipureintro
    sl_unfold_words
    rw [View.read_writes_eq_canon _ _ _ (cover_cons_unit_zero hz2 _ _ _), View.canon_cons_unit_zero hz2]
    simp only [View.readAt_eq_ld, h1.read_unread, h2.read_unread, h6.read_unread, h7.read_unread, View.ld_unit_zero (S := S10000x128) hz2, View.ld_unit_zero (S := S1x1) hz2, View.readCov_unit_zero (S := S1x1) _ hz2]
  iexists _; isplitr
  swap; · iexact H7
  ipureintro
  sl_unfold_words
  rw [View.read_writes_eq_canon _ _ _ (cover_cons_unit_zero hz2 _ _ _), View.canon_cons_unit_zero hz2]
  simp only [View.readAt_eq_ld, h1.read_unread, h2.read_unread, h6.read_unread, h7.read_unread, View.ld_unit_zero (S := S10000x128) hz2, View.ld_unit_zero (S := S1x1) hz2, View.readCov_unit_zero (S := S1x1) _ hz2]

variable (V : (c : Dev nD) → (b : Ref sig .tc) → Buf (Elt F) ((c : Thread nD τ).loc b))

/-! ## The two conditions, decided over the grid -/

/-- The first-point condition holds at point 0 only. -/
theorem hcondFirst : ∀ t : Fin cfg0.N, condFirst (grid0.coords t) ↔ t.val = 0 :=
  (by decide +kernel : ∀ t : Fin grid0.N, condFirst (grid0.coords t) ↔ t.val = 0)
/-- The last-point condition holds at point 59 only. -/
theorem hcondLast : ∀ t : Fin cfg0.N, condLast (grid0.coords t) ↔ t.val = 59 :=
  (by decide +kernel : ∀ t : Fin grid0.N, condLast (grid0.coords t) ↔ t.val = 59)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬condLast (grid0.coords t) → cfg0.idle 3 (grid0.coords t) = true := by decide +kernel
theorem noFlush0_3 : ∀ t : Fin cfg0.N, ¬condLast (grid0.coords t) → (cfg0.win 3).flush t = false := by decide +kernel
theorem live0_3 : ∀ t : Fin cfg0.N, condLast (grid0.coords t) → cfg0.idle 3 (grid0.coords t) = false := by decide +kernel
theorem idle0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
theorem live0_4 : ∀ t : Fin cfg0.N, condLast (grid0.coords t) → cfg0.idle 4 (grid0.coords t) = false := by decide +kernel

/-! ## What the input windows hold when the body runs -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The scratch words and the invariant, point by point -/

theorem scAt0_first (c : Dev nD) (t : Fin cfg0.N) (h : t.val = 0) :
    scAt0 V c t.val t.isLt = (k0_pay6 (iblk0 V c 0 t) (iblk0 V c 1 t) (k0_pay1 (F := F)),
      k0_pay5 (iblk0 V c 0 t) (iblk0 V c 1 t) (k0_pay1 (F := F)) (k0_pay1 (F := F)) (k0_pay2 (F := F))) := by
  obtain ⟨n, hn⟩ := t
  cases n with
  | zero => rfl
  | succ n => exact absurd h (Nat.succ_ne_zero n)

theorem scAt0_later (c : Dev nD) (t : Fin cfg0.N) (h : t.val ≠ 0) :
    scAt0 V c t.val t.isLt =
      (k0_pay6 (iblk0 V c 0 t) (iblk0 V c 1 t) (scAt0 V c (t.val - 1) (Nat.lt_of_le_of_lt (Nat.sub_le _ _) t.isLt)).1,
       k0_pay5 (iblk0 V c 0 t) (iblk0 V c 1 t) (scAt0 V c (t.val - 1) (Nat.lt_of_le_of_lt (Nat.sub_le _ _) t.isLt)).1
         (scAt0 V c (t.val - 1) (Nat.lt_of_le_of_lt (Nat.sub_le _ _) t.isLt)).1 (scAt0 V c (t.val - 1) (Nat.lt_of_le_of_lt (Nat.sub_le _ _) t.isLt)).2) := by
  obtain ⟨n, hn⟩ := t
  cases n with
  | zero => exact absurd rfl h
  | succ n => rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (scAt0 V c n hn).1
      ∗ owns (c : Thread nD τ) scM0_1 fullShare (scAt0 V c n hn).2
      ∗ otherScoped0 (F := F) c ∗ (∃ r, prngReg c r)) := rfl

theorem PhiS0_pos (c : Dev nD) (n : ℕ) (h : n ≤ cfg0.N) (hz : n ≠ 0) :
    PhiS0 V c n h = iprop(owns (c : Thread nD τ) scM0_0 fullShare (scAt0 V c (n - 1) (by omega)).1
      ∗ owns (c : Thread nD τ) scM0_1 fullShare (scAt0 V c (n - 1) (by omega)).2
      ∗ otherScoped0 (F := F) c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- What the launch hands a region, with the two scratch words as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d)
          ∗ otherScoped0 (F := F) c) ∗ (∃ r, prngReg c r)) := by
  unfold Pipeline.ΦA otherScoped0; rw [scopedRest0_eq]; simp only [scM0_0, scM0_1, owns_whole]; try rfl

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  have hN : t.val < 60 := lt_of_lt_of_eq t.isLt (show cfg0.N = 60 from N_0)
  by_cases hF : t.val = 0
  · have hL : ¬ t.val = 59 := by omega
    have hc0 : condFirst (grid0.coords t) := (hcondFirst t).mpr hF
    have hc1 : ¬ condLast (grid0.coords t) := fun h => hL ((hcondLast t).mp h)
    rw [Dat.leavesExact_idle (dat0 V c) 3 t (idle0_3 t hc1) (noFlush0_3 t hc1),
      Dat.leavesExact_idle (dat0 V c) 4 t (idle0_4 t hc1) (noFlush0_4 t hc1)]
    rw [scAt0_first V c t hF]; dsimp only
    rw [PhiS0_castSucc V c t, PhiS0_zero V c _ _ hF, PhiA0_eq]
    iintro ⟨⟨⟨⟨%s0, HS0⟩, ⟨%s1, HS1⟩, Hoth⟩, Hg⟩, Ho, ⟨%d0, H0⟩, ⟨%d1, H1⟩, ⟨%d2, H2⟩, ⟨%d3, H3⟩, ⟨%d4, H4⟩⟩
    iapply (run_first c (grid0.coords t) hc0 hc1 _ _ _ _ _ _ _ _ _ _ _ _ _ _ (iblk0 V c 0 t) (iblk0 V c 1 t)
      ((dat0 V c).before 3 t d3) ((dat0 V c).before 4 t d4) Set.univ _)
    isplitl [H0]; · iexact H0
    isplitl [H1]; · iexact H1
    isplitl [H2]; · iexists _; iexact H2
    isplitl [H3]; · iexact H3
    isplitl [H4]; · iexact H4
    isplitl [HS0]; · iexists _; iexact HS0
    isplitl [HS1]; · iexists _; iexact HS1
    iintro ⟨H0, H1, H2, H3, H4, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    isplitl [H2]; · iexact H2
    isplitl [H3]; · iexists _; iexact H3
    iexists _; iexact H4
  · by_cases hL : t.val = 59
    · have hc0 : ¬ condFirst (grid0.coords t) := fun h => hF ((hcondFirst t).mp h)
      have hc1 : condLast (grid0.coords t) := (hcondLast t).mpr hL
      rw [show (dat0 V c).leavesExact 3 t = owns (c : Thread nD τ) (st0_3 t) fullShare ((dat0 V c).after 3 t) from by
        unfold Dat.leavesExact; rw [live0_3 t hc1], after0_3]
      rw [show (dat0 V c).leavesExact 4 t = owns (c : Thread nD τ) (st0_4 t) fullShare ((dat0 V c).after 4 t) from by
        unfold Dat.leavesExact; rw [live0_4 t hc1], after0_4]
      rw [scAt0_later V c t hF]; dsimp only
      rw [PhiS0_castSucc V c t, PhiS0_pos V c _ _ hF]
      iintro ⟨⟨HS0, HS1, Hoth, Hg⟩, Ho, ⟨%d0, H0⟩, ⟨%d1, H1⟩, ⟨%d2, H2⟩, ⟨%d3, H3⟩, ⟨%d4, H4⟩⟩
      iapply (run_last c (grid0.coords t) hc0 hc1 _ _ _ _ _ _ _ _ _ _ _ _ _ _ (iblk0 V c 0 t) (iblk0 V c 1 t)
        (scAt0 V c (t.val - 1) (Nat.lt_of_le_of_lt (Nat.sub_le _ _) t.isLt)).1 (scAt0 V c (t.val - 1) (Nat.lt_of_le_of_lt (Nat.sub_le _ _) t.isLt)).2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · have hc0 : ¬ condFirst (grid0.coords t) := fun h => hF ((hcondFirst t).mp h)
      have hc1 : ¬ condLast (grid0.coords t) := fun h => hL ((hcondLast t).mp h)
      rw [Dat.leavesExact_idle (dat0 V c) 3 t (idle0_3 t hc1) (noFlush0_3 t hc1),
        Dat.leavesExact_idle (dat0 V c) 4 t (idle0_4 t hc1) (noFlush0_4 t hc1)]
      rw [scAt0_later V c t hF]; dsimp only
      rw [PhiS0_castSucc V c t, PhiS0_pos V c _ _ hF]
      iintro ⟨⟨HS0, HS1, Hoth, Hg⟩, Ho, ⟨%d0, H0⟩, ⟨%d1, H1⟩, ⟨%d2, H2⟩, ⟨%d3, H3⟩, ⟨%d4, H4⟩⟩
      iapply (run_mid c (grid0.coords t) hc0 hc1 _ _ _ _ _ _ _ _ _ _ _ _ _ _ (iblk0 V c 0 t) (iblk0 V c 1 t)
        ((dat0 V c).before 3 t d3) ((dat0 V c).before 4 t d4)
        (scAt0 V c (t.val - 1) (Nat.lt_of_le_of_lt (Nat.sub_le _ _) t.isLt)).1 (scAt0 V c (t.val - 1) (Nat.lt_of_le_of_lt (Nat.sub_le _ _) t.isLt)).2 Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      isplitl [H2]; · iexact H2
      isplitl [H3]; · iexists _; iexact H3
      iexists _; iexact H4

/-- The library's body obligation of region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the launch handed over: the scratch words' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 60 := N_0; omega), PhiA0_eq]
  iintro ⟨HS0, HS1, Hoth, Hg⟩
  isplitr [Hg]
  · isplitl [HS0]; · iexists _; iexact HS0
    isplitl [HS1]; · iexists _; iexact HS1
    iexact Hoth
  iexact Hg

end Cert.Kernel.Hand

end
-- ==== Proof.K.R1Body.lean ====
/-
  Region 1's body obligation: at every grid point the weighting kernel, handed a score block, a row block and the two
  totals, leaves the rows scaled by their softmax weights.

  The four input windows hold their blocks at every point: the score block and the row block are brought in at
  every point; the two one-word totals are brought in at the first point only, and at a later point the block index
  has not moved, so the word still held is that point's block. The body reads the four whole buffers and overwrites
  the whole output buffer with the weighted rows; one store through the whole buffer leaves exactly its payload, and
  a load through the whole buffer reads exactly the contents.
-/
import proofs.«427403_j16810501996741_2_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

/-- Input window 0 (the score block) holds its block at every point, for any proof data whose array is the
    region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the row block) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the total maximum): brought in at the first point only; later its block index has not moved,
    so what the buffer still holds is the point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the total sum) likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's triple -/

/-- The zero offsets of a two-axis rectangle, however spelt. -/
theorem offs_zero1 : (![0, 0] : Fin 2 → Nat) = fun _ => 0 := by
  funext a; fin_cases a <;> rfl

/-- The one store of the body goes through the whole output buffer, so it covers it. -/
theorem cover1_4 (p : Vec F S10000x128 .f32) (y : S10000x128.Idx) :
    ∃ pc ∈ ([⟨Rect.unit (s := S10000x128) ![0, 0] S10000x128.size inb_S10000x128_S10000x128_0_0, p⟩] :
      List (View.Piece (Elt F) S10000x128 .f32)), y ∈ pc.1.set :=
  ⟨_, List.mem_singleton_self _, View.mem_set_unit_zero offs_zero1 inb_S10000x128_S10000x128_0_0 y⟩

set_option maxHeartbeats 1000000 in
/-- The weighting kernel on whole staging memrefs, the four inputs' at read contents and the output's at anything,
    runs to the continuation holding the inputs' as they were and the output's at the weighted rows of the inputs. -/
theorem sound_kernel1 (c : Dev nD) (E : Set ℕ) (i : grid1.Coords)
    (arg1 : Memref sig .tc .vmem S10000x1 .f32) (harg1 : arg1.IsWhole)
    (arg2 : Memref sig .tc .vmem S10000x128 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S10000x128 .f32) (harg5 : arg5.IsWhole)
    (x0 : Vec F S10000x1 .f32) (x1 : Vec F S10000x128 .f32) (x2 x3 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 x0 x1 x2 x3)) -∗ K ⟨⟩))
      ⊢ wp frame (wpE (defs₀ (F := F)) Variants.none c none) E
          (cc1__weighted_kernel i arg1 harg1 arg2 harg2 arg3 harg3 arg4 harg4 arg5 harg5) K := by
  simp only [cc1__weighted_kernel_eq_skeleton]; unfold cc1__weighted_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_4 _), View.canon_unit_zero offs_zero1]
  simp only [View.readAt_eq_ld, View.ld_unit_zero (S := S10000x1) offs_zero1, View.ld_unit_zero (S := S10000x128) offs_zero1,
    View.ld_unit_zero (S := S1x1) offs_zero1]

/-! ## The body obligation, at a generic point -/

/-- What the body is called with at point `t`: the invariant, what the core owes, and each window's current
    staging buffer at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the four inputs' buffers hold their blocks, so the kernel's triple applies at those
    blocks; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Bounds.lean ====
/-
  The buffer contents at each boundary of the program's run, as a fold from the launch memory: a host stretch applies
  its operations; a region leaves its output arrays at what its write-backs folded and every other buffer as entered.
-/
import proofs.«427403_j16810501996741_2_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the two index columns are sliced out of the edge list. -/
abbrev W1 : Dev nD → Valuation τ sig (Elt F) := fun c => StableHlo.after hostOps0 (W0 m c)
/-- After the source rows are gathered. -/
abbrev W2 : Dev nD → Valuation τ sig (Elt F) := fun c => StableHlo.after hostOps0_1 (W1 m c)
/-- After the neighbour rows are gathered: region 0's entry. -/
abbrev W3 : Dev nD → Valuation τ sig (Elt F) := fun c => StableHlo.after hostOps0_2 (W2 m c)
/-- The same read at the TensorCore's references (what region 0's proof data take). -/
abbrev V3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (V3 m) c).arrAt w cfg0.N
/-- The same read at the TensorCore's references (what region 1's proof data take). -/
abbrev V4 : (c : Dev nD) → (b : Ref sig .tc) → Buf (Elt F) ((c : Thread nD τ).loc b) := fun c b => W4 m c b
/-- At region 1's exit: its arrays at what the pipeline leaves, every other buffer as entered. -/
def W5 (c : Dev nD) : Valuation τ sig (Elt F) :=
  Pipeline.withArrays spec1 c (W4 m c) fun w => (dat1 (V4 m) c).arrAt w cfg1.N
/-- After the scatter-add of the weighted rows and the residual sum: the return. -/
abbrev W6 : Dev nD → Valuation τ sig (Elt F) := fun c => StableHlo.after hostOps2 (W5 m c)

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Run.lean ====
/-
  The run of the whole program: @main as host stretches and the two kernel regions, from the launch to the return.
  The buffer contents at each boundary are a fold from the launch memory: a host stretch applies its operations; a
  region leaves its output arrays at what its write-backs folded and every other buffer as entered. Every weakly fair
  execution terminates and the final memory holds, at every unscoped buffer, the last boundary's contents; the two
  argument arrays are read back through the fold to their launch contents.
-/
import proofs.«427403_j16810501996741_2_alg».proof.Proof.K.R0Body
import proofs.«427403_j16810501996741_2_alg».proof.Proof.K.R1Body
import proofs.«427403_j16810501996741_2_alg».proof.Proof.Gen.Kernel.Regions
import proofs.«427403_j16810501996741_2_alg».proof.Proof.K.Bounds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region leaves

At a region's exit each of its arrays holds what the pipeline's write-backs folded, and every other buffer what it
held at entry. -/

theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- Region 1's exit contents read at the TensorCore's references. -/
abbrev Vexit1 : (c : Dev nD) → (b : Ref sig .tc) → Buf (Elt F) ((c : Thread nD τ).loc b) := fun c b => W5 m c b
theorem hF1 (c : Dev nD) (w : Fin cfg1.W) : (dat1 (V4 m) c).arrAt w cfg1.N = Vexit1 m c (Pipeline.arrRef spec1 w) :=
  (W5_arr m c w).symm
theorem hrest1 (c : Dev nD) : ∀ b, b ∉ Finset.univ.image (Pipeline.arrRef spec1) → Vexit1 m c b = V4 m c b :=
  fun b hb => W5_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every segment: the core's generator register at some state (a region's
    invariant takes it in and gives it back) and what the core owes, which is nothing. -/
abbrev Rest (c : Dev nD) : sProp 𝕄 := iprop((∃ r, prngReg c r) ∗ ∃ W, owes (c : Thread nD τ) (0 : CellTallies nD τ sig Unit) W)
/-- A host stretch as a segment: from every unscoped buffer at the contents W to the same buffers at what the
    stretch's operations make of W, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- The last thread state without what the core owes: every unscoped buffer at the return's contents, the generator
    register at some state. -/
abbrev Tₙ (c : Dev nD) : sProp 𝕄 := iprop(StableHlo.held (c : Thread nD τ) (Pipeline.ucRefs τ sig) (W6 m c) ∗ ∃ r, prngReg c r)

/-- What the last host stretch leaves is the last thread state beside the core owing nothing. -/
theorem last_state (c : Dev nD) :
    iprop(StableHlo.held (c : Thread nD τ) (Pipeline.ucRefs τ sig) (W6 m c) ∗ Rest c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at the contents after the three host
    stretches, left at those contents with the region's arrays at what the pipeline folded. Its arrays are split out
    of the unscoped buffers at entry and put back at exit; the generator register and the scoped buffers no window
    stages go into the region invariant, which carries the two scratch words from point to point and forgets them at
    the end; nothing is owed; the kernel has no semaphore of its own. -/
def reg0 : Pipeline.RegionSeg (pcfgs (F := F)) adm (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L₀ lv₀ 0 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m) c)
    unfold Pipeline.ΦA
    iintro ⟨Hp, -, Hr⟩
    isplitl [Hr]; · iexact Hr
    iexact Hp
  hout c := by
    refine BIBase.Entails.trans (hout0 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from region 0's exit contents, left at those contents with the region's
    arrays at what the pipeline folded. Its invariant is the same at every point: the generator register and the
    scoped buffers no window stages. -/
def reg1 : Pipeline.RegionSeg (pcfgs (F := F)) adm (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L₀ lv₀ 1 fun _ _ => rfl
  pre c := iprop(StableHlo.held (c : Thread nD τ) (Pipeline.ucRefs τ sig) (W4 m c) ∗ Rest c)
  post c := iprop(StableHlo.held (c : Thread nD τ) (Pipeline.ucRefs τ sig) (W5 m c) ∗ Rest c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (Vexit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments -/

/-- @main's six segments in order: the three host stretches before region 0, each from its boundary's contents, the
    two regions, the host stretch after region 1. -/
abbrev runSegs : List (Pipeline.Seg (pcfgs (F := F)) adm (pdats m) () defs₀ 𝒱₀ L₀ lv₀) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .host (hseg hostOps2 hostOps2_sub hostOps2_fresh (W5 m)) ]
/-- @main is the run of the segments: it is the chain of its items, and the segments' run is that chain. -/
theorem main_run (c : Dev nD) : main (F := F) c = Pipeline.Seg.run (runSegs m) := (main_chain c).trans (by chain_rfl)

/-! ## The run -/

set_option backward.isDefEq.respectTransparency.types false in
/-- Every weakly fair execution of @main from memory `m` with zero counters terminates, nothing faulting, and the
    final memory holds at every unscoped buffer of every core the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L₀ lv₀ m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tₙ m)
    (hch := ⟨fun _ => .rfl, fun _ => .rfl, fun _ => .rfl, fun _ => .rfl, fun _ => .rfl, fun _ => .rfl, fun c => last_state m c⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- No host stretch and no region writes the node table: it ends as launched. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-- Nor the edge list. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ hostOps2_writes (by decide)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

/-- The frame claim at any `F`: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_main_arg0 m c),
     (h c _ (mem_uc main_arg1 (by decide))).trans (W6_main_arg1 m c)⟩) (run_all m ρ)

end Cert.Kernel.Hand

end
-- ==== Proof.KI.Data.lean ====
/-
  The proof data of the program's two kernel regions, as definitions only.

  Region 0 scores a block of 10000 edges per grid point and keeps, in two one-word scratch buffers, the running
  maximum of the scores seen so far and the running sum of their exponentials taken against that maximum; region 1
  turns each score into its softmax weight with the two totals and scales the neighbour's row by it.
  Here: each window's block at a point read off the array the region finds (`iblk0`, `iblk1`); what the two
  scratch words hold after each point of region 0, by recursion on the point (`scAt0`: the first point starts
  from `-∞` and `0`, every later one from what the point before left); the region invariant carrying them
  (`PhiS0`); and the two regions' proof data (`dat0`, `dat1`).
-/
import proofs.«427403_j16810501996741_2_alg».proof.Proof.Gen.KernelIdeal.Launch
import proofs.«427403_j16810501996741_2_alg».proof.Proof.Gen.KernelIdeal.Skeleton
import proofs.«427403_j16810501996741_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: every definition below is stated at this parameter
variable (V : (c : Dev nD) → (b : Ref sig .tc) → Buf (Elt F) ((c : Thread nD τ).loc b))

/-! ## Region 0: scores, running maximum, running sum -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch words of region 0 as memrefs: the running maximum and the running sum. -/
abbrev scM0_0 : Memref sig .tc .vmem S1x1 .f32 := Memref.whole cc0_scratch0
abbrev scM0_1 : Memref sig .tc .vmem S1x1 .f32 := Memref.whole cc0_scratch1

/-- What the two scratch words hold after point `n`: (running maximum, running sum). The first point folds its
    block into the reset values `-∞` and `0`; a later point folds its block into what the point before left. -/
def scAt0 (c : Dev nD) : (n : ℕ) → n < cfg0.N → Vec F S1x1 .f32 × Vec F S1x1 .f32
  | 0, hn =>
    (k0_pay6 (iblk0 V c 0 ⟨0, hn⟩) (iblk0 V c 1 ⟨0, hn⟩) (k0_pay1 (F := F)),
     k0_pay5 (iblk0 V c 0 ⟨0, hn⟩) (iblk0 V c 1 ⟨0, hn⟩) (k0_pay1 (F := F)) (k0_pay1 (F := F)) (k0_pay2 (F := F)))
  | n + 1, hn =>
    (k0_pay6 (iblk0 V c 0 ⟨n + 1, hn⟩) (iblk0 V c 1 ⟨n + 1, hn⟩) (scAt0 c n (Nat.lt_of_succ_lt hn)).1,
     k0_pay5 (iblk0 V c 0 ⟨n + 1, hn⟩) (iblk0 V c 1 ⟨n + 1, hn⟩) (scAt0 c n (Nat.lt_of_succ_lt hn)).1
       (scAt0 c n (Nat.lt_of_succ_lt hn)).1 (scAt0 c n (Nat.lt_of_succ_lt hn)).2)

theorem scAt0_zero (c : Dev nD) (hn : 0 < cfg0.N) :
    scAt0 V c 0 hn = (k0_pay6 (iblk0 V c 0 ⟨0, hn⟩) (iblk0 V c 1 ⟨0, hn⟩) (k0_pay1 (F := F)),
      k0_pay5 (iblk0 V c 0 ⟨0, hn⟩) (iblk0 V c 1 ⟨0, hn⟩) (k0_pay1 (F := F)) (k0_pay1 (F := F)) (k0_pay2 (F := F))) := rfl

theorem scAt0_succ (c : Dev nD) (n : ℕ) (hn : n + 1 < cfg0.N) :
    scAt0 V c (n + 1) hn =
      (k0_pay6 (iblk0 V c 0 ⟨n + 1, hn⟩) (iblk0 V c 1 ⟨n + 1, hn⟩) (scAt0 V c n (Nat.lt_of_succ_lt hn)).1,
       k0_pay5 (iblk0 V c 0 ⟨n + 1, hn⟩) (iblk0 V c 1 ⟨n + 1, hn⟩) (scAt0 V c n (Nat.lt_of_succ_lt hn)).1
         (scAt0 V c n (Nat.lt_of_succ_lt hn)).1 (scAt0 V c n (Nat.lt_of_succ_lt hn)).2) := rfl

/-- The core's scoped buffers that region 0 neither stages nor uses as scratch (region 1's staging buffers), each
    whole at some contents. -/
def otherScoped0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f))

/-- The region invariant of region 0 before position `n`: before the first point what the launch hands a region
    (every scoped buffer no window stages at anything, the generator register at some state); afterwards the two
    scratch words at what the point before left, the other scoped buffers at anything, the generator register. -/
def PhiS0 (c : Dev nD) : (n : ℕ) → n ≤ cfg0.N → sProp 𝕄
  | 0, _ => Pipeline.ΦA spec0 c
  | n + 1, hn =>
    iprop(owns (c : Thread nD τ) scM0_0 fullShare (scAt0 V c n hn).1
      ∗ owns (c : Thread nD τ) scM0_1 fullShare (scAt0 V c n hn).2
      ∗ otherScoped0 (F := F) c ∗ (∃ r, prngReg c r))

/-- The proof data of region 0 on core `c`: the arrays as the region finds them; after the body at point `t`
    the two row blocks in place, the score block, and in the two one-word output windows the scratch words of
    that point (only the last point stores and writes them back; at the others the windows are idle and this
    entry is never consulted). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (iblk0 V c 0 t) (iblk0 V c 1 t)
    | ⟨3, _⟩ => (scAt0 V c t.val t.isLt).1
    | ⟨4, _⟩ => (scAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = k0_pay3 (iblk0 V c 0 t) (iblk0 V c 1 t) := by dsimp only [dat0]
theorem after0_3 (c : Dev nD) (t : Fin cfg0.N) : (dat0 V c).after 3 t = (scAt0 V c t.val t.isLt).1 := by dsimp only [dat0]
theorem after0_4 (c : Dev nD) (t : Fin cfg0.N) : (dat0 V c).after 4 t = (scAt0 V c t.val t.isLt).2 := by dsimp only [dat0]

/-! ## Region 1: the weighted rows -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of region 1 on core `c`: the arrays as the region finds them; after the body at point `t` the
    four inputs in place and the output block at the weighted rows of the point's blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 0 t) (iblk1 V c 1 t) (iblk1 V c 2 t) (iblk1 V c 3 t) := by dsimp only [dat1]

end Cert.KernelIdeal.Hand

end
-- ==== Proof.KI.R0Body.lean ====
/-
  Region 0's body obligation: at every grid point the score kernel, handed its two row blocks and the scratch words the
  point before left, leaves the score block, the updated scratch words and, at the last point, the two totals.
-/
import proofs.«427403_j16810501996741_2_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel's two conditions and its whole-buffer accesses -/

/-- The condition under which the kernel resets the two scratch words: the grid coordinate is 0. -/
abbrev condFirst (i : grid0.Coords) : Prop := (Scalar.cmpi .ne (Scalar.extui (Scalar.cmpi .eq (BitVec.ofNat 32 (i 0).val) 0#32)) 0#32) = 1#1
/-- The condition under which the kernel copies the two scratch words into the two one-word outputs: the grid coordinate is 59. -/
abbrev condLast (i : grid0.Coords) : Prop := k0_cond2 i = 1#1

/-- The zero offsets of a rank-2 access, as a constant function. -/
theorem hz2 : (![0, 0] : Fin 2 → Nat) = fun _ => 0 := funext fun a => by fin_cases a <;> rfl

/-- A list of stores whose last one is through the whole-shape rectangle at zero offsets covers the shape. -/
theorem cover_cons_unit_zero {Val : EltTy → Type} {S : Shape} {e : EltTy} {off : Fin S.rank → Nat} (h : off = fun _ => 0)
    (inb : ∀ a, off a + S.size a ≤ S.size a) (w : S.Idx → Val e) (L : List (View.Piece Val S e)) :
    ∀ y : S.Idx, ∃ p ∈ ((⟨Rect.unit off S.size inb, w⟩ : View.Piece Val S e) :: L), y ∈ p.1.set :=
  fun y => ⟨_, List.mem_cons_self, View.mem_set_unit_zero h inb y⟩

/-! ## The kernel on whole buffers, in each of its three control cases

Every load and store of the kernel is through the whole buffer, so a stored buffer reads back as the stored value and a
load reads the contents. At a middle point the score block becomes the scores of the two row blocks, the running maximum
`mo` becomes the maximum of `mo` and the block's largest score, and the running sum `lo` is rescaled to the new maximum
and increased by the block's exponentials; the two one-word outputs are untouched. The first point does the same from the
reset values; the last point also copies the two updated words into the two one-word outputs. -/

set_option maxHeartbeats 1000000 in
theorem run_mid (c : Dev nD) (i : grid0.Coords) (hc0 : ¬ condFirst i) (hc1 : ¬ condLast i)
    (arg1 : Memref sig .tc .vmem S10000x128 .f32) (h1 : arg1.IsWhole) (arg2 : Memref sig .tc .vmem S10000x128 .f32) (h2 : arg2.IsWhole)
    (arg3 : Memref sig .tc .vmem S10000x1 .f32) (h3 : arg3.IsWhole)
    (arg4 : Memref sig .tc .vmem S1x1 .f32) (h4 : arg4.IsWhole) (arg5 : Memref sig .tc .vmem S1x1 .f32) (h5 : arg5.IsWhole)
    (arg6 : Memref sig .tc .vmem S1x1 .f32) (h6 : arg6.IsWhole) (arg7 : Memref sig .tc .vmem S1x1 .f32) (h7 : arg7.IsWhole)
    (x0 x1 : Vec F S10000x128 .f32) (y3 y4 mo lo : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4 ∗ owns (c : Thread nD τ) arg6 fullShare mo ∗ owns (c : Thread nD τ) arg7 fullShare lo
        ∗ (iprop(owns (c : Thread nD τ) arg1 fullShare x0 ∗ owns (c : Thread nD τ) arg2 fullShare x1 ∗ owns (c : Thread nD τ) arg3 fullShare (k0_pay3 x0 x1)
            ∗ owns (c : Thread nD τ) arg4 fullShare y3 ∗ owns (c : Thread nD τ) arg5 fullShare y4
            ∗ owns (c : Thread nD τ) arg6 fullShare (k0_pay6 x0 x1 mo) ∗ owns (c : Thread nD τ) arg7 fullShare (k0_pay5 x0 x1 mo mo lo)) -∗ K ⟨⟩))
      ⊢ wp frame (wpE (defs₀ (F := F)) Variants.none c none) E (cc0__scores_kernel i arg1 h1 arg2 h2 arg3 h3 arg4 h4 arg5 h5 arg6 h6 arg7 h7) K := by
  simp only [cc0__scores_kernel_eq_skeleton]; unfold cc0__scores_kernel_skel
  unfold owns
  iintro ⟨⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  obtain rfl := h1.eq_unread hf1; obtain rfl := h2.eq_unread hf2
  obtain rfl := h4.eq_unread hf4; obtain rfl := h5.eq_unread hf5
  obtain rfl := h6.eq_unread hf6; obtain rfl := h7.eq_unread hf7
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    sl_unfold_words
    rw [View.read_writes_eq_canon _ _ _ (cover_cons_unit_zero hz2 _ _ _), View.canon_cons_unit_zero hz2]
    simp only [View.readAt_eq_ld, h1.read_unread, h2.read_unread, h6.read_unread, h7.read_unread, View.ld_unit_zero (S := S10000x128) hz2, View.ld_unit_zero (S := S1x1) hz2]
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    sl_unfold_words
    rw [View.read_writes_eq_canon _ _ _ (cover_cons_unit_zero hz2 _ _ _), View.canon_cons_unit_zero hz2]
    simp only [View.readAt_eq_ld, h1.read_unread, h2.read_unread, h6.read_unread, h7.read_unread, View.ld_unit_zero (S := S10000x128) hz2, View.ld_unit_zero (S := S1x1) hz2]
  iexists _; isplitr
  swap; · iexact H7
  ipureintro
  sl_unfold_words
  rw [View.read_writes_eq_canon _ _ _ (cover_cons_unit_zero hz2 _ _ _), View.canon_cons_unit_zero hz2]
  simp only [View.readAt_eq_ld, h1.read_unread, h2.read_unread, h6.read_unread, h7.read_unread, View.ld_unit_zero (S := S10000x128) hz2, View.ld_unit_zero (S := S1x1) hz2]

set_option maxHeartbeats 1000000 in
theorem run_first (c : Dev nD) (i : grid0.Coords) (hc0 : condFirst i) (hc1 : ¬ condLast i)
    (arg1 : Memref sig .tc .vmem S10000x128 .f32) (h1 : arg1.IsWhole) (arg2 : Memref sig .tc .vmem S10000x128 .f32) (h2 : arg2.IsWhole)
    (arg3 : Memref sig .tc .vmem S10000x1 .f32) (h3 : arg3.IsWhole)
    (arg4 : Memref sig .tc .vmem S1x1 .f32) (h4 : arg4.IsWhole) (arg5 : Memref sig .tc .vmem S1x1 .f32) (h5 : arg5.IsWhole)
    (arg6 : Memref sig .tc .vmem S1x1 .f32) (h6 : arg6.IsWhole) (arg7 : Memref sig .tc .vmem S1x1 .f32) (h7 : arg7.IsWhole)
    (x0 x1 : Vec F S10000x128 .f32) (y3 y4 : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare y3 ∗ owns (c : Thread nD τ) arg5 fullShare y4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (k0_pay3 x0 x1)
            ∗ owns (c : Thread nD τ) arg4 fullShare y3 ∗ owns (c : Thread nD τ) arg5 fullShare y4
            ∗ owns (c : Thread nD τ) arg6 fullShare (k0_pay6 x0 x1 (k0_pay1 (F := F))) ∗ owns (c : Thread nD τ) arg7 fullShare (k0_pay5 x0 x1 (k0_pay1 (F := F)) (k0_pay1 (F := F)) (k0_pay2 (F := F)))) -∗ K ⟨⟩))
      ⊢ wp frame (wpE (defs₀ (F := F)) Variants.none c none) E (cc0__scores_kernel i arg1 h1 arg2 h2 arg3 h3 arg4 h4 arg5 h5 arg6 h6 arg7 h7) K := by
  simp only [cc0__scores_kernel_eq_skeleton]; unfold cc0__scores_kernel_skel
  unfold owns
  iintro ⟨⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  obtain rfl := h1.eq_unread hf1; obtain rfl := h2.eq_unread hf2
  obtain rfl := h4.eq_unread hf4; obtain rfl := h5.eq_unread hf5
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    sl_unfold_words
    rw [View.read_writes_eq_canon _ _ _ (cover_cons_unit_zero hz2 _ _ _), View.canon_cons_unit_zero hz2]
    simp only [View.readAt_eq_ld, h1.read_unread, h2.read_unread, View.ld_unit_zero (S := S10000x128) hz2, View.ld_unit_zero (S := S1x1) hz2, View.readCov_unit_zero (S := S1x1) _ hz2]
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    sl_unfold_words
    rw [View.read_writes_eq_canon _ _ _ (cover_cons_unit_zero hz2 _ _ _), View.canon_cons_unit_zero hz2]
    simp only [View.readAt_eq_ld, h1.read_unread, h2.read_unread, View.ld_unit_zero (S := S10000x128) hz2, View.ld_unit_zero (S := S1x1) hz2, View.readCov_unit_zero (S := S1x1) _ hz2]
  iexists _; isplitr
  swap; · iexact H7
  ipureintro
  sl_unfold_words
  rw [View.read_writes_eq_canon _ _ _ (cover_cons_unit_zero hz2 _ _ _), View.canon_cons_unit_zero hz2]
  simp only [View.readAt_eq_ld, h1.read_unread, h2.read_unread, View.ld_unit_zero (S := S10000x128) hz2, View.ld_unit_zero (S := S1x1) hz2, View.readCov_unit_zero (S := S1x1) _ hz2]

set_option maxHeartbeats 1000000 in
theorem run_last (c : Dev nD) (i : grid0.Coords) (hc0 : ¬ condFirst i) (hc1 : condLast i)
    (arg1 : Memref sig .tc .vmem S10000x128 .f32) (h1 : arg1.IsWhole) (arg2 : Memref sig .tc .vmem S10000x128 .f32) (h2 : arg2.IsWhole)
    (arg3 : Memref sig .tc .vmem S10000x1 .f32) (h3 : arg3.IsWhole)
    (arg4 : Memref sig .tc .vmem S1x1 .f32) (h4 : arg4.IsWhole) (arg5 : Memref sig .tc .vmem S1x1 .f32) (h5 : arg5.IsWhole)
    (arg6 : Memref sig .tc .vmem S1x1 .f32) (h6 : arg6.IsWhole) (arg7 : Memref sig .tc .vmem S1x1 .f32) (h7 : arg7.IsWhole)
    (x0 x1 : Vec F S10000x128 .f32) (mo lo : Vec F S1x1 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d) ∗ owns (c : Thread nD τ) arg6 fullShare mo ∗ owns (c : Thread nD τ) arg7 fullShare lo
        ∗ (iprop(owns (c : Thread nD τ) arg1 fullShare x0 ∗ owns (c : Thread nD τ) arg2 fullShare x1 ∗ owns (c : Thread nD τ) arg3 fullShare (k0_pay3 x0 x1)
            ∗ owns (c : Thread nD τ) arg4 fullShare (k0_pay6 x0 x1 mo) ∗ owns (c : Thread nD τ) arg5 fullShare (k0_pay5 x0 x1 mo mo lo)
            ∗ owns (c : Thread nD τ) arg6 fullShare (k0_pay6 x0 x1 mo) ∗ owns (c : Thread nD τ) arg7 fullShare (k0_pay5 x0 x1 mo mo lo)) -∗ K ⟨⟩))
      ⊢ wp frame (wpE (defs₀ (F := F)) Variants.none c none) E (cc0__scores_kernel i arg1 h1 arg2 h2 arg3 h3 arg4 h4 arg5 h5 arg6 h6 arg7 h7) K := by
  simp only [cc0__scores_kernel_eq_skeleton]; unfold cc0__scores_kernel_skel
  unfold owns
  iintro ⟨⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  obtain rfl := h1.eq_unread hf1; obtain rfl := h2.eq_unread hf2
  obtain rfl := h6.eq_unread hf6; obtain rfl := h7.eq_unread hf7
  sl_exec (disch := first | exact hc0 | exact hc1)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr
    swap; · iexact H3
    ipureintro
    sl_unfold_words
    rw [View.read_writes_eq_canon _ _ _ (cover_cons_unit_zero hz2 _ _ _), View.canon_cons_unit_zero hz2]
    simp only [View.readAt_eq_ld, h1.read_unread, h2.read_unread, h6.read_unread, h7.read_unread, View.ld_unit_zero (S := S10000x128) hz2, View.ld_unit_zero (S := S1x1) hz2, View.readCov_unit_zero (S := S1x1) _ hz2]
  isplitl [H4]
  · iexists _; isplitr
    swap; · iexact H4
    ipureintro
    sl_unfold_words
    rw [View.read_writes_eq_canon _ _ _ (cover_cons_unit_zero hz2 _ _ _), View.canon_cons_unit_zero hz2]
    simp only [View.readAt_eq_ld, h1.read_unread, h2.read_unread, h6.read_unread, h7.read_unread, View.ld_unit_zero (S := S10000x128) hz2, View.ld_unit_zero (S := S1x1) hz2, View.readCov_unit_zero (S := S1x1) _ hz2]
  isplitl [H5]
  · iexists _; isplitr
    swap; · iexact H5
    ipureintro
    sl_unfold_words
    rw [View.read_writes_eq_canon _ _ _ (cover_cons_unit_zero hz2 _ _ _), View.canon_cons_unit_zero hz2]
    simp only [View.readAt_eq_ld, h1.read_unread, h2.read_unread, h6.read_unread, h7.read_unread, View.ld_unit_zero (S := S10000x128) hz2, View.ld_unit_zero (S := S1x1) hz2, View.readCov_unit_zero (S := S1x1) _ hz2]
  isplitl [H6]
  · iexists _; isplitr
    swap; · iexact H6
    ipureintro
    sl_unfold_words
    rw [View.read_writes_eq_canon _ _ _ (cover_cons_unit_zero hz2 _ _ _), View.canon_cons_unit_zero hz2]
    simp only [View.readAt_eq_ld, h1.read_unread, h2.read_unread, h6.read_unread, h7.read_unread, View.ld_unit_zero (S := S10000x128) hz2, View.ld_unit_zero (S := S1x1) hz2, View.readCov_unit_zero (S := S1x1) _ hz2]
  iexists _; isplitr
  swap; · iexact H7
  ipureintro
  sl_unfold_words
  rw [View.read_writes_eq_canon _ _ _ (cover_cons_unit_zero hz2 _ _ _), View.canon_cons_unit_zero hz2]
  simp only [View.readAt_eq_ld, h1.read_unread, h2.read_unread, h6.read_unread, h7.read_unread, View.ld_unit_zero (S := S10000x128) hz2, View.ld_unit_zero (S := S1x1) hz2, View.readCov_unit_zero (S := S1x1) _ hz2]

variable (V : (c : Dev nD) → (b : Ref sig .tc) → Buf (Elt F) ((c : Thread nD τ).loc b))

/-! ## The two conditions, decided over the grid -/

/-- The first-point condition holds at point 0 only. -/
theorem hcondFirst : ∀ t : Fin cfg0.N, condFirst (grid0.coords t) ↔ t.val = 0 :=
  (by decide +kernel : ∀ t : Fin grid0.N, condFirst (grid0.coords t) ↔ t.val = 0)
/-- The last-point condition holds at point 59 only. -/
theorem hcondLast : ∀ t : Fin cfg0.N, condLast (grid0.coords t) ↔ t.val = 59 :=
  (by decide +kernel : ∀ t : Fin grid0.N, condLast (grid0.coords t) ↔ t.val = 59)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem idle0_3 : ∀ t : Fin cfg0.N, ¬condLast (grid0.coords t) → cfg0.idle 3 (grid0.coords t) = true := by decide +kernel
theorem noFlush0_3 : ∀ t : Fin cfg0.N, ¬condLast (grid0.coords t) → (cfg0.win 3).flush t = false := by decide +kernel
theorem live0_3 : ∀ t : Fin cfg0.N, condLast (grid0.coords t) → cfg0.idle 3 (grid0.coords t) = false := by decide +kernel
theorem idle0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
theorem live0_4 : ∀ t : Fin cfg0.N, condLast (grid0.coords t) → cfg0.idle 4 (grid0.coords t) = false := by decide +kernel

/-! ## What the input windows hold when the body runs -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The scratch words and the invariant, point by point -/

theorem scAt0_first (c : Dev nD) (t : Fin cfg0.N) (h : t.val = 0) :
    scAt0 V c t.val t.isLt = (k0_pay6 (iblk0 V c 0 t) (iblk0 V c 1 t) (k0_pay1 (F := F)),
      k0_pay5 (iblk0 V c 0 t) (iblk0 V c 1 t) (k0_pay1 (F := F)) (k0_pay1 (F := F)) (k0_pay2 (F := F))) := by
  obtain ⟨n, hn⟩ := t
  cases n with
  | zero => rfl
  | succ n => exact absurd h (Nat.succ_ne_zero n)

theorem scAt0_later (c : Dev nD) (t : Fin cfg0.N) (h : t.val ≠ 0) :
    scAt0 V c t.val t.isLt =
      (k0_pay6 (iblk0 V c 0 t) (iblk0 V c 1 t) (scAt0 V c (t.val - 1) (Nat.lt_of_le_of_lt (Nat.sub_le _ _) t.isLt)).1,
       k0_pay5 (iblk0 V c 0 t) (iblk0 V c 1 t) (scAt0 V c (t.val - 1) (Nat.lt_of_le_of_lt (Nat.sub_le _ _) t.isLt)).1
         (scAt0 V c (t.val - 1) (Nat.lt_of_le_of_lt (Nat.sub_le _ _) t.isLt)).1 (scAt0 V c (t.val - 1) (Nat.lt_of_le_of_lt (Nat.sub_le _ _) t.isLt)).2) := by
  obtain ⟨n, hn⟩ := t
  cases n with
  | zero => exact absurd rfl h
  | succ n => rfl

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare (scAt0 V c n hn).1
      ∗ owns (c : Thread nD τ) scM0_1 fullShare (scAt0 V c n hn).2
      ∗ otherScoped0 (F := F) c ∗ (∃ r, prngReg c r)) := rfl

theorem PhiS0_pos (c : Dev nD) (n : ℕ) (h : n ≤ cfg0.N) (hz : n ≠ 0) :
    PhiS0 V c n h = iprop(owns (c : Thread nD τ) scM0_0 fullShare (scAt0 V c (n - 1) (by omega)).1
      ∗ owns (c : Thread nD τ) scM0_1 fullShare (scAt0 V c (n - 1) (by omega)).2
      ∗ otherScoped0 (F := F) c ∗ (∃ r, prngReg c r)) := by
  cases n with
  | zero => exact absurd rfl hz
  | succ n => rfl

theorem PhiS0_castSucc (c : Dev nD) (t : Fin cfg0.N) :
    (dat0 V c).Φ t.castSucc = PhiS0 V c t.val (Nat.le_of_lt t.isLt) := by
  dsimp only [dat0]; simp only [Fin.coe_castSucc]

/-- What the launch hands a region, with the two scratch words as memrefs owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d)
          ∗ otherScoped0 (F := F) c) ∗ (∃ r, prngReg c r)) := by
  unfold Pipeline.ΦA otherScoped0; rw [scopedRest0_eq]; simp only [scM0_0, scM0_1, owns_whole]; try rfl

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2]
  have hN : t.val < 60 := lt_of_lt_of_eq t.isLt (show cfg0.N = 60 from N_0)
  by_cases hF : t.val = 0
  · have hL : ¬ t.val = 59 := by omega
    have hc0 : condFirst (grid0.coords t) := (hcondFirst t).mpr hF
    have hc1 : ¬ condLast (grid0.coords t) := fun h => hL ((hcondLast t).mp h)
    rw [Dat.leavesExact_idle (dat0 V c) 3 t (idle0_3 t hc1) (noFlush0_3 t hc1),
      Dat.leavesExact_idle (dat0 V c) 4 t (idle0_4 t hc1) (noFlush0_4 t hc1)]
    rw [scAt0_first V c t hF]; dsimp only
    rw [PhiS0_castSucc V c t, PhiS0_zero V c _ _ hF, PhiA0_eq]
    iintro ⟨⟨⟨⟨%s0, HS0⟩, ⟨%s1, HS1⟩, Hoth⟩, Hg⟩, Ho, ⟨%d0, H0⟩, ⟨%d1, H1⟩, ⟨%d2, H2⟩, ⟨%d3, H3⟩, ⟨%d4, H4⟩⟩
    iapply (run_first c (grid0.coords t) hc0 hc1 _ _ _ _ _ _ _ _ _ _ _ _ _ _ (iblk0 V c 0 t) (iblk0 V c 1 t)
      ((dat0 V c).before 3 t d3) ((dat0 V c).before 4 t d4) Set.univ _)
    isplitl [H0]; · iexact H0
    isplitl [H1]; · iexact H1
    isplitl [H2]; · iexists _; iexact H2
    isplitl [H3]; · iexact H3
    isplitl [H4]; · iexact H4
    isplitl [HS0]; · iexists _; iexact HS0
    isplitl [HS1]; · iexists _; iexact HS1
    iintro ⟨H0, H1, H2, H3, H4, HS0, HS1⟩
    isplitl [HS0 HS1 Hoth Hg]
    · isplitl [HS0]; · iexact HS0
      isplitl [HS1]; · iexact HS1
      isplitl [Hoth]; · iexact Hoth
      iexact Hg
    isplitl [Ho]; · iexact Ho
    isplitl [H0]; · iexact H0
    isplitl [H1]; · iexact H1
    isplitl [H2]; · iexact H2
    isplitl [H3]; · iexists _; iexact H3
    iexists _; iexact H4
  · by_cases hL : t.val = 59
    · have hc0 : ¬ condFirst (grid0.coords t) := fun h => hF ((hcondFirst t).mp h)
      have hc1 : condLast (grid0.coords t) := (hcondLast t).mpr hL
      rw [show (dat0 V c).leavesExact 3 t = owns (c : Thread nD τ) (st0_3 t) fullShare ((dat0 V c).after 3 t) from by
        unfold Dat.leavesExact; rw [live0_3 t hc1], after0_3]
      rw [show (dat0 V c).leavesExact 4 t = owns (c : Thread nD τ) (st0_4 t) fullShare ((dat0 V c).after 4 t) from by
        unfold Dat.leavesExact; rw [live0_4 t hc1], after0_4]
      rw [scAt0_later V c t hF]; dsimp only
      rw [PhiS0_castSucc V c t, PhiS0_pos V c _ _ hF]
      iintro ⟨⟨HS0, HS1, Hoth, Hg⟩, Ho, ⟨%d0, H0⟩, ⟨%d1, H1⟩, ⟨%d2, H2⟩, ⟨%d3, H3⟩, ⟨%d4, H4⟩⟩
      iapply (run_last c (grid0.coords t) hc0 hc1 _ _ _ _ _ _ _ _ _ _ _ _ _ _ (iblk0 V c 0 t) (iblk0 V c 1 t)
        (scAt0 V c (t.val - 1) (Nat.lt_of_le_of_lt (Nat.sub_le _ _) t.isLt)).1 (scAt0 V c (t.val - 1) (Nat.lt_of_le_of_lt (Nat.sub_le _ _) t.isLt)).2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      isplitl [H2]; · iexact H2
      isplitl [H3]; · iexact H3
      iexact H4
    · have hc0 : ¬ condFirst (grid0.coords t) := fun h => hF ((hcondFirst t).mp h)
      have hc1 : ¬ condLast (grid0.coords t) := fun h => hL ((hcondLast t).mp h)
      rw [Dat.leavesExact_idle (dat0 V c) 3 t (idle0_3 t hc1) (noFlush0_3 t hc1),
        Dat.leavesExact_idle (dat0 V c) 4 t (idle0_4 t hc1) (noFlush0_4 t hc1)]
      rw [scAt0_later V c t hF]; dsimp only
      rw [PhiS0_castSucc V c t, PhiS0_pos V c _ _ hF]
      iintro ⟨⟨HS0, HS1, Hoth, Hg⟩, Ho, ⟨%d0, H0⟩, ⟨%d1, H1⟩, ⟨%d2, H2⟩, ⟨%d3, H3⟩, ⟨%d4, H4⟩⟩
      iapply (run_mid c (grid0.coords t) hc0 hc1 _ _ _ _ _ _ _ _ _ _ _ _ _ _ (iblk0 V c 0 t) (iblk0 V c 1 t)
        ((dat0 V c).before 3 t d3) ((dat0 V c).before 4 t d4)
        (scAt0 V c (t.val - 1) (Nat.lt_of_le_of_lt (Nat.sub_le _ _) t.isLt)).1 (scAt0 V c (t.val - 1) (Nat.lt_of_le_of_lt (Nat.sub_le _ _) t.isLt)).2 Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hoth Hg]
      · isplitl [HS0]; · iexact HS0
        isplitl [HS1]; · iexact HS1
        isplitl [Hoth]; · iexact Hoth
        iexact Hg
      isplitl [Ho]; · iexact Ho
      isplitl [H0]; · iexact H0
      isplitl [H1]; · iexact H1
      isplitl [H2]; · iexact H2
      isplitl [H3]; · iexists _; iexact H3
      iexists _; iexact H4

/-- The library's body obligation of region 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives back what the launch handed over: the scratch words' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 60 := N_0; omega), PhiA0_eq]
  iintro ⟨HS0, HS1, Hoth, Hg⟩
  isplitr [Hg]
  · isplitl [HS0]; · iexists _; iexact HS0
    isplitl [HS1]; · iexists _; iexact HS1
    iexact Hoth
  iexact Hg

end Cert.KernelIdeal.Hand

end
-- ==== Proof.KI.R1Body.lean ====
/-
  Region 1's body obligation: at every grid point the weighting kernel, handed a score block, a row block and the two
  totals, leaves the rows scaled by their softmax weights.

  The four input windows hold their blocks at every point: the score block and the row block are brought in at
  every point; the two one-word totals are brought in at the first point only, and at a later point the block index
  has not moved, so the word still held is that point's block. The body reads the four whole buffers and overwrites
  the whole output buffer with the weighted rows; one store through the whole buffer leaves exactly its payload, and
  a load through the whole buffer reads exactly the contents.
-/
import proofs.«427403_j16810501996741_2_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks -/

/-- Input window 0 (the score block) holds its block at every point, for any proof data whose array is the
    region-entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the row block) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the total maximum): brought in at the first point only; later its block index has not moved,
    so what the buffer still holds is the point's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the total sum) likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's triple -/

/-- The zero offsets of a two-axis rectangle, however spelt. -/
theorem offs_zero1 : (![0, 0] : Fin 2 → Nat) = fun _ => 0 := by
  funext a; fin_cases a <;> rfl

/-- The one store of the body goes through the whole output buffer, so it covers it. -/
theorem cover1_4 (p : Vec F S10000x128 .f32) (y : S10000x128.Idx) :
    ∃ pc ∈ ([⟨Rect.unit (s := S10000x128) ![0, 0] S10000x128.size inb_S10000x128_S10000x128_0_0, p⟩] :
      List (View.Piece (Elt F) S10000x128 .f32)), y ∈ pc.1.set :=
  ⟨_, List.mem_singleton_self _, View.mem_set_unit_zero offs_zero1 inb_S10000x128_S10000x128_0_0 y⟩

set_option maxHeartbeats 1000000 in
/-- The weighting kernel on whole staging memrefs, the four inputs' at read contents and the output's at anything,
    runs to the continuation holding the inputs' as they were and the output's at the weighted rows of the inputs. -/
theorem sound_kernel1 (c : Dev nD) (E : Set ℕ) (i : grid1.Coords)
    (arg1 : Memref sig .tc .vmem S10000x1 .f32) (harg1 : arg1.IsWhole)
    (arg2 : Memref sig .tc .vmem S10000x128 .f32) (harg2 : arg2.IsWhole)
    (arg3 : Memref sig .tc .vmem S1x1 .f32) (harg3 : arg3.IsWhole)
    (arg4 : Memref sig .tc .vmem S1x1 .f32) (harg4 : arg4.IsWhole)
    (arg5 : Memref sig .tc .vmem S10000x128 .f32) (harg5 : arg5.IsWhole)
    (x0 : Vec F S10000x1 .f32) (x1 : Vec F S10000x128 .f32) (x2 x3 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 x0 x1 x2 x3)) -∗ K ⟨⟩))
      ⊢ wp frame (wpE (defs₀ (F := F)) Variants.none c none) E
          (cc1__weighted_kernel i arg1 harg1 arg2 harg2 arg3 harg3 arg4 harg4 arg5 harg5) K := by
  simp only [cc1__weighted_kernel_eq_skeleton]; unfold cc1__weighted_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover1_4 _), View.canon_unit_zero offs_zero1]
  simp only [View.readAt_eq_ld, View.ld_unit_zero (S := S10000x1) offs_zero1, View.ld_unit_zero (S := S10000x128) offs_zero1,
    View.ld_unit_zero (S := S1x1) offs_zero1]

/-! ## The body obligation, at a generic point -/

/-- What the body is called with at point `t`: the invariant, what the core owes, and each window's current
    staging buffer at what it holds before the body, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1000000 in
/-- The body at any point: the four inputs' buffers hold their blocks, so the kernel's triple applies at those
    blocks; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Bounds.lean ====
/-
  The buffer contents at each boundary of the program's run, as a fold from the launch memory: a host stretch applies
  its operations; a region leaves its output arrays at what its write-backs folded and every other buffer as entered.
-/
import proofs.«427403_j16810501996741_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)
/-- After the two index columns are sliced out of the edge list. -/
abbrev W1 : Dev nD → Valuation τ sig (Elt F) := fun c => StableHlo.after hostOps0 (W0 m c)
/-- After the source rows are gathered. -/
abbrev W2 : Dev nD → Valuation τ sig (Elt F) := fun c => StableHlo.after hostOps0_1 (W1 m c)
/-- After the neighbour rows are gathered: region 0's entry. -/
abbrev W3 : Dev nD → Valuation τ sig (Elt F) := fun c => StableHlo.after hostOps0_2 (W2 m c)
/-- The same read at the TensorCore's references (what region 0's proof data take). -/
abbrev V3 : (c : Dev nD) → (b : Ref sig .tc) → Buf (Elt F) ((c : Thread nD τ).loc b) := fun c b => W3 m c b
/-- At region 0's exit: its arrays at what the pipeline leaves, every other buffer as entered. -/
def W4 (c : Dev nD) : Valuation τ sig (Elt F) :=
  Pipeline.withArrays spec0 c (W3 m c) fun w => (dat0 (V3 m) c).arrAt w cfg0.N
/-- The same read at the TensorCore's references (what region 1's proof data take). -/
abbrev V4 : (c : Dev nD) → (b : Ref sig .tc) → Buf (Elt F) ((c : Thread nD τ).loc b) := fun c b => W4 m c b
/-- At region 1's exit: its arrays at what the pipeline leaves, every other buffer as entered. -/
def W5 (c : Dev nD) : Valuation τ sig (Elt F) :=
  Pipeline.withArrays spec1 c (W4 m c) fun w => (dat1 (V4 m) c).arrAt w cfg1.N
/-- After the scatter-add of the weighted rows and the residual sum: the return. -/
abbrev W6 : Dev nD → Valuation τ sig (Elt F) := fun c => StableHlo.after hostOps2 (W5 m c)

theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb

/-- An unscoped TensorCore reference is among those the run reads at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.Run.lean ====
/-
  The run of the whole program: @main as host stretches and the two kernel regions, from the launch to the return.
  The buffer contents at each boundary are a fold from the launch memory: a host stretch applies its operations; a
  region leaves its output arrays at what its write-backs folded and every other buffer as entered. Every weakly fair
  execution terminates and the final memory holds, at every unscoped buffer, the last boundary's contents; the two
  argument arrays are read back through the fold to their launch contents.
-/
import proofs.«427403_j16810501996741_2_alg».proof.Proof.KI.R0Body
import proofs.«427403_j16810501996741_2_alg».proof.Proof.KI.R1Body
import proofs.«427403_j16810501996741_2_alg».proof.Proof.Gen.KernelIdeal.Regions
import proofs.«427403_j16810501996741_2_alg».proof.Proof.KI.Bounds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region leaves

At a region's exit each of its arrays holds what the pipeline's write-backs folded, and every other buffer what it
held at entry. -/

theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- Region 1's exit contents read at the TensorCore's references. -/
abbrev Vexit1 : (c : Dev nD) → (b : Ref sig .tc) → Buf (Elt F) ((c : Thread nD τ).loc b) := fun c b => W5 m c b
theorem hF1 (c : Dev nD) (w : Fin cfg1.W) : (dat1 (V4 m) c).arrAt w cfg1.N = Vexit1 m c (Pipeline.arrRef spec1 w) :=
  (W5_arr m c w).symm
theorem hrest1 (c : Dev nD) : ∀ b, b ∉ Finset.univ.image (Pipeline.arrRef spec1) → Vexit1 m c b = V4 m c b :=
  fun b hb => W5_of_ne m c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V4 m) c
abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every segment: the core's generator register at some state (a region's
    invariant takes it in and gives it back) and what the core owes, which is nothing. -/
abbrev Rest (c : Dev nD) : sProp 𝕄 := iprop((∃ r, prngReg c r) ∗ ∃ W, owes (c : Thread nD τ) (0 : CellTallies nD τ sig Unit) W)
/-- A host stretch as a segment: from every unscoped buffer at the contents W to the same buffers at what the
    stretch's operations make of W, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- The last thread state without what the core owes: every unscoped buffer at the return's contents, the generator
    register at some state. -/
abbrev Tₙ (c : Dev nD) : sProp 𝕄 := iprop(StableHlo.held (c : Thread nD τ) (Pipeline.ucRefs τ sig) (W6 m c) ∗ ∃ r, prngReg c r)

/-- What the last host stretch leaves is the last thread state beside the core owing nothing. -/
theorem last_state (c : Dev nD) :
    iprop(StableHlo.held (c : Thread nD τ) (Pipeline.ucRefs τ sig) (W6 m c) ∗ Rest c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at the contents after the three host
    stretches, left at those contents with the region's arrays at what the pipeline folded. Its arrays are split out
    of the unscoped buffers at entry and put back at exit; the generator register and the scoped buffers no window
    stages go into the region invariant, which carries the two scratch words from point to point and forgets them at
    the end; nothing is owed; the kernel has no semaphore of its own. -/
def reg0 : Pipeline.RegionSeg (pcfgs (F := F)) adm (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L₀ lv₀ 0 fun _ _ => rfl
  pre c := iprop(StableHlo.held (c : Thread nD τ) (Pipeline.ucRefs τ sig) (W3 m c) ∗ Rest c)
  post c := iprop(StableHlo.held (c : Thread nD τ) (Pipeline.ucRefs τ sig) (W4 m c) ∗ Rest c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V3 m) c)
    unfold Pipeline.ΦA
    iintro ⟨Hp, -, Hr⟩
    isplitl [Hr]; · iexact Hr
    iexact Hp
  hout c := by
    refine BIBase.Entails.trans (hout0 (V3 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from region 0's exit contents, left at those contents with the region's
    arrays at what the pipeline folded. Its invariant is the same at every point: the generator register and the
    scoped buffers no window stages. -/
def reg1 : Pipeline.RegionSeg (pcfgs (F := F)) adm (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L₀ lv₀ 1 fun _ _ => rfl
  pre c := iprop(StableHlo.held (c : Thread nD τ) (Pipeline.ucRefs τ sig) (W4 m c) ∗ Rest c)
  post c := iprop(StableHlo.held (c : Thread nD τ) (Pipeline.ucRefs τ sig) (W5 m c) ∗ Rest c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (Vexit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments -/

/-- @main's six segments in order: the three host stretches before region 0, each from its boundary's contents, the
    two regions, the host stretch after region 1. -/
abbrev runSegs : List (Pipeline.Seg (pcfgs (F := F)) adm (pdats m) () defs₀ 𝒱₀ L₀ lv₀) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .region (reg1 m),
    .host (hseg hostOps2 hostOps2_sub hostOps2_fresh (W5 m)) ]
/-- @main is the run of the segments: it is the chain of its items, and the segments' run is that chain. -/
theorem main_run (c : Dev nD) : main (F := F) c = Pipeline.Seg.run (runSegs m) := (main_chain c).trans (by chain_rfl)

/-! ## The run -/

set_option backward.isDefEq.respectTransparency.types false in
/-- Every weakly fair execution of @main from memory `m` with zero counters terminates, nothing faulting, and the
    final memory holds at every unscoped buffer of every core the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L₀ lv₀ m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tₙ m)
    (hch := ⟨fun _ => .rfl, fun _ => .rfl, fun _ => .rfl, fun _ => .rfl, fun _ => .rfl, fun _ => .rfl, fun c => last_state m c⟩)
    (hinit := by
      refine Pipeline.initEach L₀ lv₀ fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- No host stretch and no region writes the node table: it ends as launched. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps2 _ hostOps2_writes (by decide)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps0_2 _ hostOps0_2_writes (by decide)
    _ = W1 m c (Proc.devRef .tc main_arg0) := StableHlo.after_of_writes_sub hostOps0_1 _ hostOps0_1_writes (by decide)
    _ = W0 m c (Proc.devRef .tc main_arg0) := StableHlo.after_of_writes_sub hostOps0 _ hostOps0_writes (by decide)
    _ = m ((c : Thread nD τ).loc main_arg0) := rfl

/-- Nor the edge list. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps2 _ hostOps2_writes (by decide)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps0_2 _ hostOps0_2_writes (by decide)
    _ = W1 m c (Proc.devRef .tc main_arg1) := StableHlo.after_of_writes_sub hostOps0_1 _ hostOps0_1_writes (by decide)
    _ = W0 m c (Proc.devRef .tc main_arg1) := StableHlo.after_of_writes_sub hostOps0 _ hostOps0_writes (by decide)
    _ = m ((c : Thread nD τ).loc main_arg1) := rfl

/-- The frame claim at any `F`: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_main_arg0 m c),
     (h c _ (mem_uc main_arg1 (by decide))).trans (W6_main_arg1 m c)⟩) (run_all m ρ)

end Cert.KernelIdeal.Hand

end
-- ==== Proof.KI.Term.lean ====
/-
  The host-side pieces of the kernel's program as named functions of its two arguments.

  The edge list's two columns (`srcOf`, `dstOf`); a column of node numbers picks rows of the node table after a
  negative number is shifted up by the table's height, and a number that is still outside the table after the shift
  reads a row of the not-a-number word instead (`rowsK`: `inRange` is the test); the weighted rows summed at their
  source nodes, plus the node table (`tailOf`).
-/
import proofs.«427403_j16810501996741_2_alg».proof.KernelIdeal
import proofs.«427403_j16810501996741_2_alg».proof.Proof.Gen.KernelIdeal

noncomputable section

namespace Cert.KernelIdeal.Hand

open Cert.KernelIdeal Idealize.ShloMosaic
open Cert.KernelIdeal.Facts₀

variable {F : FTy → Type} [FloatOps F]

/-- Column `0` of the edge list, flattened: each edge's source node. -/
def srcOf (a1 : IVec S600000x2 32) : IVec S600000 32 :=
  shapeCast S600000 (extractStridedSlice S600000x1 ![0, 0] a1 slices_S600000x2_S600000x1_0_0) shapeCasts_S600000x1_S600000
/-- Column `1` of the edge list, flattened: each edge's neighbour node. -/
def dstOf (a1 : IVec S600000x2 32) : IVec S600000 32 :=
  shapeCast S600000 (extractStridedSlice S600000x1 ![0, 1] a1 slices_S600000x2_S600000x1_0_1) shapeCasts_S600000x1_S600000

/-- A node number as the row it picks: a negative one shifted up by the table's height. -/
def normIdx (idx : IVec S600000 32) : IVec S600000 32 :=
  select (cmpi .slt idx (broadcastInDim S600000 ![] bcast_S_S600000 (constantI S_ 32 0#32)))
    (addi idx (broadcastInDim S600000 ![] bcast_S_S600000 (constantI S_ 32 50000#32))) idx

/-- Whether each shifted node number lies inside the table: `0 ≤ i ≤ 49999`. -/
def inRange (i5 : IVec S600000x1 32) : IVec S600000 1 :=
  Host.reduce IntOp.andi
    (andi (cmpi .sge i5 (broadcastInDim S600000x1 ![] bcast_S_S600000x1 (constantI S_ 32 0#32)))
      (cmpi .sle i5 (broadcastInDim S600000x1 ![0, 1] bcast_S1x1_S600000x1_0_1 (broadcastInDim S1x1 ![1] bcast_S1_S1x1_1 (constantI S1 32 49999#32)))))
    (constantI S_ 1 1#1) reducesTo_S600000x1_S600000_d1 h_S_

/-- The rows of the node table a column of node numbers picks, a number outside the table reading the not-a-number word. -/
def rowsK (a0 : FVec F S50000x128 .f32) (idx : IVec S600000 32) : FVec F S600000x128 .f32 :=
  let i5 : IVec S600000x1 32 := broadcastInDim S600000x1 ![0] bcast_S600000_S600000x1_0 (normIdx idx)
  select (broadcastInDim S600000x128 ![0] bcast_S600000_S600000x128_0 (inRange i5))
    (Host.gather gather_S50000x128_S600000x1_S600000x128_1_0_n_n_0_1_1128 a0 i5)
    (broadcastInDim S600000x128 ![] bcast_S_S600000x128 (constant S_ .f32 0x7FC00000#32))

/-- The weighted rows summed at their source nodes, plus the node table. -/
def tailOf (a0 : FVec F S50000x128 .f32) (src : IVec S600000 32) (w : FVec F S600000x128 .f32) : FVec F S50000x128 .f32 :=
  addf (Host.scatterAdd scatter_S50000x128_S600000x1_S600000x128_1_0_0_1
      (broadcastInDim S50000x128 ![] bcast_S_S50000x128 (constant S_ .f32 0x00000000#32))
      (broadcastInDim S600000x1 ![0] bcast_S600000_S600000x1_0 src) w) a0

end Cert.KernelIdeal.Hand

end
-- ==== Proof.KI.HostVal.lean ====
/-
  The host stretches read back. Before region 0 the two gathered arrays are `rowsK` of the node table and the two index
  columns; after region 1 the result is `tailOf` of the node table, the source column and the weighted rows the region
  left. No region writes the index columns or the node table, so they are read through the regions unchanged.
-/
import proofs.«427403_j16810501996741_2_alg».proof.Proof.KI.Bounds
import proofs.«427403_j16810501996741_2_alg».proof.Proof.KI.Term
import proofs.«427403_j16810501996741_2_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (UR sig nD τ) ℕ

variable (m : (ℓ : Loc nD τ sig) → Buf (Elt F) ℓ)

/-- The two arguments as launched, at their literal types. -/
abbrev arg0Of (c : Dev nD) : FVec F S50000x128 .f32 := m ((c : Thread nD τ).loc main_arg0)
abbrev arg1Of (c : Dev nD) : IVec S600000x2 32 := m ((c : Thread nD τ).loc main_arg1)

/-- The source column after the first stretch. -/
theorem W1_src (c : Dev nD) : (W1 m c (Proc.devRef .tc main_v1) : IVec S600000 32) = srcOf (arg1Of m c) := by
  show StableHlo.after hostOps0 (W0 m c) (Proc.devRef .tc main_v1) = _
  after_results
  rfl

/-- The neighbour column after the first stretch. -/
theorem W1_dst (c : Dev nD) : (W1 m c (Proc.devRef .tc main_v3) : IVec S600000 32) = dstOf (arg1Of m c) := by
  show StableHlo.after hostOps0 (W0 m c) (Proc.devRef .tc main_v3) = _
  after_results
  rfl

/-- A buffer that neither gather stretch writes and that is no array of either region is, at region 1's exit, what
    the first stretch left. -/
theorem W5_keep (c : Dev nD) (b : Ref sig .tc) (h1 : b ∉ hostOps0_1_W) (h2 : b ∉ hostOps0_2_W)
    (hs0 : ∀ w, Pipeline.arrRef spec0 w ≠ b) (hs1 : ∀ w, Pipeline.arrRef spec1 w ≠ b) :
    W5 m c (Proc.devRef .tc b) = W1 m c (Proc.devRef .tc b) :=
  (W5_of_ne m c b hs1).trans <| (W4_of_ne m c b hs0).trans <|
    (StableHlo.after_of_writes_sub hostOps0_2 _ hostOps0_2_writes h2).trans
      (StableHlo.after_of_writes_sub hostOps0_1 _ hostOps0_1_writes h1)

/-- The first gather stretch, from any contents: its result is `rowsK` of the node table and the source column it finds. -/
theorem gather1_result (Wb : Valuation τ sig (Elt F)) :
    (StableHlo.after hostOps0_1 Wb (Proc.devRef .tc main_v4) : FVec F S600000x128 .f32)
      = rowsK (Wb (Proc.devRef .tc main_arg0)) (Wb (Proc.devRef .tc main_v1)) := by
  after_results
  simp only [StableHlo.TRef.toBuf, StableHlo.TRef.ofBuf, cast_eq]
  rfl

/-- The second gather stretch, from any contents: `rowsK` of the node table and the neighbour column it finds. -/
theorem gather2_result (Wb : Valuation τ sig (Elt F)) :
    (StableHlo.after hostOps0_2 Wb (Proc.devRef .tc main_v5) : FVec F S600000x128 .f32)
      = rowsK (Wb (Proc.devRef .tc main_arg0)) (Wb (Proc.devRef .tc main_v3)) := by
  after_results
  simp only [StableHlo.TRef.toBuf, StableHlo.TRef.ofBuf, cast_eq]
  rfl

/-- The first stretch leaves the node table as launched. -/
theorem W1_arg0 (c : Dev nD) : W1 m c (Proc.devRef .tc main_arg0) = m ((c : Thread nD τ).loc main_arg0) :=
  StableHlo.after_of_writes_sub hostOps0 _ hostOps0_writes (by decide)

/-- The source rows region 0 finds. -/
theorem W3_xi (c : Dev nD) :
    (W3 m c (Proc.devRef .tc main_v4) : FVec F S600000x128 .f32) = rowsK (arg0Of m c) (srcOf (arg1Of m c)) := by
  have e : W3 m c (Proc.devRef .tc main_v4) = W2 m c (Proc.devRef .tc main_v4) :=
    StableHlo.after_of_writes_sub hostOps0_2 _ hostOps0_2_writes (by decide)
  rw [e]
  refine (gather1_result (W1 m c)).trans ?_
  rw [W1_arg0, W1_src]

/-- The neighbour rows region 0 finds. -/
theorem W3_xj (c : Dev nD) :
    (W3 m c (Proc.devRef .tc main_v5) : FVec F S600000x128 .f32) = rowsK (arg0Of m c) (dstOf (arg1Of m c)) := by
  refine (gather2_result (W2 m c)).trans ?_
  have e0 : W2 m c (Proc.devRef .tc main_arg0) = W1 m c (Proc.devRef .tc main_arg0) :=
    StableHlo.after_of_writes_sub hostOps0_1 _ hostOps0_1_writes (by decide)
  have e3 : W2 m c (Proc.devRef .tc main_v3) = W1 m c (Proc.devRef .tc main_v3) :=
    StableHlo.after_of_writes_sub hostOps0_1 _ hostOps0_1_writes (by decide)
  rw [e0, e3, W1_arg0, W1_dst]

/-- The result: the weighted rows region 1 left, summed at their source nodes, plus the node table. -/
theorem W6_out (c : Dev nD) :
    (W6 m c (Proc.devRef .tc main_v11) : FVec F S50000x128 .f32)
      = tailOf (arg0Of m c) (srcOf (arg1Of m c)) (W5 m c (Proc.devRef .tc main_v7)) := by
  have e1 : W5 m c (Proc.devRef .tc main_v1) = W1 m c (Proc.devRef .tc main_v1) :=
    W5_keep m c main_v1 (by decide) (by decide) (by decide) (by decide)
  have e0 : W5 m c (Proc.devRef .tc main_arg0) = W1 m c (Proc.devRef .tc main_arg0) :=
    W5_keep m c main_arg0 (by decide) (by decide) (by decide) (by decide)
  have e0' := W1_arg0 m c
  show StableHlo.after hostOps2 (W5 m c) (Proc.devRef .tc main_v11) = _
  after_results
  rw [e1, e0, e0', W1_src]
  rfl

end Cert.KernelIdeal.Hand

end
-- ==== Proof.Spec.lean ====
/-
  The mathematics of the certificate, with no program in sight.

  For every edge `e` of 600000 there are two rows of 128 extended reals, `xi e` and `xj e`. The raw score of an
  edge is the inner product of its rows; the score is the leaky rectifier of the raw score with slope `0.2` (as an
  f32 word). Two spellings of the rectifier: one takes the identity branch where the raw score is positive, the other
  where it is non-negative; they agree because the slope times zero is zero.

  The global softmax over all edges is computed in two ways. ONE PASS: the maximum `MR` of all scores, the sum `LR`
  of the exponentials of the scores less that maximum, the weight of an edge its exponential over the sum. ONLINE, in
  60 blocks of 10000 edges: a running maximum and a running sum, the sum rescaled by the exponential of the old
  maximum less the new whenever a block raises the maximum (`onl`); the weight of an edge is taken against the last
  pair `(MK, LK)`. When every row entry is a real number the two agree: after each block the running maximum is the
  maximum of the scores seen and the running sum is the sum of their exponentials less it, because
  `exp (a - b) * exp (s - a) = exp (s - b)` on the reals; the reset pair `(-∞, 0)` enters the first block only
  through `exp (-∞ - b) * 0 = 0`. The weighted row of an edge is its neighbour row times its weight.
-/
import Idealize.ShloMosaic.PureOps.Ideal
import Idealize.ShloMosaic.PureOps.Ideal.Laws
import Idealize.ShloMosaic.Lib.ValueIdx
import Mathlib.Data.EReal.Basic
import Mathlib.Data.EReal.Operations
import Mathlib.Data.Finset.Fold
import Mathlib.Data.Finset.Max
import Mathlib.Data.Finset.Image
import Mathlib.Data.Finset.Filter
import Mathlib.Data.Finset.Disjoint
import Mathlib.Algebra.BigOperators.Group.Finset.Basic
import Mathlib.Algebra.BigOperators.Ring.Finset
import Mathlib.Analysis.Complex.Exponential
import Mathlib.Tactic.Ring
import Mathlib.Tactic.Choose
import Mathlib.Tactic.SplitIfs

noncomputable section

namespace Cert.Spec

open Idealize.ShloMosaic

/-- The rectifier's slope: the f32 word of `0.2`, read as the extended real it denotes. -/
abbrev slope : EReal := Ideal.ofBits .f32 0x3E4CCCCD#32

/-- The leaky rectifier, identity branch where the argument is POSITIVE. -/
def lrK (r : EReal) : EReal := if 0 < r then r else slope * r
/-- The leaky rectifier, identity branch where the argument is NON-NEGATIVE. -/
def lrR (r : EReal) : EReal := if 0 ≤ r then r else slope * r

/-- The two spellings agree: they differ only at `0`, where both give `0`. -/
theorem lrK_eq_lrR (r : EReal) : lrK r = lrR r := by
  unfold lrK lrR
  rcases lt_trichotomy 0 r with h | h | h
  · rw [if_pos h, if_pos h.le]
  · subst h
    rw [if_neg (lt_irrefl _), if_pos le_rfl, mul_zero]
  · rw [if_neg (not_lt.mpr h.le), if_neg (not_le.mpr h)]

/-- The slope is a real number (the word denotes `13421773 / 2 ^ 26`). -/
theorem slope_real : ∃ c : ℝ, slope = (c : EReal) :=
  ⟨13421773 * (2 ^ 26)⁻¹, by simp [slope, Ideal.ofBits, Ideal.ieee, -EReal.coe_mul]⟩

/-- The rectifier of a real number is a real number. -/
theorem lrK_real (ρ : ℝ) : ∃ t : ℝ, lrK (ρ : EReal) = (t : EReal) := by
  obtain ⟨c, hc⟩ := slope_real
  unfold lrK
  split_ifs
  · exact ⟨ρ, rfl⟩
  · exact ⟨c * ρ, by rw [hc, EReal.coe_mul]⟩

/-- The coercion of a finite sum of reals is the sum of the coercions. -/
theorem coe_sum {ι : Type} (T : Finset ι) (f : ι → ℝ) :
    ((∑ e ∈ T, f e : ℝ) : EReal) = ∑ e ∈ T, (f e : EReal) := by
  classical
  refine Finset.induction_on T ?_ ?_
  · simp
  · intro a T ha ih
    rw [Finset.sum_insert ha, Finset.sum_insert ha, EReal.coe_add, ih]

/-- The coercion of the greater of two reals is the greater of the coercions. -/
theorem coe_max_real (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- Over a non-empty finite set the maximum from `-∞` of the coercions of a real family is the coercion of a real
    number: the greatest value of the family. -/
theorem fold_max_coe {ι : Type} (T : Finset ι) (hT : T.Nonempty) (σ : ι → ℝ) :
    ∃ m : ℝ, (∀ e ∈ T, σ e ≤ m) ∧ (∃ e ∈ T, σ e = m) ∧
      T.fold max ⊥ (fun e => (σ e : EReal)) = (m : EReal) := by
  obtain ⟨x, hx, hmax⟩ := Finset.exists_max_image T σ hT
  refine ⟨σ x, hmax, ⟨x, hx, rfl⟩, le_antisymm ?_ ?_⟩
  · rw [Finset.fold_max_le]
    exact ⟨bot_le, fun e he => EReal.coe_le_coe_iff.mpr (hmax e he)⟩
  · rw [Finset.le_fold_max]
    exact Or.inr ⟨x, hx, le_rfl⟩

/-- `p` is the pair (greatest value, sum of the exponentials less it) of the real family `σ` over `S`. -/
def Good {ι : Type} (σ : ι → ℝ) (S : Finset ι) (p : EReal × EReal) : Prop :=
  ∃ m : ℝ, (∀ e ∈ S, σ e ≤ m) ∧ (∃ e ∈ S, σ e = m) ∧
    p = ((m : EReal), ((∑ e ∈ S, Real.exp (σ e - m) : ℝ) : EReal))

/-- One finite set of indices folded into a running (maximum, sum). -/
def stepOn {ι : Type} (σ : ι → ℝ) (T : Finset ι) (p : EReal × EReal) : EReal × EReal :=
  (max p.1 (T.fold max ⊥ fun e => (σ e : EReal)),
    Ideal.exp (p.1 - max p.1 (T.fold max ⊥ fun e => (σ e : EReal))) * p.2
      + ∑ e ∈ T, Ideal.exp ((σ e : EReal) - max p.1 (T.fold max ⊥ fun e => (σ e : EReal))))

/-- The first block: the reset pair `(-∞, 0)` contributes `exp (-∞ - b) * 0 = 0`. -/
theorem good_first {ι : Type} (σ : ι → ℝ) (T : Finset ι) (hT : T.Nonempty) :
    Good σ T (stepOn σ T (⊥, 0)) := by
  obtain ⟨mb, hle, hex, hfold⟩ := fold_max_coe T hT σ
  refine ⟨mb, hle, hex, ?_⟩
  unfold stepOn
  rw [hfold, max_eq_right bot_le, mul_zero, zero_add, coe_sum]
  rfl

/-- A further block: `exp (a - b) * exp (s - a) = exp (s - b)` rescales the old sum to the new maximum. -/
theorem good_next {ι : Type} [DecidableEq ι] (σ : ι → ℝ) (S T : Finset ι) (hd : Disjoint S T) (hT : T.Nonempty)
    (p : EReal × EReal) (hp : Good σ S p) : Good σ (S ∪ T) (stepOn σ T p) := by
  obtain ⟨m, hle, hex, rfl⟩ := hp
  obtain ⟨mb, hleb, hexb, hfold⟩ := fold_max_coe T hT σ
  refine ⟨max m mb, ?_, ?_, ?_⟩
  · intro e he
    rcases Finset.mem_union.mp he with h | h
    · exact (hle e h).trans (le_max_left _ _)
    · exact (hleb e h).trans (le_max_right _ _)
  · rcases le_total m mb with h | h
    · obtain ⟨e, he, hee⟩ := hexb
      exact ⟨e, Finset.mem_union_right _ he, by rw [hee, max_eq_right h]⟩
    · obtain ⟨e, he, hee⟩ := hex
      exact ⟨e, Finset.mem_union_left _ he, by rw [hee, max_eq_left h]⟩
  · unfold stepOn
    have hres : ∀ e, Real.exp (m - max m mb) * Real.exp (σ e - m) = Real.exp (σ e - max m mb) := by
      intro e
      rw [← Real.exp_add]
      congr 1
      ring
    rw [hfold, ← coe_max_real, Finset.sum_union hd, EReal.coe_add, coe_sum T, ← EReal.coe_sub, Ideal.exp_coe,
      ← EReal.coe_mul, Finset.mul_sum]
    simp only [hres]
    rfl

variable (xi xj : Fin 600000 → Fin 128 → EReal)

/-- An edge's raw score: the inner product of its two rows. -/
def raw (e : Fin 600000) : EReal := ∑ k : Fin 128, xi e k * xj e k
/-- An edge's score, in the two spellings of the rectifier. -/
def sK (e : Fin 600000) : EReal := lrK (raw xi xj e)
def sR (e : Fin 600000) : EReal := lrR (raw xi xj e)

/-- The edge in row `r` of block `b`. -/
def edge (b : Fin 60) (r : Fin 10000) : Fin 600000 := ⟨b.val * 10000 + r.val, by omega⟩

/-- One block folded into a running (maximum, sum). -/
def onlStep (s : Fin 600000 → EReal) (b : Fin 60) (p : EReal × EReal) : EReal × EReal :=
  let mn : EReal := max p.1 ((Finset.univ : Finset (Fin 10000)).fold max ⊥ fun r => s (edge b r))
  (mn, Ideal.exp (p.1 - mn) * p.2 + ∑ r : Fin 10000, Ideal.exp (s (edge b r) - mn))

/-- The running (maximum, sum) after block `n`, from the reset pair `(-∞, 0)`. -/
def onl (s : Fin 600000 → EReal) : (n : ℕ) → n < 60 → EReal × EReal
  | 0, h => onlStep s ⟨0, h⟩ (⊥, 0)
  | n + 1, h => onlStep s ⟨n + 1, h⟩ (onl s n (Nat.lt_of_succ_lt h))

theorem onl_zero (s : Fin 600000 → EReal) (h : 0 < 60) : onl s 0 h = onlStep s ⟨0, h⟩ (⊥, 0) := rfl
theorem onl_succ (s : Fin 600000 → EReal) (n : ℕ) (h : n + 1 < 60) :
    onl s (n + 1) h = onlStep s ⟨n + 1, h⟩ (onl s n (Nat.lt_of_succ_lt h)) := rfl

/-- The online totals over all 60 blocks. -/
def MK : EReal := (onl (sK xi xj) 59 (by decide)).1
def LK : EReal := (onl (sK xi xj) 59 (by decide)).2
/-- The weighted row entry, online reading. -/
def WK (e : Fin 600000) (k : Fin 128) : EReal :=
  xj e k * Ideal.div (Ideal.exp (sK xi xj e - MK xi xj)) (LK xi xj)

/-- The one-pass totals: the maximum (once more against `-∞`, as the reference spells it) and the sum from `0`. -/
def MR : EReal := max ⊥ ((Finset.univ : Finset (Fin 600000)).fold max ⊥ (sR xi xj))
def LR : EReal := 0 + ∑ e : Fin 600000, Ideal.exp (sR xi xj e - MR xi xj)
/-- The weighted row entry, one-pass reading. -/
def WR (e : Fin 600000) (k : Fin 128) : EReal :=
  xj e k * Ideal.div (Ideal.exp (sR xi xj e - MR xi xj)) (LR xi xj)

/-- The edges of block `b`. -/
def block (b : Fin 60) : Finset (Fin 600000) := Finset.univ.image (edge b)

/-- The edges of the blocks up to block `n`. -/
def upTo (n : ℕ) : Finset (Fin 600000) := Finset.univ.filter fun e => e.val < (n + 1) * 10000

theorem edge_injective (b : Fin 60) : Function.Injective (edge b) := by
  intro r r' h
  have h' := congrArg Fin.val h
  simp only [edge] at h'
  exact Fin.ext (by omega)

/-- Block `b` is the edges from `b * 10000` up to `(b + 1) * 10000`. -/
theorem mem_block (b : Fin 60) (e : Fin 600000) :
    e ∈ block b ↔ b.val * 10000 ≤ e.val ∧ e.val < (b.val + 1) * 10000 := by
  unfold block
  rw [Finset.mem_image]
  constructor
  · rintro ⟨r, -, rfl⟩
    have := r.isLt
    simp only [edge]
    omega
  · rintro ⟨h1, h2⟩
    refine ⟨⟨e.val - b.val * 10000, by omega⟩, Finset.mem_univ _, Fin.ext ?_⟩
    simp only [edge]
    omega

theorem mem_upTo (n : ℕ) (e : Fin 600000) : e ∈ upTo n ↔ e.val < (n + 1) * 10000 := by
  unfold upTo
  rw [Finset.mem_filter]
  exact and_iff_right (Finset.mem_univ _)

theorem block_nonempty (b : Fin 60) : (block b).Nonempty :=
  ⟨edge b ⟨0, by omega⟩, Finset.mem_image_of_mem _ (Finset.mem_univ _)⟩

theorem upTo_zero (h : 0 < 60) : upTo 0 = block ⟨0, h⟩ := by
  ext e
  rw [mem_upTo, mem_block]
  simp only []
  omega

theorem upTo_succ (n : ℕ) (h : n + 1 < 60) : upTo (n + 1) = upTo n ∪ block ⟨n + 1, h⟩ := by
  ext e
  rw [Finset.mem_union, mem_upTo, mem_upTo, mem_block]
  simp only []
  omega

theorem upTo_disjoint (n : ℕ) (h : n + 1 < 60) : Disjoint (upTo n) (block ⟨n + 1, h⟩) := by
  rw [Finset.disjoint_left]
  intro e he hb
  rw [mem_upTo] at he
  rw [mem_block] at hb
  simp only [] at hb
  omega

/-- The blocks up to the last are all the edges. -/
theorem upTo_last : upTo 59 = Finset.univ := by
  ext e
  rw [mem_upTo]
  have := e.isLt
  simp only [Finset.mem_univ, iff_true]
  omega

/-- A block of the online pass is a step over the block's set of edges. -/
theorem onlStep_eq (σ : Fin 600000 → ℝ) (b : Fin 60) (p : EReal × EReal) :
    onlStep (fun e => (σ e : EReal)) b p = stepOn σ (block b) p := by
  unfold stepOn block
  rw [Finset.fold_image (edge_injective b).injOn, Finset.sum_image (edge_injective b).injOn]
  rfl

/-- THE INVARIANT. After block `n` the running pair is the greatest score seen and the sum of the exponentials of the
    scores seen less it. -/
theorem onl_good (σ : Fin 600000 → ℝ) :
    ∀ (n : ℕ) (h : n < 60), Good σ (upTo n) (onl (fun e => (σ e : EReal)) n h) := by
  intro n
  induction n with
  | zero =>
    intro h
    rw [onl_zero, onlStep_eq, upTo_zero h]
    exact good_first σ _ (block_nonempty _)
  | succ n ih =>
    intro h
    rw [onl_succ, onlStep_eq, upTo_succ n h]
    exact good_next σ _ _ (upTo_disjoint n h) (block_nonempty _) _ (ih _)

/-- THE LAW. With every row entry a real number the online and the one-pass readings give the same weighted rows. -/
theorem WK_eq_WR (hi : ∀ e k, ∃ r : ℝ, xi e k = (r : EReal)) (hj : ∀ e k, ∃ r : ℝ, xj e k = (r : EReal)) :
    WK xi xj = WR xi xj := by
  have hraw : ∀ e, ∃ ρ : ℝ, raw xi xj e = (ρ : EReal) := by
    intro e
    choose a ha using hi e
    choose b hb using hj e
    refine ⟨∑ k, a k * b k, ?_⟩
    unfold raw
    rw [coe_sum]
    refine Finset.sum_congr rfl fun k _ => ?_
    rw [ha k, hb k, EReal.coe_mul]
  have hs : ∀ e, ∃ t : ℝ, sK xi xj e = (t : EReal) := by
    intro e
    obtain ⟨ρ, hρ⟩ := hraw e
    unfold sK
    rw [hρ]
    exact lrK_real ρ
  choose σ hσ using hs
  have hsK : sK xi xj = fun e => (σ e : EReal) := funext hσ
  have hsR : sR xi xj = fun e => (σ e : EReal) := by
    rw [← hsK]
    funext e
    unfold sK sR
    exact (lrK_eq_lrR _).symm
  obtain ⟨m, hle, hex, hp⟩ := onl_good σ 59 (by decide)
  rw [upTo_last] at hle hex hp
  obtain ⟨m2, hle2, hex2, hfold2⟩ := fold_max_coe Finset.univ Finset.univ_nonempty σ
  have hmm : m2 = m := by
    obtain ⟨e, _, he⟩ := hex
    obtain ⟨e2, _, he2⟩ := hex2
    exact le_antisymm (he2 ▸ hle e2 (Finset.mem_univ _)) (he ▸ hle2 e (Finset.mem_univ _))
  have hMK : MK xi xj = (m : EReal) := by
    unfold MK
    rw [hsK, hp]
  have hLK : LK xi xj = ((∑ e, Real.exp (σ e - m) : ℝ) : EReal) := by
    unfold LK
    rw [hsK, hp]
  have hMR : MR xi xj = (m : EReal) := by
    unfold MR
    rw [hsR, hfold2, hmm, max_eq_right bot_le]
  have hLR : LR xi xj = ((∑ e, Real.exp (σ e - m) : ℝ) : EReal) := by
    unfold LR
    rw [hMR, hsR, zero_add, coe_sum]
    rfl
  funext e k
  unfold WK WR
  rw [hMK, hLK, hMR, hLR, hsK, hsR]

end Cert.Spec

end
-- ==== Proof.KI.Value0.lean ====
/-
  Region 0's three output arrays after the run, at the extended reals, entry by entry: the score array holds each
  edge's rectified inner product of its two rows (`Spec.sK`); the two one-word arrays hold the online softmax totals of
  all 60 blocks (`Spec.MK`, `Spec.LK`): the scratch words after point `n` are the online pair after block `n`, by
  induction on the point, and the last point alone writes them back.

  In order: the body's values at an index over any two row blocks (a row's score is the rectifier of the row's inner
  product; the maximum word is the greater of the word found and the block's greatest score; the sum word is the sum
  found rescaled to the new maximum plus the block's exponentials); the blocks of a point as rows `10000 t + r` of the
  two row arrays; the score array, whose blocks tile it; one point as one step of the online pass and the invariant;
  the two one-word arrays, written once, whole, by the last point.
-/
import proofs.«427403_j16810501996741_2_alg».proof.Proof.KI.Data
import proofs.«427403_j16810501996741_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-- A row array as a function of edge and column. -/
abbrev rowsFn (x : FVec Ideal S600000x128 .f32) : Fin 600000 → Fin 128 → EReal := fun e k => x (ix2 e k)
/-- The two row arrays as region 0 finds them. -/
abbrev xiOf (c : Dev nD) : Fin 600000 → Fin 128 → EReal := rowsFn (V c main_v4)
abbrev xjOf (c : Dev nD) : Fin 600000 → Fin 128 → EReal := rowsFn (V c main_v5)

namespace ScoresValue

/-! ## The body's values at an index, over any two row blocks -/

/-- A column vector made from a vector reads its row. -/
theorem col_of_vec_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row of the product block summed over its 128 columns is the row's inner product. -/
theorem rowdot (x0 x1 : FVec Ideal S10000x128 .f32) (h : S10000x128.Reduces [1] S10000) (hφ : FKind.Formats .f32)
    (hacc : (0x00000000#32 : BitVec 32) = FKind.add.neutral .f32 hφ) (r : Fin 10000) :
    multiReduction (F := Ideal) .add [1] S10000 (mulf x0 x1) 0x00000000#32 h hφ hacc (ix1 r)
      = ∑ k : Fin 128, x0 (ix2 r k) * x1 (ix2 r k) := by
  refine (Ideal.multiReduction_add_single (mulf x0 x1) 0x00000000#32 h hφ hacc (ix1 r)).trans ?_
  refine Finset.sum_congr rfl fun k _ => ?_
  have e : h.lift (ix1 r) k = ix2 r k := by
    funext c
    match c with
    | ⟨0, _⟩ => exact Fin.ext rfl
    | ⟨1, _⟩ => exact Fin.ext rfl
  rw [e]
  rfl

/-- The raw scores as the body lays them out, a column of 10000 rows: row `r` holds the inner product of row `r`. -/
theorem rawcol (x0 x1 : Vec Ideal S10000x128 .f32) (h : S10000x128.Reduces [1] S10000) (hφ : FKind.Formats .f32)
    (hacc : (0x00000000#32 : BitVec 32) = FKind.add.neutral .f32 hφ)
    (hc1 hc2 : S10000x128.ShapeCasts S10000x128) (hc : S10000.ShapeCasts S10000x1) (r : Fin 10000) (u : Fin 1) :
    (shapeCast S10000x1 (multiReduction (F := Ideal) .add [1] S10000
        (mulf (shapeCast S10000x128 x0 hc1) (shapeCast S10000x128 x1 hc2)) 0x00000000#32 h hφ hacc) hc
      : FVec Ideal S10000x1 .f32) (ix2 r u) = ∑ k : Fin 128, x0 (ix2 r k) * x1 (ix2 r k) := by
  rw [shapeCast_self, shapeCast_self]
  refine (col_of_vec_apply _ hc r u).trans ?_
  exact rowdot x0 x1 h hφ hacc r

/-- The select on "greater than zero" is the `if`. -/
theorem select_gt_zero (X a b : EReal) : Scalar.select (Ideal.cmp .ogt X 0) a b = if 0 < X then a else b := by
  show Scalar.select (BitVec.ofBool (decide (0 < X))) a b = _
  by_cases h : 0 < X
  · rw [if_pos h, decide_eq_true h]; exact select_one a b
  · rw [if_neg h, decide_eq_false h]; exact select_zero a b

/-- The rectifier as the kernel spells it: a select on "greater than zero" between the value and the slope times it. -/
theorem lrK_of (X : EReal) :
    Scalar.select (FloatOps.cmpf (F := Ideal) (φ := .f32) .ogt X (FloatOps.ofBits (F := Ideal) .f32 0x00000000#32)) X
      (FloatOps.ofBits (F := Ideal) .f32 0x3E4CCCCD#32 * X) = Cert.Spec.lrK X := by
  rw [Ideal.cmpf_def, Ideal.ofBits_def, Ideal.ofBits_def, Ideal.ofBits_zero_f32, select_gt_zero]
  rfl

/-- The score block at row `r`: the rectifier of the row's inner product. -/
theorem score_pay (x0 x1 : Vec Ideal S10000x128 .f32) (r : Fin 10000) :
    k0_pay3 (F := Ideal) x0 x1 (ix2 r (0 : Fin 1)) = Cert.Spec.lrK (∑ k : Fin 128, x0 (ix2 r k) * x1 (ix2 r k)) := by
  unfold k0_pay3
  dsimp only
  refine (lrK_of _).trans ?_
  exact congrArg Cert.Spec.lrK (rawcol x0 x1 _ _ _ _ _ _ r 0)

/-- The f32 word of minus infinity is the bottom of the extended reals. -/
theorem ofBits_ninf : Ideal.ofBits .f32 0xFF800000#32 = (⊥ : EReal) := by simp [Ideal.ofBits, Ideal.ieee]

/-- A column's maximum from minus infinity, as a fold over its rows. -/
theorem colmax (src : FVec Ideal S10000x1 .f32) (h : S10000x1.Reduces [0] S1) (hφ : FKind.Formats .f32)
    (hacc : (0xFF800000#32 : BitVec 32) = FKind.maximumf.neutral .f32 hφ) :
    multiReduction (F := Ideal) .maximumf [0] S1 src 0xFF800000#32 h hφ hacc (ix1 (0 : Fin 1))
      = (Finset.univ : Finset (Fin 10000)).fold max ⊥ fun r => src (ix2 r (0 : Fin 1)) := by
  refine (Ideal.multiReduction_maximumf_single src 0xFF800000#32 h hφ hacc (ix1 (0 : Fin 1))).trans ?_
  rw [Ideal.ofBits_def, ofBits_ninf]
  have e : (src ∘ h.lift (ix1 (0 : Fin 1))) = fun r : Fin 10000 => src (ix2 r (0 : Fin 1)) := by
    funext k
    have e' : h.lift (ix1 (0 : Fin 1)) k = ix2 k (0 : Fin 1) := by
      funext c
      match c with
      | ⟨0, _⟩ => exact Fin.ext rfl
      | ⟨1, _⟩ => exact Fin.ext rfl
    exact congrArg src e'
  rw [e]
  rfl

/-- A column's sum from zero, as a sum over its rows. -/
theorem colsum (src : FVec Ideal S10000x1 .f32) (h : S10000x1.Reduces [0] S1) (hφ : FKind.Formats .f32)
    (hacc : (0x00000000#32 : BitVec 32) = FKind.add.neutral .f32 hφ) :
    multiReduction (F := Ideal) .add [0] S1 src 0x00000000#32 h hφ hacc (ix1 (0 : Fin 1))
      = ∑ r : Fin 10000, src (ix2 r (0 : Fin 1)) := by
  refine (Ideal.multiReduction_add_single src 0x00000000#32 h hφ hacc (ix1 (0 : Fin 1))).trans ?_
  refine Finset.sum_congr rfl fun k _ => ?_
  have e' : h.lift (ix1 (0 : Fin 1)) k = ix2 k (0 : Fin 1) := by
    funext c
    match c with
    | ⟨0, _⟩ => exact Fin.ext rfl
    | ⟨1, _⟩ => exact Fin.ext rfl
  exact congrArg src e'

/-- The running maximum a point leaves: the greater of the one it found and its block's greatest score. -/
theorem max_pay4 (x0 x1 : Vec Ideal S10000x128 .f32) (mo : Vec Ideal S1x1 .f32) :
    k0_pay4 (F := Ideal) x0 x1 mo (ix2 (0 : Fin 1) (0 : Fin 1))
      = max (mo (ix2 (0 : Fin 1) (0 : Fin 1)))
          ((Finset.univ : Finset (Fin 10000)).fold max ⊥ fun r => k0_pay3 (F := Ideal) x0 x1 (ix2 r (0 : Fin 1))) := by
  unfold k0_pay4
  dsimp only
  rw [maximumf_apply]
  refine congrArg (max (mo (ix2 (0 : Fin 1) (0 : Fin 1)))) ?_
  refine (col_of_vec_apply _ _ (0 : Fin 1) (0 : Fin 1)).trans ?_
  exact colmax (k0_pay3 (F := Ideal) x0 x1) _ _ _

/-- The maximum word the body stores is that running maximum. -/
theorem max_pay (x0 x1 : Vec Ideal S10000x128 .f32) (mo : Vec Ideal S1x1 .f32) :
    k0_pay6 (F := Ideal) x0 x1 mo (ix2 (0 : Fin 1) (0 : Fin 1))
      = max (mo (ix2 (0 : Fin 1) (0 : Fin 1)))
          ((Finset.univ : Finset (Fin 10000)).fold max ⊥ fun r => k0_pay3 (F := Ideal) x0 x1 (ix2 r (0 : Fin 1))) := by
  unfold k0_pay6
  rw [shapeCast_self]
  exact max_pay4 x0 x1 mo

/-- The vector exponential at an index is the exponential of the element. -/
theorem exp_apply {s : Shape} {φ : FTy} (x : FVec Ideal s φ) (i : s.Idx) : exp x i = Ideal.exp (x i) := rfl

/-- The running sum a point leaves: the sum it found rescaled to the new maximum, plus the exponentials of its block's
    scores less the new maximum. -/
theorem sum_pay (x0 x1 : Vec Ideal S10000x128 .f32) (mo mo' lo : Vec Ideal S1x1 .f32) :
    k0_pay5 (F := Ideal) x0 x1 mo mo' lo (ix2 (0 : Fin 1) (0 : Fin 1))
      = Ideal.exp (mo' (ix2 (0 : Fin 1) (0 : Fin 1)) - k0_pay4 (F := Ideal) x0 x1 mo (ix2 (0 : Fin 1) (0 : Fin 1)))
            * lo (ix2 (0 : Fin 1) (0 : Fin 1))
          + ∑ r : Fin 10000, Ideal.exp (k0_pay3 (F := Ideal) x0 x1 (ix2 r (0 : Fin 1))
              - k0_pay4 (F := Ideal) x0 x1 mo (ix2 (0 : Fin 1) (0 : Fin 1))) := by
  unfold k0_pay5
  dsimp only
  rw [shapeCast_self, addf_apply, mulf_apply, exp_apply, subf_apply]
  refine congrArg (fun z => Ideal.exp (mo' (ix2 (0 : Fin 1) (0 : Fin 1)) - k0_pay4 (F := Ideal) x0 x1 mo (ix2 (0 : Fin 1) (0 : Fin 1)))
            * lo (ix2 (0 : Fin 1) (0 : Fin 1)) + z) ?_
  refine (col_of_vec_apply _ _ (0 : Fin 1) (0 : Fin 1)).trans ?_
  refine (colsum _ _ _ _).trans ?_
  refine Finset.sum_congr rfl fun r _ => ?_
  rw [exp_apply, subf_apply, broadcastTo_1b_ab_apply]

/-- The first point resets the maximum word to minus infinity … -/
theorem reset_max : k0_pay1 (F := Ideal) (ix2 (0 : Fin 1) (0 : Fin 1)) = (⊥ : EReal) := by
  unfold k0_pay1
  rw [shapeCast_self, broadcast_apply]
  exact ofBits_ninf

/-- … and the sum word to zero. -/
theorem reset_sum : k0_pay2 (F := Ideal) (ix2 (0 : Fin 1) (0 : Fin 1)) = (0 : EReal) := by
  unfold k0_pay2
  rw [shapeCast_self, broadcast_apply]
  exact Ideal.ofBits_zero_f32

/-! ## The blocks of a point, the score array, the online invariant, the two totals -/

/-- The two row blocks of a point, by their literal type. -/
abbrev xblk (c : Dev nD) (t : Fin cfg0.N) : Vec Ideal S10000x128 .f32 := iblk0 V c 0 t
abbrev yblk (c : Dev nD) (t : Fin cfg0.N) : Vec Ideal S10000x128 .f32 := iblk0 V c 1 t

/-- The block indices of the five windows at a point: the three edge-indexed windows move with the point, the two
    one-word windows stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row `r` of the first row block at point `t` is row `10000 t + r` of the first row array … -/
theorem xblk_apply (c : Dev nD) (t : Fin cfg0.N) (ht : t.val < 60) (r : Fin 10000) (k : Fin 128) :
    xblk V c t (ix2 r k) = xiOf V c (Cert.Spec.edge ⟨t.val, ht⟩ r) k := by
  obtain ⟨e0, e1, -⟩ := idx_facts t
  unfold xblk iblk0
  rw [View.read_apply]
  show V c main_v4 _ = V c main_v4 _
  congr 1
  funext a
  apply Fin.ext
  match a with
  | ⟨0, _⟩ =>
    show win0_0.index t (0 : Fin 2) * 10000 + 1 * r.val = t.val * 10000 + r.val
    rw [e0]; omega
  | ⟨1, _⟩ =>
    show win0_0.index t (1 : Fin 2) * 128 + 1 * k.val = k.val
    rw [e1]; omega

/-- … and likewise for the second. -/
theorem yblk_apply (c : Dev nD) (t : Fin cfg0.N) (ht : t.val < 60) (r : Fin 10000) (k : Fin 128) :
    yblk V c t (ix2 r k) = xjOf V c (Cert.Spec.edge ⟨t.val, ht⟩ r) k := by
  obtain ⟨-, -, e0, e1, -⟩ := idx_facts t
  unfold yblk iblk0
  rw [View.read_apply]
  show V c main_v5 _ = V c main_v5 _
  congr 1
  funext a
  apply Fin.ext
  match a with
  | ⟨0, _⟩ =>
    show win0_1.index t (0 : Fin 2) * 10000 + 1 * r.val = t.val * 10000 + r.val
    rw [e0]; omega
  | ⟨1, _⟩ =>
    show win0_1.index t (1 : Fin 2) * 128 + 1 * k.val = k.val
    rw [e1]; omega

/-- The score the body computes in row `r` at point `t` is the score of edge `t * 10000 + r`. -/
theorem score_at (c : Dev nD) (t : Fin cfg0.N) (ht : t.val < 60) (r : Fin 10000) :
    k0_pay3 (F := Ideal) (xblk V c t) (yblk V c t) (ix2 r (0 : Fin 1))
      = Cert.Spec.sK (xiOf V c) (xjOf V c) (Cert.Spec.edge ⟨t.val, ht⟩ r) := by
  refine (score_pay (xblk V c t) (yblk V c t) r).trans ?_
  unfold Cert.Spec.sK Cert.Spec.raw
  refine congrArg Cert.Spec.lrK (Finset.sum_congr rfl fun k _ => ?_)
  rw [xblk_apply V c t ht r k, yblk_apply V c t ht r k]

/-- The score array as one function of the two row arrays. -/
abbrev scoreArr (c : Dev nD) : FVec Ideal S600000x1 .f32 := fun i => Cert.Spec.sK (xiOf V c) (xjOf V c) (i 0)

/-- The grid has 60 points. -/
theorem N60 : cfg0.N = 60 := N_0

/-- What point `t` writes back to the score array is block `t` of the scores. -/
theorem flushed_scores (c : Dev nD) (t : Fin cfg0.N) :
    (dat0 V c).flushed 2 t = ((cfg0.win 2).blk t).view.read (Elt Ideal) (scoreArr V c) := by
  have ht : t.val < 60 := Nat.lt_of_lt_of_eq t.isLt N60
  obtain ⟨-, -, -, -, e0, e1, -⟩ := idx_facts t
  show (cfg0.win 2).cut (grid0.coords t) ((dat0 V c).after 2 t) = _
  rw [after0_2]
  funext j
  obtain ⟨p, q, rfl⟩ : ∃ (p : Fin 10000) (q : Fin 1), j = ix2 p q := ⟨j 0, j 1, eq_ix2 j⟩
  obtain rfl : q = 0 := Subsingleton.elim _ _
  rw [View.read_apply]
  show k0_pay3 (F := Ideal) (xblk V c t) (yblk V c t) (ix2 p (0 : Fin 1)) = Cert.Spec.sK (xiOf V c) (xjOf V c) _
  refine (score_at V c t ht p).trans (congrArg (Cert.Spec.sK (xiOf V c) (xjOf V c)) (Fin.ext ?_))
  show t.val * 10000 + p.val = win0_2.index t (0 : Fin 2) * 10000 + 1 * p.val
  rw [e0]; omega

/-- An index of the score array is in point `t`'s block iff each coordinate is in the block's range on its axis. -/
theorem mem_blk_scores (t : Fin cfg0.N) (i : S600000x1.Idx) :
    i ∈ ((cfg0.win 2).blk t).view.set ↔ ∀ a : Fin 2, win0_2.index t a * S10000x1.size a ≤ (i a).val
      ∧ (i a).val < win0_2.index t a * S10000x1.size a + S10000x1.size a := by
  show i ∈ ((View.whole main_v6_0).slice (win0_2.rect t)).set ↔ _
  rw [View.set_slice_whole, Rect.mem_set_unit]
  exact Iff.rfl

/-- Every row of the score array is in the block of the point its row number divided by 10000 names. -/
theorem cover_scores (i : S600000x1.Idx) :
    ∃ t : Fin cfg0.N, (cfg0.win 2).flush t = true ∧ i ∈ ((cfg0.win 2).blk t).view.set := by
  have hi0 : (i 0).val < 600000 := (i 0).isLt
  have hi1 : (i 1).val < 1 := (i 1).isLt
  have hq : (i 0).val / 10000 < cfg0.N := by rw [N60]; omega
  refine ⟨⟨(i 0).val / 10000, hq⟩, flush0_2 _, ?_⟩
  rw [mem_blk_scores]
  obtain ⟨-, -, -, -, e0', e1, -⟩ := idx_facts ⟨(i 0).val / 10000, hq⟩
  have e0 : win0_2.index ⟨(i 0).val / 10000, hq⟩ (0 : Fin 2) = (i 0).val / 10000 := e0'
  intro a
  match a with
  | ⟨0, _⟩ =>
    show win0_2.index _ (0 : Fin 2) * 10000 ≤ (i 0).val ∧ (i 0).val < win0_2.index _ (0 : Fin 2) * 10000 + 10000
    rw [e0]; omega
  | ⟨1, _⟩ =>
    show win0_2.index _ (1 : Fin 2) * 1 ≤ (i 1).val ∧ (i 1).val < win0_2.index _ (1 : Fin 2) * 1 + 1
    rw [e1]; omega

/-- The score array after the run. -/
theorem scores_arr (c : Dev nD) : (dat0 V c).arrAt 2 cfg0.N = scoreArr V c :=
  (dat0 V c).arrAt_eq_of_cover 2 (scoreArr V c) (fun t _ => flushed_scores V c t) cover_scores

/-- An entry of the score array after the run: the edge's score. -/
theorem scores_entry (c : Dev nD) (e : Fin 600000) :
    ((dat0 (F := Ideal) V c).arrAt 2 cfg0.N : FVec Ideal S600000x1 .f32) (ix2 e 0) = Cert.Spec.sK (xiOf V c) (xjOf V c) e :=
  congrFun (scores_arr V c) (ix2 e 0)

/-- ONE POINT IS ONE BLOCK OF THE ONLINE PASS: from any pair of scratch words, the words point `n` leaves are the
    online step over block `n` of the pair it found. -/
theorem step_eq (c : Dev nD) (n : ℕ) (hn : n < cfg0.N) (hn' : n < 60) (mo lo : Vec Ideal S1x1 .f32) :
    (k0_pay6 (F := Ideal) (xblk V c ⟨n, hn⟩) (yblk V c ⟨n, hn⟩) mo (ix2 (0 : Fin 1) (0 : Fin 1)),
      k0_pay5 (F := Ideal) (xblk V c ⟨n, hn⟩) (yblk V c ⟨n, hn⟩) mo mo lo (ix2 (0 : Fin 1) (0 : Fin 1)))
      = Cert.Spec.onlStep (Cert.Spec.sK (xiOf V c) (xjOf V c)) ⟨n, hn'⟩
          (mo (ix2 (0 : Fin 1) (0 : Fin 1)), lo (ix2 (0 : Fin 1) (0 : Fin 1))) := by
  have hsc : ∀ r : Fin 10000, k0_pay3 (F := Ideal) (xblk V c ⟨n, hn⟩) (yblk V c ⟨n, hn⟩) (ix2 r (0 : Fin 1))
      = Cert.Spec.sK (xiOf V c) (xjOf V c) (Cert.Spec.edge ⟨n, hn'⟩ r) := fun r => score_at V c ⟨n, hn⟩ hn' r
  have hfold : ((Finset.univ : Finset (Fin 10000)).fold max ⊥ fun r =>
        k0_pay3 (F := Ideal) (xblk V c ⟨n, hn⟩) (yblk V c ⟨n, hn⟩) (ix2 r (0 : Fin 1)))
      = (Finset.univ : Finset (Fin 10000)).fold max ⊥ fun r =>
        Cert.Spec.sK (xiOf V c) (xjOf V c) (Cert.Spec.edge ⟨n, hn'⟩ r) :=
    congrArg (fun f => (Finset.univ : Finset (Fin 10000)).fold max ⊥ f) (funext hsc)
  have h4 : k0_pay4 (F := Ideal) (xblk V c ⟨n, hn⟩) (yblk V c ⟨n, hn⟩) mo (ix2 (0 : Fin 1) (0 : Fin 1))
      = max (mo (ix2 (0 : Fin 1) (0 : Fin 1))) ((Finset.univ : Finset (Fin 10000)).fold max ⊥ fun r =>
        Cert.Spec.sK (xiOf V c) (xjOf V c) (Cert.Spec.edge ⟨n, hn'⟩ r)) :=
    (max_pay4 (xblk V c ⟨n, hn⟩) (yblk V c ⟨n, hn⟩) mo).trans (congrArg (max (mo (ix2 (0 : Fin 1) (0 : Fin 1)))) hfold)
  have h6 : k0_pay6 (F := Ideal) (xblk V c ⟨n, hn⟩) (yblk V c ⟨n, hn⟩) mo (ix2 (0 : Fin 1) (0 : Fin 1))
      = max (mo (ix2 (0 : Fin 1) (0 : Fin 1))) ((Finset.univ : Finset (Fin 10000)).fold max ⊥ fun r =>
        Cert.Spec.sK (xiOf V c) (xjOf V c) (Cert.Spec.edge ⟨n, hn'⟩ r)) :=
    (max_pay (xblk V c ⟨n, hn⟩) (yblk V c ⟨n, hn⟩) mo).trans (congrArg (max (mo (ix2 (0 : Fin 1) (0 : Fin 1)))) hfold)
  unfold Cert.Spec.onlStep
  dsimp only
  refine Prod.ext h6 ?_
  dsimp only
  refine (sum_pay (xblk V c ⟨n, hn⟩) (yblk V c ⟨n, hn⟩) mo mo lo).trans ?_
  rw [h4]
  refine congrArg (fun z => _ + z) (Finset.sum_congr rfl fun r _ => ?_)
  rw [hsc r]

/-- THE INVARIANT: after point `n` the two scratch words are the online pair after block `n`. -/
theorem online_at (c : Dev nD) : ∀ (n : ℕ) (hn : n < cfg0.N) (hn' : n < 60),
    ((scAt0 V c n hn).1 (ix2 (0 : Fin 1) (0 : Fin 1)), (scAt0 V c n hn).2 (ix2 (0 : Fin 1) (0 : Fin 1)))
      = Cert.Spec.onl (Cert.Spec.sK (xiOf V c) (xjOf V c)) n hn' := by
  intro n
  induction n with
  | zero =>
    intro hn hn'
    rw [scAt0_zero, Cert.Spec.onl_zero]
    dsimp only
    refine (step_eq V c 0 hn hn' (k0_pay1 (F := Ideal)) (k0_pay2 (F := Ideal))).trans ?_
    rw [reset_max, reset_sum]
  | succ n ih =>
    intro hn hn'
    rw [scAt0_succ, Cert.Spec.onl_succ, ← ih (Nat.lt_of_succ_lt hn) (Nat.lt_of_succ_lt hn')]
    dsimp only
    exact step_eq V c (n + 1) hn hn' _ _

-- below, the scratch words after the last point enter only through the invariant above
attribute [local irreducible] scAt0

/-- Point 59 is a point of the grid: the last one. -/
theorem last_lt : 59 < cfg0.N := by rw [N60]; decide

/-- The two one-word arrays as the scratch words after the last point. -/
abbrev maxArr (c : Dev nD) : FVec Ideal S1x1 .f32 := (scAt0 V c 59 last_lt).1
abbrev sumArr (c : Dev nD) : FVec Ideal S1x1 .f32 := (scAt0 V c 59 last_lt).2

/-- The one write-back of the maximum word, at the last point, writes the scratch word of that point: the block is the
    whole one-word array. -/
theorem flushed_max (c : Dev nD) (t : Fin cfg0.N) (hf : (cfg0.win 3).flush t = true) :
    (dat0 V c).flushed 3 t = ((cfg0.win 3).blk t).view.read (Elt Ideal) (maxArr V c) := by
  have h59 : t.val = 59 := by
    have h1 := (flush0_3 t).mp hf
    have h2 : t.val < 60 := Nat.lt_of_lt_of_eq t.isLt N60
    omega
  obtain rfl : t = ⟨59, last_lt⟩ := Fin.ext h59
  obtain ⟨-, -, -, -, -, -, e0, e1, -⟩ := idx_facts ⟨59, last_lt⟩
  show (cfg0.win 3).cut (grid0.coords ⟨59, last_lt⟩) ((dat0 V c).after 3 ⟨59, last_lt⟩) = _
  rw [after0_3]
  funext j
  obtain ⟨p, q, rfl⟩ : ∃ (p : Fin 1) (q : Fin 1), j = ix2 p q := ⟨j 0, j 1, eq_ix2 j⟩
  rw [View.read_apply]
  show (scAt0 V c 59 last_lt).1 (ix2 p q) = (scAt0 V c 59 last_lt).1 _
  refine congrArg (scAt0 V c 59 last_lt).1 ?_
  funext a
  apply Fin.ext
  match a with
  | ⟨0, _⟩ =>
    show p.val = win0_3.index ⟨59, last_lt⟩ (0 : Fin 2) * 1 + 1 * p.val
    rw [e0]; omega
  | ⟨1, _⟩ =>
    show q.val = win0_3.index ⟨59, last_lt⟩ (1 : Fin 2) * 1 + 1 * q.val
    rw [e1]; omega

/-- The same for the sum word. -/
theorem flushed_sum (c : Dev nD) (t : Fin cfg0.N) (hf : (cfg0.win 4).flush t = true) :
    (dat0 V c).flushed 4 t = ((cfg0.win 4).blk t).view.read (Elt Ideal) (sumArr V c) := by
  have h59 : t.val = 59 := by
    have h1 := (flush0_4 t).mp hf
    have h2 : t.val < 60 := Nat.lt_of_lt_of_eq t.isLt N60
    omega
  obtain rfl : t = ⟨59, last_lt⟩ := Fin.ext h59
  obtain ⟨-, -, -, -, -, -, -, -, e0, e1⟩ := idx_facts ⟨59, last_lt⟩
  show (cfg0.win 4).cut (grid0.coords ⟨59, last_lt⟩) ((dat0 V c).after 4 ⟨59, last_lt⟩) = _
  rw [after0_4]
  funext j
  obtain ⟨p, q, rfl⟩ : ∃ (p : Fin 1) (q : Fin 1), j = ix2 p q := ⟨j 0, j 1, eq_ix2 j⟩
  rw [View.read_apply]
  show (scAt0 V c 59 last_lt).2 (ix2 p q) = (scAt0 V c 59 last_lt).2 _
  refine congrArg (scAt0 V c 59 last_lt).2 ?_
  funext a
  apply Fin.ext
  match a with
  | ⟨0, _⟩ =>
    show p.val = win0_4.index ⟨59, last_lt⟩ (0 : Fin 2) * 1 + 1 * p.val
    rw [e0]; omega
  | ⟨1, _⟩ =>
    show q.val = win0_4.index ⟨59, last_lt⟩ (1 : Fin 2) * 1 + 1 * q.val
    rw [e1]; omega

/-- The last point's block of the maximum word covers the one-word array. -/
theorem cover_max (i : S1x1.Idx) :
    ∃ t : Fin cfg0.N, (cfg0.win 3).flush t = true ∧ i ∈ ((cfg0.win 3).blk t).view.set := by
  have hi0 : (i 0).val < 1 := (i 0).isLt
  have hi1 : (i 1).val < 1 := (i 1).isLt
  obtain ⟨-, -, -, -, -, -, e0, e1, -⟩ := idx_facts ⟨59, last_lt⟩
  refine ⟨⟨59, last_lt⟩, (flush0_3 _).mpr rfl, ?_⟩
  show i ∈ ((View.whole main_v6_1).slice (win0_3.rect ⟨59, last_lt⟩)).set
  rw [View.set_slice_whole, Rect.mem_set_unit]
  intro a
  match a with
  | ⟨0, _⟩ =>
    show win0_3.index ⟨59, last_lt⟩ (0 : Fin 2) * 1 ≤ (i 0).val ∧ (i 0).val < win0_3.index ⟨59, last_lt⟩ (0 : Fin 2) * 1 + 1
    rw [e0]; omega
  | ⟨1, _⟩ =>
    show win0_3.index ⟨59, last_lt⟩ (1 : Fin 2) * 1 ≤ (i 1).val ∧ (i 1).val < win0_3.index ⟨59, last_lt⟩ (1 : Fin 2) * 1 + 1
    rw [e1]; omega

/-- The same for the sum word. -/
theorem cover_sum (i : S1x1.Idx) :
    ∃ t : Fin cfg0.N, (cfg0.win 4).flush t = true ∧ i ∈ ((cfg0.win 4).blk t).view.set := by
  have hi0 : (i 0).val < 1 := (i 0).isLt
  have hi1 : (i 1).val < 1 := (i 1).isLt
  obtain ⟨-, -, -, -, -, -, -, -, e0, e1⟩ := idx_facts ⟨59, last_lt⟩
  refine ⟨⟨59, last_lt⟩, (flush0_4 _).mpr rfl, ?_⟩
  show i ∈ ((View.whole main_v6_2).slice (win0_4.rect ⟨59, last_lt⟩)).set
  rw [View.set_slice_whole, Rect.mem_set_unit]
  intro a
  match a with
  | ⟨0, _⟩ =>
    show win0_4.index ⟨59, last_lt⟩ (0 : Fin 2) * 1 ≤ (i 0).val ∧ (i 0).val < win0_4.index ⟨59, last_lt⟩ (0 : Fin 2) * 1 + 1
    rw [e0]; omega
  | ⟨1, _⟩ =>
    show win0_4.index ⟨59, last_lt⟩ (1 : Fin 2) * 1 ≤ (i 1).val ∧ (i 1).val < win0_4.index ⟨59, last_lt⟩ (1 : Fin 2) * 1 + 1
    rw [e1]; omega

/-- The maximum word's array after the run: the maximum scratch word after the last point. -/
theorem max_arr (c : Dev nD) : (dat0 V c).arrAt 3 cfg0.N = maxArr V c :=
  (dat0 V c).arrAt_eq_of_cover 3 (maxArr V c) (flushed_max V c) cover_max

/-- The sum word's array after the run: the sum scratch word after the last point. -/
theorem sum_arr (c : Dev nD) : (dat0 V c).arrAt 4 cfg0.N = sumArr V c :=
  (dat0 V c).arrAt_eq_of_cover 4 (sumArr V c) (flushed_sum V c) cover_sum

/-- The maximum word after the run: the online maximum over all blocks. -/
theorem max_word (c : Dev nD) :
    ((dat0 (F := Ideal) V c).arrAt 3 cfg0.N : FVec Ideal S1x1 .f32) (ix2 0 0) = Cert.Spec.MK (xiOf V c) (xjOf V c) :=
  (congrFun (max_arr V c) (ix2 0 0)).trans (congrArg Prod.fst (online_at V c 59 last_lt (by decide)))

/-- The sum word after the run: the online sum over all blocks. -/
theorem sum_word (c : Dev nD) :
    ((dat0 (F := Ideal) V c).arrAt 4 cfg0.N : FVec Ideal S1x1 .f32) (ix2 0 0) = Cert.Spec.LK (xiOf V c) (xjOf V c) :=
  (congrFun (sum_arr V c) (ix2 0 0)).trans (congrArg Prod.snd (online_at V c 59 last_lt (by decide)))

end ScoresValue

/-- The score array after region 0: each edge's score. -/
theorem scores_final (c : Dev nD) (e : Fin 600000) :
    ((dat0 (F := Ideal) V c).arrAt 2 cfg0.N : FVec Ideal S600000x1 .f32) (ix2 e 0) = Cert.Spec.sK (xiOf V c) (xjOf V c) e :=
  ScoresValue.scores_entry V c e

/-- The maximum word after region 0: the online maximum over all blocks. -/
theorem max_final (c : Dev nD) :
    ((dat0 (F := Ideal) V c).arrAt 3 cfg0.N : FVec Ideal S1x1 .f32) (ix2 0 0) = Cert.Spec.MK (xiOf V c) (xjOf V c) :=
  ScoresValue.max_word V c

/-- The sum word after region 0: the online sum over all blocks. -/
theorem sum_final (c : Dev nD) :
    ((dat0 (F := Ideal) V c).arrAt 4 cfg0.N : FVec Ideal S1x1 .f32) (ix2 0 0) = Cert.Spec.LK (xiOf V c) (xjOf V c) :=
  ScoresValue.sum_word V c

end Cert.KernelIdeal.Hand

end
-- ==== Proof.KI.Value1.lean ====
/-
  Region 1's output array after the run, at the extended reals, entry by entry: the neighbour row's entry times the
  exponential of the edge's score less the maximum word, over the sum word.

  The region's grid has 60 points; point t handles edges 10000 t … 10000 t + 9999. Its score block and its row block
  are those rows of the score column and of the neighbour-row array; the maximum word and the sum word are one-word
  arrays, whole at every point. The body's output block at row r, lane q is the row block's entry at (r, q) times
  exp(score r − maximum) / sum: the two words are spread down the 10000 rows, the weight column is spread across the
  128 lanes, and everything else is entrywise. Every point writes its block back to rows 10000 t … 10000 t + 9999 of
  the output, and these 60 blocks tile the 600000 rows (row e lies in block e / 10000), so the output array is that
  one function of the four arrays at every index.
-/
import proofs.«427403_j16810501996741_2_alg».proof.Proof.KI.Data
import proofs.«427403_j16810501996741_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, at the extended reals
variable (V : (c : Dev nD) → (b : Ref sig .tc) → Buf (Elt Ideal) ((c : Thread nD τ).loc b))

/-- The four arrays region 1 finds, each at its literal type. -/
abbrev scArr (c : Dev nD) : FVec Ideal S600000x1 .f32 := V c main_v6_0
abbrev xjArr (c : Dev nD) : FVec Ideal S600000x128 .f32 := V c main_v5
abbrev mArr (c : Dev nD) : FVec Ideal S1x1 .f32 := V c main_v6_1
abbrev lArr (c : Dev nD) : FVec Ideal S1x1 .f32 := V c main_v6_2
/-- The array region 1 leaves, at its literal type. -/
abbrev wArr (c : Dev nD) : FVec Ideal S600000x128 .f32 := (dat1 (F := Ideal) V c).arrAt 4 cfg1.N

/-! ## The blocks of a point, as rows of the arrays -/

/-- The block indices of the five windows at a point, decided over the 60 points: the score block, the row block and
    the output block sit at block row `t`, block column 0; the two one-word windows at block (0, 0). -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `r` of point `t`'s block is row `10000 t + r` of the array. -/
def edgeOf (t : Fin cfg1.N) (r : Fin 10000) : Fin 600000 :=
  ⟨t.val * 10000 + r.val, by have h : t.val < 60 := lt_of_lt_of_eq t.isLt N_1; have := r.isLt; omega⟩

theorem edgeOf_val (t : Fin cfg1.N) (r : Fin 10000) : (edgeOf t r).val = t.val * 10000 + r.val := rfl

/-- The four input blocks of a point, each at its literal type. -/
abbrev scBlk (c : Dev nD) (t : Fin cfg1.N) : Vec Ideal S10000x1 .f32 := iblk1 (F := Ideal) V c 0 t
abbrev xjBlk (c : Dev nD) (t : Fin cfg1.N) : Vec Ideal S10000x128 .f32 := iblk1 (F := Ideal) V c 1 t
abbrev mBlk (c : Dev nD) (t : Fin cfg1.N) : Vec Ideal S1x1 .f32 := iblk1 (F := Ideal) V c 2 t
abbrev lBlk (c : Dev nD) (t : Fin cfg1.N) : Vec Ideal S1x1 .f32 := iblk1 (F := Ideal) V c 3 t

/-- The score block at point `t` is rows `10000 t … 10000 t + 9999` of the score column. -/
theorem scBlk_apply (c : Dev nD) (t : Fin cfg1.N) (r : Fin 10000) (z : Fin 1) :
    scBlk V c t (ix2 r z) = scArr V c (ix2 (edgeOf t r) (0 : Fin 1)) := by
  obtain ⟨e0, e1, -⟩ := blockIdx1 t
  show iblk1 (F := Ideal) V c 0 t (ix2 r z) = _
  unfold iblk1
  rw [View.read_apply]
  show V c main_v6_0 _ = V c main_v6_0 _
  refine congrArg (V c main_v6_0) (funext fun a => Fin.ext ?_)
  match a with
  | ⟨0, _⟩ => show win1_0.index t (0 : Fin 2) * 10000 + 1 * r.val = t.val * 10000 + r.val; rw [e0]; omega
  | ⟨1, _⟩ => show win1_0.index t (1 : Fin 2) * 1 + 1 * z.val = 0; rw [e1]; have := z.isLt; omega

/-- The row block at point `t` is rows `10000 t … 10000 t + 9999` of the neighbour-row array. -/
theorem xjBlk_apply (c : Dev nD) (t : Fin cfg1.N) (r : Fin 10000) (q : Fin 128) :
    xjBlk V c t (ix2 r q) = xjArr V c (ix2 (edgeOf t r) q) := by
  obtain ⟨-, -, e0, e1, -⟩ := blockIdx1 t
  show iblk1 (F := Ideal) V c 1 t (ix2 r q) = _
  unfold iblk1
  rw [View.read_apply]
  show V c main_v5 _ = V c main_v5 _
  refine congrArg (V c main_v5) (funext fun a => Fin.ext ?_)
  match a with
  | ⟨0, _⟩ => show win1_1.index t (0 : Fin 2) * 10000 + 1 * r.val = t.val * 10000 + r.val; rw [e0]; omega
  | ⟨1, _⟩ => show win1_1.index t (1 : Fin 2) * 128 + 1 * q.val = q.val; rw [e1]; omega

/-- The maximum word's block at every point is the one-word array itself. -/
theorem mBlk_apply (c : Dev nD) (t : Fin cfg1.N) : mBlk V c t (ix2 (0 : Fin 1) (0 : Fin 1)) = mArr V c (ix2 (0 : Fin 1) (0 : Fin 1)) := by
  obtain ⟨-, -, -, -, e0, e1, -⟩ := blockIdx1 t
  show iblk1 (F := Ideal) V c 2 t (ix2 (0 : Fin 1) (0 : Fin 1)) = _
  unfold iblk1
  rw [View.read_apply]
  show V c main_v6_1 _ = V c main_v6_1 _
  refine congrArg (V c main_v6_1) (funext fun a => Fin.ext ?_)
  match a with
  | ⟨0, _⟩ => show win1_2.index t (0 : Fin 2) * 1 + 1 * 0 = 0; rw [e0]
  | ⟨1, _⟩ => show win1_2.index t (1 : Fin 2) * 1 + 1 * 0 = 0; rw [e1]

/-- The sum word's block at every point is the one-word array itself. -/
theorem lBlk_apply (c : Dev nD) (t : Fin cfg1.N) : lBlk V c t (ix2 (0 : Fin 1) (0 : Fin 1)) = lArr V c (ix2 (0 : Fin 1) (0 : Fin 1)) := by
  obtain ⟨-, -, -, -, -, -, e0, e1, -⟩ := blockIdx1 t
  show iblk1 (F := Ideal) V c 3 t (ix2 (0 : Fin 1) (0 : Fin 1)) = _
  unfold iblk1
  rw [View.read_apply]
  show V c main_v6_2 _ = V c main_v6_2 _
  refine congrArg (V c main_v6_2) (funext fun a => Fin.ext ?_)
  match a with
  | ⟨0, _⟩ => show win1_3.index t (0 : Fin 2) * 1 + 1 * 0 = 0; rw [e0]
  | ⟨1, _⟩ => show win1_3.index t (1 : Fin 2) * 1 + 1 * 0 = 0; rw [e1]

/-! ## The body's output block at an entry -/

/-- A one-word array spread down 10000 rows reads its word at every row. -/
theorem spread_word {α : Type} (v : S1x1.Idx → α) (h : S1x1.Broadcasts S10000x1) (r : Fin 10000) (z : Fin 1) :
    broadcastTo S10000x1 v h (ix2 r z) = v (ix2 (0 : Fin 1) (0 : Fin 1)) := by
  refine broadcastTo_apply v h (ix2 r z) (ix2 (0 : Fin 1) (0 : Fin 1)) fun ax => ?_
  match ax with
  | ⟨0, _⟩ => rfl
  | ⟨1, _⟩ => rfl

/-- A column of 10000 entries spread across 128 lanes reads, at row `r` and any lane, the column's entry at `r`. -/
theorem spread_column {α : Type} (v : S10000x1.Idx → α) (h : S10000x1.Broadcasts S10000x128) (r : Fin 10000) (q : Fin 128) :
    broadcastTo S10000x128 v h (ix2 r q) = v (ix2 r (0 : Fin 1)) := by
  refine broadcastTo_apply v h (ix2 r q) (ix2 r (0 : Fin 1)) fun ax => ?_
  match ax with
  | ⟨0, _⟩ => show r.val = if (10000 : ℕ) = 1 then 0 else r.val; rw [if_neg (by decide)]
  | ⟨1, _⟩ => rfl

/-- The exponential of a column is taken entry by entry. -/
theorem exp_column (a : FVec Ideal S10000x1 .f32) (r : Fin 10000) (z : Fin 1) :
    exp a (ix2 r z) = Ideal.exp (a (ix2 r z)) := rfl

/-- The body's output block over four blocks as variables: at row `r`, lane `q` the row block's entry times
    exp(score `r` − maximum word) / sum word. -/
theorem weighted_block (x0 : Vec Ideal S10000x1 .f32) (x1 : Vec Ideal S10000x128 .f32) (x2 x3 : Vec Ideal S1x1 .f32)
    (r : Fin 10000) (q : Fin 128) :
    k1_pay1 (F := Ideal) x0 x1 x2 x3 (ix2 r q)
      = x1 (ix2 r q) * Ideal.div (Ideal.exp (x0 (ix2 r (0 : Fin 1)) - x2 (ix2 (0 : Fin 1) (0 : Fin 1)))) (x3 (ix2 (0 : Fin 1) (0 : Fin 1))) := by
  unfold k1_pay1
  rw [shapeCast_self x0, shapeCast_self x1, shapeCast_self x2, shapeCast_self x3, mulf_apply, spread_column, divf_apply,
    spread_word, exp_column, subf_apply, spread_word]

/-! ## From the blocks to the array -/

/-- What the output array ends holding, as one function of the four arrays the region finds: at row `e`, lane `k`
    the neighbour row's entry times exp(score `e` − maximum word) / sum word. -/
abbrev weightedArr (c : Dev nD) : FVec Ideal S600000x128 .f32 := fun i =>
  xjArr V c (ix2 (⟨(i 0).val, idx2_lt0 i⟩ : Fin 600000) (⟨(i 1).val, idx2_lt1 i⟩ : Fin 128))
    * Ideal.div (Ideal.exp (scArr V c (ix2 (⟨(i 0).val, idx2_lt0 i⟩ : Fin 600000) (0 : Fin 1)) - mArr V c (ix2 (0 : Fin 1) (0 : Fin 1))))
        (lArr V c (ix2 (0 : Fin 1) (0 : Fin 1)))

/-- Entry (`r`, `q`) of point `t`'s output block sits at row `10000 t + r`, lane `q` of the output array. -/
theorem outBlk_emb (t : Fin cfg1.N) (r : Fin 10000) (q : Fin 128) :
    (((cfg1.win 4).blk t).view.emb (ix2 r q) : S600000x128.Idx) = ix2 (edgeOf t r) q := by
  obtain ⟨-, -, -, -, -, -, -, -, e0, e1⟩ := blockIdx1 t
  funext a
  apply Fin.ext
  match a with
  | ⟨0, _⟩ => show win1_4.index t (0 : Fin 2) * 10000 + 1 * r.val = t.val * 10000 + r.val; rw [e0]; omega
  | ⟨1, _⟩ => show win1_4.index t (1 : Fin 2) * 128 + 1 * q.val = q.val; rw [e1]; omega

/-- What point `t` writes back is block `t` of that function: the body's block of the point's four blocks, each
    read where the output's rectangle says. -/
theorem flushed_weighted (c : Dev nD) (t : Fin cfg1.N) :
    (dat1 (F := Ideal) V c).flushed 4 t = ((cfg1.win 4).blk t).view.read (Elt Ideal) (weightedArr V c) := by
  show (cfg1.win 4).cut (grid1.coords t) ((dat1 (F := Ideal) V c).after 4 t) = _
  rw [after1_4]
  funext j
  obtain ⟨r, q, rfl⟩ : ∃ (r : Fin 10000) (q : Fin 128), j = ix2 r q := ⟨j 0, j 1, eq_ix2 j⟩
  rw [View.read_apply]
  show k1_pay1 (F := Ideal) (scBlk V c t) (xjBlk V c t) (mBlk V c t) (lBlk V c t) (ix2 r q)
    = weightedArr V c (((cfg1.win 4).blk t).view.emb (ix2 r q) : S600000x128.Idx)
  refine (weighted_block (scBlk V c t) (xjBlk V c t) (mBlk V c t) (lBlk V c t) r q).trans ?_
  rw [scBlk_apply, xjBlk_apply, mBlk_apply, lBlk_apply, outBlk_emb]

/-- An index of the output array is in point `t`'s block iff each coordinate is in the block's range on its axis. -/
theorem mem_outBlk (t : Fin cfg1.N) (i : S600000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_v7).slice (win1_4.rect t)).set ↔ _
  rw [View.set_slice_whole, Rect.mem_set_unit]
  exact Iff.rfl

/-- The 60 blocks tile the output: row `e` lies in the block of point `e / 10000`, and every point writes back. -/
theorem covered_out (i : S600000x128.Idx) :
    ∃ t : Fin cfg1.N, (cfg1.win 4).flush t = true ∧ i ∈ ((cfg1.win 4).blk t).view.set := by
  have hi0 : (i 0).val < 600000 := idx2_lt0 i
  have hi1 : (i 1).val < 128 := idx2_lt1 i
  obtain ⟨t, ht⟩ : ∃ t : Fin cfg1.N, t.val = (i 0).val / 10000 :=
    ⟨⟨(i 0).val / 10000, lt_of_lt_of_eq (by omega : (i 0).val / 10000 < 60) N_1.symm⟩, rfl⟩
  obtain ⟨-, -, -, -, -, -, -, -, e0, e1⟩ := blockIdx1 t
  refine ⟨t, flush1_4 t, ?_⟩
  rw [mem_outBlk]
  intro a
  match a with
  | ⟨0, _⟩ =>
    show win1_4.index t (0 : Fin 2) * 10000 ≤ (i 0).val ∧ (i 0).val < win1_4.index t (0 : Fin 2) * 10000 + 10000
    rw [e0, ht]; omega
  | ⟨1, _⟩ =>
    show win1_4.index t (1 : Fin 2) * 128 ≤ (i 1).val ∧ (i 1).val < win1_4.index t (1 : Fin 2) * 128 + 128
    rw [e1]; omega

/-- So the output array ends holding that function of the four arrays. -/
theorem weightedArr_final (c : Dev nD) : wArr V c = weightedArr V c :=
  (dat1 (F := Ideal) V c).arrAt_eq_of_cover 4 (weightedArr V c) (fun t _ => flushed_weighted V c t) covered_out

/-- The weighted-rows array after region 1, from the four arrays the region finds. -/
theorem weighted_final (c : Dev nD) (e : Fin 600000) (k : Fin 128) :
    wArr V c (ix2 e k)
      = xjArr V c (ix2 e k) * Ideal.div (Ideal.exp (scArr V c (ix2 e 0) - mArr V c (ix2 0 0))) (lArr V c (ix2 0 0)) :=
  congrFun (weightedArr_final V c) (ix2 e k)

end Cert.KernelIdeal.Hand

end
-- ==== Proof.Ref.Term.lean ====
/-
  The reference program's result as one function of its two arguments, in named pieces.

  The edge list's two columns are sliced out and flattened (`srcOf`, `dstOf`); a column of node numbers picks rows
  of the node table after a negative number is shifted up by the table's height (`rowsOf`); from the two gathered
  row arrays the weighted neighbour rows are the one-pass global softmax of the rectified inner products times the
  neighbour rows (`weightedOf`); the result adds, onto the node table, the weighted rows summed at their source
  nodes (`tailOf`). `refOut` composes them.
-/
import proofs.«427403_j16810501996741_2_alg».proof.ReferenceIdeal
import proofs.«427403_j16810501996741_2_alg».proof.Proof.Gen.ReferenceIdeal

noncomputable section

namespace Cert.ReferenceIdeal.Hand

open Cert.ReferenceIdeal Idealize.ShloMosaic
open Cert.ReferenceIdeal.Facts₀

variable {F : FTy → Type} [FloatOps F]

/-- Column `0` of the edge list, flattened: each edge's source node. -/
def srcOf (a1 : IVec S600000x2 32) : IVec S600000 32 :=
  shapeCast S600000 (extractStridedSlice S600000x1 ![0, 0] a1 slices_S600000x2_S600000x1_0_0) shapeCasts_S600000x1_S600000
/-- Column `1` of the edge list, flattened: each edge's neighbour node. -/
def dstOf (a1 : IVec S600000x2 32) : IVec S600000 32 :=
  shapeCast S600000 (extractStridedSlice S600000x1 ![0, 1] a1 slices_S600000x2_S600000x1_0_1) shapeCasts_S600000x1_S600000

/-- A node number as the row it picks: a negative one shifted up by the table's height. -/
def normIdx (idx : IVec S600000 32) : IVec S600000 32 :=
  select (cmpi .slt idx (broadcastInDim S600000 ![] bcast_S_S600000 (constantI S_ 32 0#32)))
    (addi idx (broadcastInDim S600000 ![] bcast_S_S600000 (constantI S_ 32 50000#32))) idx

/-- The rows of the node table a column of node numbers picks. -/
def rowsOf (a0 : FVec F S50000x128 .f32) (idx : IVec S600000 32) : FVec F S600000x128 .f32 :=
  Host.gather gather_S50000x128_S600000x1_S600000x128_1_0_n_n_0_1_1128 a0
    (broadcastInDim S600000x1 ![0] bcast_S600000_S600000x1_0 (normIdx idx))

/-- The rectified inner product of each edge's two rows. -/
def scoresOf (xi xj : FVec F S600000x128 .f32) : FVec F S600000 .f32 :=
  let v19 : FVec F S600000 .f32 := Host.reduceAdd (mulf xi xj) (constant S_ .f32 0x00000000#32) reducesTo_S600000x128_S600000_d1 h_S_
  select (cmpf .oge v19 (broadcastInDim S600000 ![] bcast_S_S600000 (constant S_ .f32 0x00000000#32))) v19
    (mulf (broadcastInDim S600000 ![] bcast_S_S600000 (id (constant S_ .f32 0x3E4CCCCD#32))) v19)

/-- The one-pass global softmax of a score vector. -/
def softmaxOf (v20 : FVec F S600000 .f32) : FVec F S600000 .f32 :=
  let v21 : FVec F S_ .f32 := Host.reduce FloatOps.maximumf v20 (constant S_ .f32 0xFF800000#32) reducesTo_S600000_S_d0 h_S_
  let v22 : FVec F S_ .f32 := maximumf (constant S_ .f32 0xFF800000#32) v21
  let v26 : FVec F S600000 .f32 := Host.exp (subf v20 (broadcastInDim S600000 ![0] bcast_S1_S600000_0 (broadcastInDim S1 ![] bcast_S_S1 v22)))
  let v27 : FVec F S_ .f32 := Host.reduceAdd v26 (constant S_ .f32 0x00000000#32) reducesTo_S600000_S_d0 h_S_
  Host.divf v26 (broadcastInDim S600000 ![0] bcast_S1_S600000_0 (broadcastInDim S1 ![] bcast_S_S1 v27))

/-- The neighbour rows, each scaled by its edge's softmax weight. -/
def weightedOf (xi xj : FVec F S600000x128 .f32) : FVec F S600000x128 .f32 :=
  mulf xj (broadcastInDim S600000x128 ![0, 1] bcast_S600000x1_S600000x128_0_1
    (broadcastInDim S600000x1 ![0] bcast_S600000_S600000x1_0 (softmaxOf (scoresOf xi xj))))

/-- The weighted rows summed at their source nodes, plus the node table. -/
def tailOf (a0 : FVec F S50000x128 .f32) (src : IVec S600000 32) (w : FVec F S600000x128 .f32) : FVec F S50000x128 .f32 :=
  addf (Host.scatterAdd scatter_S50000x128_S600000x1_S600000x128_1_0_0_1
      (broadcastInDim S50000x128 ![] bcast_S_S50000x128 (constant S_ .f32 0x00000000#32))
      (broadcastInDim S600000x1 ![0] bcast_S600000_S600000x1_0 src) w) a0

/-- The reference's result. -/
def refOut (a0 : FVec F S50000x128 .f32) (a1 : IVec S600000x2 32) : FVec F S50000x128 .f32 :=
  tailOf a0 (srcOf a1) (weightedOf (rowsOf a0 (srcOf a1)) (rowsOf a0 (dstOf a1)))

end Cert.ReferenceIdeal.Hand

end
-- ==== Proof.Ref.Run.lean ====
/-
  The reference program's run: every weakly fair execution of its @main terminates with the result buffer at `refOut`
  of the two argument arrays as launched, and the arguments unchanged.

  @main is one straight line of fifty-four tensor operations once its call is read in place: the rectifier's six
  operations and, inside it, the selecting function's one, each over that call's own buffers. A straight line's run
  is its fold: every buffer ends at what the operations, applied in order to the launch contents, leave in it. At the
  result buffer that fold is the operations composed, which is `refOut` piece by piece; at an argument buffer no
  operation writes, so it is what was launched.
-/
import proofs.«427403_j16810501996741_2_alg».proof.Proof.Ref.Term
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- @main's fifty-four operations, in order, the call read in place: twenty-six of @main's own (the two columns of the
    edge list, the two row gathers, the inner products), the rectifier's six and its selection over the call's buffers,
    then @main's remaining twenty-one (the softmax, the weighting, the scatter-add and the final sum). -/
abbrev ops : List (HloOp τ sig (Elt F)) :=
  [ unary main_arg1 main_v0 ((extractStridedSlice S600000x1 ![0, 0] · slices_S600000x2_S600000x1_0_0) : (⟨S600000x2, .i32⟩ : BufTy).Contents (Elt F) → (⟨S600000x1, .i32⟩ : BufTy).Contents (Elt F)),
    reshape main_v0 main_v1 rfl shapeCasts_S600000x1_S600000,
    unary main_arg1 main_v2 ((extractStridedSlice S600000x1 ![0, 1] · slices_S600000x2_S600000x1_0_1) : (⟨S600000x2, .i32⟩ : BufTy).Contents (Elt F) → (⟨S600000x1, .i32⟩ : BufTy).Contents (Elt F)),
    reshape main_v2 main_v3 rfl shapeCasts_S600000x1_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v11 (broadcastInDim S600000 ![] bcast_S_S600000 : (⟨S_, .i32⟩ : BufTy).Contents (Elt F) → (⟨S600000, .i32⟩ : BufTy).Contents (Elt F)),
    binary main_v3 main_v11 main_v12 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v13 (broadcastInDim S600000 ![] bcast_S_S600000 : (⟨S_, .i32⟩ : BufTy).Contents (Elt F) → (⟨S600000, .i32⟩ : BufTy).Contents (Elt F)),
    binary main_v3 main_v13 main_v14 (addi : (⟨S600000, .i32⟩ : BufTy).Contents (Elt F) → (⟨S600000, .i32⟩ : BufTy).Contents (Elt F) → (⟨S600000, .i32⟩ : BufTy).Contents (Elt F)),
    ternary main_v12 main_v14 main_v3 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v15 main_v16 (broadcastInDim S600000x1 ![0] bcast_S600000_S600000x1_0 : (⟨S600000, .i32⟩ : BufTy).Contents (Elt F) → (⟨S600000x1, .i32⟩ : BufTy).Contents (Elt F)),
    binary main_arg0 main_v16 main_v17 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v10 main_v17 main_v18 (mulf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    binary main_v18 main_cst main_v19 ((fun x v => Host.reduceAdd x v reducesTo_S600000x128_S600000_d1 h_S_) : (⟨S600000x128, .f32⟩ : BufTy).Contents (Elt F) → (⟨S_, .f32⟩ : BufTy).Contents (Elt F) → (⟨S600000, .f32⟩ : BufTy).Contents (Elt F)),
    nullary main_cst_3 (constant S_ .f32 0x3E4CCCCD#32),
    TRef.nullary main_call0.cst (constant S_ .f32 0x00000000#32),
    TRef.unary main_call0.cst main_call0.v0 (broadcastInDim S600000 ![] bcast_S_S600000),
    TRef.binary (.of main_v19) main_call0.v0 main_call0.v1 (cmpf .oge),
    TRef.unary (.of main_cst_3) main_call0.v2 id,
    TRef.unary main_call0.v2 main_call0.v3 (broadcastInDim S600000 ![] bcast_S_S600000),
    TRef.binary main_call0.v3 (.of main_v19) main_call0.v4 mulf,
    TRef.ternary main_call0.v1 (.of main_v19) main_call0.v4 main_call0.call0.v0 select,
    nullary main_cst_4 (constant S_ .f32 0xFF800000#32),
    binary main_v20 main_cst_4 main_v21 ((fun x v => Host.reduce FloatOps.maximumf x v reducesTo_S600000_S_d0 h_S_) : (⟨S600000, .f32⟩ : BufTy).Contents (Elt F) → (⟨S_, .f32⟩ : BufTy).Contents (Elt F) → (⟨S_, .f32⟩ : BufTy).Contents (Elt F)),
    nullary main_cst_5 (constant S_ .f32 0xFF800000#32),
    binary main_cst_5 main_v21 main_v22 (maximumf : (⟨S_, .f32⟩ : BufTy).Contents (Elt F) → (⟨S_, .f32⟩ : BufTy).Contents (Elt F) → (⟨S_, .f32⟩ : BufTy).Contents (Elt F)),
    unary main_v22 main_v23 (broadcastInDim S1 ![] bcast_S_S1 : (⟨S_, .f32⟩ : BufTy).Contents (Elt F) → (⟨S1, .f32⟩ : BufTy).Contents (Elt F)),
    unary main_v23 main_v24 (broadcastInDim S600000 ![0] bcast_S1_S600000_0 : (⟨S1, .f32⟩ : BufTy).Contents (Elt F) → (⟨S600000, .f32⟩ : BufTy).Contents (Elt F)),
    binary main_v20 main_v24 main_v25 (subf : (⟨S600000, .f32⟩ : BufTy).Contents (Elt F) → (⟨S600000, .f32⟩ : BufTy).Contents (Elt F) → (⟨S600000, .f32⟩ : BufTy).Contents (Elt F)),
    unary main_v25 main_v26 (Host.exp : (⟨S600000, .f32⟩ : BufTy).Contents (Elt F) → (⟨S600000, .f32⟩ : BufTy).Contents (Elt F)),
    nullary main_cst_6 (constant S_ .f32 0x00000000#32),
    binary main_v26 main_cst_6 main_v27 ((fun x v => Host.reduceAdd x v reducesTo_S600000_S_d0 h_S_) : (⟨S600000, .f32⟩ : BufTy).Contents (Elt F) → (⟨S_, .f32⟩ : BufTy).Contents (Elt F) → (⟨S_, .f32⟩ : BufTy).Contents (Elt F)),
    unary main_v27 main_v28 (broadcastInDim S1 ![] bcast_S_S1 : (⟨S_, .f32⟩ : BufTy).Contents (Elt F) → (⟨S1, .f32⟩ : BufTy).Contents (Elt F)),
    unary main_v28 main_v29 (broadcastInDim S600000 ![0] bcast_S1_S600000_0 : (⟨S1, .f32⟩ : BufTy).Contents (Elt F) → (⟨S600000, .f32⟩ : BufTy).Contents (Elt F)),
    binary main_v26 main_v29 main_v30 (Host.divf : (⟨S600000, .f32⟩ : BufTy).Contents (Elt F) → (⟨S600000, .f32⟩ : BufTy).Contents (Elt F) → (⟨S600000, .f32⟩ : BufTy).Contents (Elt F)),
    unary main_v30 main_v31 (broadcastInDim S600000x1 ![0] bcast_S600000_S600000x1_0 : (⟨S600000, .f32⟩ : BufTy).Contents (Elt F) → (⟨S600000x1, .f32⟩ : BufTy).Contents (Elt F)),
    unary main_v31 main_v32 (broadcastInDim S600000x128 ![0, 1] bcast_S600000x1_S600000x128_0_1 : (⟨S600000x1, .f32⟩ : BufTy).Contents (Elt F) → (⟨S600000x128, .f32⟩ : BufTy).Contents (Elt F)),
    binary main_v17 main_v32 main_v33 (mulf : (⟨S600000x128, .f32⟩ : BufTy).Contents (Elt F) → (⟨S600000x128, .f32⟩ : BufTy).Contents (Elt F) → (⟨S600000x128, .f32⟩ : BufTy).Contents (Elt F)),
    nullary main_cst_7 (constant S_ .f32 0x00000000#32),
    unary main_cst_7 main_v34 (broadcastInDim S50000x128 ![] bcast_S_S50000x128 : (⟨S_, .f32⟩ : BufTy).Contents (Elt F) → (⟨S50000x128, .f32⟩ : BufTy).Contents (Elt F)),
    unary main_v1 main_v35 (broadcastInDim S600000x1 ![0] bcast_S600000_S600000x1_0 : (⟨S600000, .i32⟩ : BufTy).Contents (Elt F) → (⟨S600000x1, .i32⟩ : BufTy).Contents (Elt F)),
    ternary main_v34 main_v35 main_v33 main_v36 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v36 main_arg0 main_v37 (addf : (⟨S50000x128, .f32⟩ : BufTy).Contents (Elt F) → (⟨S50000x128, .f32⟩ : BufTy).Contents (Elt F) → (⟨S50000x128, .f32⟩ : BufTy).Contents (Elt F)) ]

-- the chain of fifty-four sequenced steps is re-associated one step at a time: one level of recursion per step
set_option maxRecDepth 1024 in
/-- @main is that straight line: the two functions' definitions unfolded at their calls, both sides are one chain of
    steps once sequencing is reassociated. -/
theorem main_eq (c : Dev nD) : main (F := F) c = seq ops := by
  simp only [main, fn_leaky_relu.body, fn_where.body, seq, bind_assoc, pure_bind]

/-- No TensorCore buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    binary_bufs_sub .., nullary_bufs_sub .., nullary_bufs_sub .., unary_bufs_sub .., binary_bufs_sub .., unary_bufs_sub ..,
    unary_bufs_sub .., binary_bufs_sub .., ternary_bufs_sub .., nullary_bufs_sub .., binary_bufs_sub .., nullary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., unary_bufs_sub .., unary_bufs_sub ..,
    binary_bufs_sub .., nullary_bufs_sub .., unary_bufs_sub .., unary_bufs_sub .., ternary_bufs_sub .., binary_bufs_sub ..⟩

/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
          = refOut (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  -- the straight line's run: every TensorCore buffer ends at the fold of the operations over the launch contents
  refine (θ_run defs _ _).mono (fun _ h c => ?_)
    (run_seq scopedRefs_eq scopedSems_eq defs main (fun _ => ops) main_eq (fun _ => ops_sub) m ρ)
  refine ⟨(h c main_v37).trans ?_, (h c main_arg0).trans ?_, (h c main_arg1).trans ?_⟩
  · -- at the result buffer each operation's value is its function at its operands' values: the composed term is
    -- `refOut` of the two launched arguments, piece by piece
    after_results_simp
    rfl
  · -- no operation writes the first argument's buffer
    after_results_simp
  · -- nor the second's
    after_results_simp

end Cert.ReferenceIdeal.Hand

end
-- ==== Proof.Ref.Value.lean ====
/-
  The reference's weighted rows read at an index: at edge `e` and column `k` they are the one-pass softmax reading
  `Spec.WR` of the two gathered row arrays — the row sums as sums over the 128 columns, the maximum as the fold of
  `max` over the edges, the denominator as the sum of the exponentials over the edges.
-/
import proofs.«427403_j16810501996741_2_alg».proof.Proof.Ref.Term
import proofs.«427403_j16810501996741_2_alg».proof.Proof.Spec
import Idealize.ShloMosaic.Lib.ValueIdx
import Idealize.ShloMosaic.Lib.Pipeline.Value
import Idealize.ShloMosaic.PureOps.Ideal.Laws

noncomputable section

namespace Cert.ReferenceIdeal.Hand

open Cert.ReferenceIdeal Idealize.ShloMosaic Idealize.ShloMosaic.ValueIdx
open Cert.ReferenceIdeal.Facts₀

/-- A row array as a function of edge and column. -/
abbrev rowsFn (x : FVec Ideal S600000x128 .f32) : Fin 600000 → Fin 128 → EReal := fun e k => x (ix2 e k)

/-! ## The broadcasts at an index -/

/-- A scalar broadcast over the edges reads the scalar at every edge. -/
theorem bcastEdges_apply {α : Type} (x : S_.Idx → α) (e : Fin 600000) :
    broadcastInDim S600000 ![] bcast_S_S600000 x (ix1 e) = x ix0 :=
  broadcastInDim_apply _ _ x _ ix0 (fun a => a.elim0)

/-- A scalar as a one-element vector reads the scalar. -/
theorem bcastUnit_apply {α : Type} (x : S_.Idx → α) (u : Fin 1) :
    broadcastInDim S1 ![] bcast_S_S1 x (ix1 u) = x ix0 :=
  broadcastInDim_apply _ _ x _ ix0 (fun a => a.elim0)

/-- A one-element vector broadcast over the edges reads its element at every edge. -/
theorem bcastUnitEdges_apply {α : Type} (x : S1.Idx → α) (e : Fin 600000) :
    broadcastInDim S600000 ![0] bcast_S1_S600000_0 x (ix1 e) = x (ix1 (0 : Fin 1)) :=
  broadcastInDim_apply _ _ x _ (ix1 (0 : Fin 1)) (fun a => by
    match a with
    | ⟨0, _⟩ => rfl)

/-- An edge vector as a one-column array reads the edge's entry. -/
theorem bcastCol_apply {α : Type} (x : S600000.Idx → α) (e : Fin 600000) (u : Fin 1) :
    broadcastInDim S600000x1 ![0] bcast_S600000_S600000x1_0 x (ix2 e u) = x (ix1 e) :=
  broadcastInDim_apply _ _ x _ (ix1 e) (fun a => by
    match a with
    | ⟨0, _⟩ => rfl)

/-- A one-column array broadcast along the rows reads the edge's one entry at every column. -/
theorem bcastRows_apply {α : Type} (x : S600000x1.Idx → α) (e : Fin 600000) (k : Fin 128) :
    broadcastInDim S600000x128 ![0, 1] bcast_S600000x1_S600000x128_0_1 x (ix2 e k) = x (ix2 e (0 : Fin 1)) :=
  broadcastInDim_apply _ _ x _ (ix2 e (0 : Fin 1)) (fun a => by
    match a with
    | ⟨0, _⟩ => rfl
    | ⟨1, _⟩ => rfl)

/-! ## The two sums and the maximum at an index -/

/-- The sum along a row, from the zero word: the sum of the row's 128 entries. -/
theorem rowSum_apply (x : FVec Ideal S600000x128 .f32) (e : Fin 600000) :
    Host.reduceAdd (F := Ideal) x (constant S_ .f32 0x00000000#32) reducesTo_S600000x128_S600000_d1 h_S_ (ix1 e)
      = ∑ k : Fin 128, x (ix2 e k) := by
  have hR : S600000x128.Reduces [1] S600000 := by decide
  show Ideal.hostReduceAdd reducesTo_S600000x128_S600000_d1 x (Ideal.ofBits .f32 0x00000000#32) (ix1 e) = _
  rw [Ideal.hostReduceAdd_single _ hR, Ideal.ofBits_zero_f32, zero_add]
  refine Finset.sum_congr rfl fun k _ => congrArg x ?_
  funext c
  match c with
  | ⟨0, _⟩ => rfl
  | ⟨1, _⟩ => rfl

/-- The edge indices are the edges. -/
def edgeEquiv : S600000.Idx ≃ Fin 600000 where
  toFun i := i 0
  invFun e := ix1 e
  left_inv i := (eq_ix1 i).symm
  right_inv _ := rfl

/-- Every edge index drops to the scalar shape's one index. -/
theorem filter_drop_edges (j : S_.Idx) :
    (Finset.univ.filter fun i : S600000.Idx => reducesTo_S600000_S_d0.drop i = j) = Finset.univ :=
  Finset.filter_true_of_mem fun i _ => funext fun b => b.elim0

/-- The sum over all edges, from the zero word: zero plus the sum of the 600000 entries. -/
theorem edgeSum_apply (x : FVec Ideal S600000 .f32) :
    Host.reduceAdd (F := Ideal) x (constant S_ .f32 0x00000000#32) reducesTo_S600000_S_d0 h_S_ ix0
      = 0 + ∑ e : Fin 600000, x (ix1 e) := by
  show Ideal.hostReduceAdd reducesTo_S600000_S_d0 x (Ideal.ofBits .f32 0x00000000#32) ix0 = _
  rw [Ideal.hostReduceAdd_total _ (fun b => b.elim0), Ideal.ofBits_zero_f32, ← Equiv.sum_comp edgeEquiv.symm x]
  rfl

/-- The word of negative infinity reads as the least extended real. -/
theorem ofBits_negInf_f32 : Ideal.ofBits .f32 0xFF800000#32 = ⊥ := by simp [Ideal.ofBits, Ideal.ieee]

/-- The maximum over all edges, from negative infinity: the fold of `max` over the 600000 entries. -/
theorem edgeMax_apply (x : FVec Ideal S600000 .f32) :
    Host.reduce (FloatOps.maximumf (F := Ideal) (φ := .f32)) x (constant (F := Ideal) S_ .f32 0xFF800000#32)
        reducesTo_S600000_S_d0 h_S_ ix0
      = (Finset.univ : Finset (Fin 600000)).fold max ⊥ (fun e => x (ix1 e)) := by
  rw [Host.reduce_eq_fold _ x _ reducesTo_S600000_S_d0 h_S_ ix0, filter_drop_edges, constant_apply, ofBits_negInf_f32,
    ← Finset.map_univ_equiv edgeEquiv.symm, Finset.fold_map]
  rfl

/-! ## The comparison and the select at an element -/

/-- A select on "`y ≤ x`" is the `if`. -/
theorem select_oge (x y a b : EReal) : Scalar.select (Ideal.cmp .oge x y) a b = if y ≤ x then a else b := by
  unfold Ideal.cmp
  by_cases h : y ≤ x
  · rw [if_pos h, decide_eq_true h]; exact select_one a b
  · rw [if_neg h, decide_eq_false h]; exact select_zero a b

/-! ## The scores at an edge -/

/-- The reference's score of an edge: the leaky rectifier (identity branch where non-negative) of the inner product
    of the edge's two rows. -/
theorem scoresOf_apply (xi xj : FVec Ideal S600000x128 .f32) (e : Fin 600000) :
    scoresOf (F := Ideal) xi xj (ix1 e) = Cert.Spec.sR (rowsFn xi) (rowsFn xj) e := by
  unfold scoresOf
  dsimp only
  rw [select_apply, cmpf_apply, mulf_apply, bcastEdges_apply, bcastEdges_apply, rowSum_apply]
  show Scalar.select (Ideal.cmp .oge _ (Ideal.ofBits .f32 0x00000000#32)) _ (Ideal.ofBits .f32 0x3E4CCCCD#32 * _) = _
  rw [Ideal.ofBits_zero_f32, select_oge]
  unfold Cert.Spec.sR Cert.Spec.lrR Cert.Spec.raw
  rfl

/-! ## The softmax at an edge

Throughout, `s` names the vector's entries as a function of the edge (`hs`). -/

section Softmax
variable (v : FVec Ideal S600000 .f32) (s : Fin 600000 → EReal) (hs : ∀ e, v (ix1 e) = s e)
include hs

/-- The maximum the reference subtracts: the fold of `max` over the entries, once more against negative infinity. -/
theorem topMax_apply :
    maximumf (constant (F := Ideal) S_ .f32 0xFF800000#32)
        (Host.reduce (FloatOps.maximumf (F := Ideal) (φ := .f32)) v (constant (F := Ideal) S_ .f32 0xFF800000#32)
          reducesTo_S600000_S_d0 h_S_) ix0
      = max ⊥ ((Finset.univ : Finset (Fin 600000)).fold max ⊥ s) := by
  rw [maximumf_apply, constant_apply, ofBits_negInf_f32, edgeMax_apply, funext hs]

/-- The exponential of the vector less a broadcast scalar, at an edge. -/
theorem expSub_apply (m : FVec Ideal S_ .f32) (e : Fin 600000) :
    Host.exp (subf v (broadcastInDim S600000 ![0] bcast_S1_S600000_0 (broadcastInDim S1 ![] bcast_S_S1 m))) (ix1 e)
      = Ideal.exp (s e - m ix0) := by
  show Ideal.exp (subf v _ (ix1 e)) = _
  rw [subf_apply, bcastUnitEdges_apply, bcastUnit_apply, hs]

/-- The sum of those exponentials over the edges. -/
theorem expSubSum_apply (m : FVec Ideal S_ .f32) :
    (∑ e : Fin 600000,
        Host.exp (subf v (broadcastInDim S600000 ![0] bcast_S1_S600000_0 (broadcastInDim S1 ![] bcast_S_S1 m))) (ix1 e))
      = ∑ e : Fin 600000, Ideal.exp (s e - m ix0) :=
  Finset.sum_congr rfl fun e _ => expSub_apply v s hs m e

omit hs in
/-- A vector over a broadcast scalar, at an edge. -/
theorem divBcast_apply (a : FVec Ideal S600000 .f32) (l : FVec Ideal S_ .f32) (e : Fin 600000) :
    Host.divf a (broadcastInDim S600000 ![0] bcast_S1_S600000_0 (broadcastInDim S1 ![] bcast_S_S1 l)) (ix1 e)
      = Ideal.div (a (ix1 e)) (l ix0) := by
  show Ideal.div (a (ix1 e)) (_ : EReal) = _
  rw [bcastUnitEdges_apply, bcastUnit_apply]

/-- The reference's softmax at an edge: the exponential of the entry less the maximum, over zero plus the sum of all
    such exponentials. -/
theorem softmaxOf_apply (e : Fin 600000) :
    softmaxOf (F := Ideal) v (ix1 e)
      = Ideal.div (Ideal.exp (s e - max ⊥ ((Finset.univ : Finset (Fin 600000)).fold max ⊥ s)))
          (0 + ∑ e' : Fin 600000, Ideal.exp (s e' - max ⊥ ((Finset.univ : Finset (Fin 600000)).fold max ⊥ s))) := by
  unfold softmaxOf
  dsimp only
  rw [divBcast_apply, edgeSum_apply, expSubSum_apply v s hs, expSub_apply v s hs, topMax_apply v s hs]

end Softmax

/-! ## The weighted rows at an index -/

/-- The reference's weighted rows are the one-pass reading of the two row arrays, entry by entry. -/
theorem weightedOf_apply (xi xj : FVec Ideal S600000x128 .f32) (e : Fin 600000) (k : Fin 128) :
    weightedOf (F := Ideal) xi xj (ix2 e k) = Cert.Spec.WR (rowsFn xi) (rowsFn xj) e k := by
  unfold weightedOf
  rw [mulf_apply, bcastRows_apply, bcastCol_apply,
    softmaxOf_apply (scoresOf (F := Ideal) xi xj) (Cert.Spec.sR (rowsFn xi) (rowsFn xj)) (scoresOf_apply xi xj)]
  unfold Cert.Spec.WR Cert.Spec.LR Cert.Spec.MR
  rfl

end Cert.ReferenceIdeal.Hand

end
-- ==== Proof.Rows.lean ====
/-
  The gathered rows under the precondition. With every entry of the edge list a node number `0 ≤ i < 50000`, no index
  is shifted and every shifted index passes the range test, so the kernel program's gathered rows — which read the
  not-a-number word outside the table — are the plain gather the reference takes; and a gathered entry is an entry of
  the node table, so it is a real number when the table's entries are. The two programs' column, gather and tail
  functions are the same functions.
-/
import proofs.«427403_j16810501996741_2_alg».proof.Proof.KI.Term
import proofs.«427403_j16810501996741_2_alg».proof.Proof.Ref.Term
import Idealize.ShloMosaic.Lib.ValueIdx
import Idealize.ShloMosaic.Lib.ReduceAll
import Idealize.ShloMosaic.Lib.StableHlo.Predicate
import Idealize.ShloMosaic.Lib.Pipeline.Value

noncomputable section

namespace Cert.RowsHand

open Idealize.ShloMosaic Idealize.ShloMosaic.ValueIdx

/-- The two programs slice the same columns out of the edge list. -/
theorem srcOf_eq (a1 : IVec Cert.KernelIdeal.S600000x2 32) :
    Cert.KernelIdeal.Hand.srcOf a1 = Cert.ReferenceIdeal.Hand.srcOf a1 := rfl
theorem dstOf_eq (a1 : IVec Cert.KernelIdeal.S600000x2 32) :
    Cert.KernelIdeal.Hand.dstOf a1 = Cert.ReferenceIdeal.Hand.dstOf a1 := rfl

/-- The two programs end with the same scatter-add and residual sum. -/
theorem tailOf_eq (a0 : FVec Ideal Cert.KernelIdeal.S50000x128 .f32) (src : IVec Cert.KernelIdeal.S600000 32)
    (w : FVec Ideal Cert.KernelIdeal.S600000x128 .f32) :
    Cert.KernelIdeal.Hand.tailOf (F := Ideal) a0 src w = Cert.ReferenceIdeal.Hand.tailOf (F := Ideal) a0 src w := rfl

/-- A fold by `and` from one over a list of ones is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = (1#1 : BitVec 1) := by decide
    rw [List.foldl_cons, h a List.mem_cons_self, e]
    exact foldl_andi_one f l fun n hn => h n (List.mem_cons_of_mem _ hn)

/-- A reduction by `and` from one of an array of ones is one at every result index, whatever the reduced axes. -/
theorem reduce_andi_one {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl, hi]
  exact foldl_andi_one x _ fun n _ => hx n

/-- The three signed comparisons at a node number `0 ≤ v < 50000`: `v < 0` fails, `0 ≤ v` and `v ≤ 49999` hold
    (the constants read signed are 0 and 49999). -/
theorem cmp_node (v : BitVec 32) (h0 : 0 ≤ v.toInt) (h1 : v.toInt < 50000) :
    IntOp.cmpi .slt v 0#32 = 0#1 ∧ IntOp.cmpi .sge v 0#32 = 1#1 ∧ IntOp.cmpi .sle v 49999#32 = 1#1 := by
  have e0 : (0#32 : BitVec 32).toInt = 0 := by decide
  have e1 : (49999#32 : BitVec 32).toInt = 49999 := by decide
  unfold IntOp.cmpi
  simp only [BitVec.slt, BitVec.sle, e0, e1]
  refine ⟨?_, ?_, ?_⟩
  · rw [decide_eq_false (by omega)]; rfl
  · rw [decide_eq_true (by omega)]; rfl
  · rw [decide_eq_true (by omega)]; rfl

/-- A column of node numbers is not shifted. -/
theorem normIdx_eq (idx : IVec Cert.KernelIdeal.S600000 32) (hr : ∀ e, 0 ≤ (idx e).toInt ∧ (idx e).toInt < 50000) :
    Cert.KernelIdeal.Hand.normIdx idx = idx := by
  funext e
  show Scalar.select (IntOp.cmpi .slt (idx e) 0#32) _ (idx e) = idx e
  rw [(cmp_node (idx e) (hr e).1 (hr e).2).1, select_zero]

/-- Node numbers all pass the range test. -/
theorem inRange_one (i5 : IVec Cert.KernelIdeal.S600000x1 32) (hr : ∀ k, 0 ≤ (i5 k).toInt ∧ (i5 k).toInt < 50000)
    (j : Cert.KernelIdeal.S600000.Idx) : Cert.KernelIdeal.Hand.inRange i5 j = 1#1 := by
  unfold Cert.KernelIdeal.Hand.inRange
  refine reduce_andi_one _ _ _ _ (fun _ => rfl) (fun k => ?_) j
  show IntOp.andi (IntOp.cmpi .sge (i5 k) 0#32) (IntOp.cmpi .sle (i5 k) 49999#32) = 1#1
  obtain ⟨_, h2, h3⟩ := cmp_node (i5 k) (hr k).1 (hr k).2
  rw [h2, h3]; decide

/-- So the test's mask, broadcast along the rows, is one everywhere. -/
theorem mask_one {t : Shape} (dims : Fin Cert.KernelIdeal.S600000.rank → Fin t.rank)
    (h : Cert.KernelIdeal.S600000.BroadcastsInDim t dims) (i5 : IVec Cert.KernelIdeal.S600000x1 32)
    (hr : ∀ k, 0 ≤ (i5 k).toInt ∧ (i5 k).toInt < 50000) (i : t.Idx) :
    broadcastInDim t dims h (Cert.KernelIdeal.Hand.inRange i5) i = 1#1 := inRange_one i5 hr _

/-- With every index a node number, the range-tested gather is the plain gather. -/
theorem rowsK_eq (a0 : FVec Ideal Cert.KernelIdeal.S50000x128 .f32) (idx : IVec Cert.KernelIdeal.S600000 32)
    (hr : ∀ e, 0 ≤ (idx e).toInt ∧ (idx e).toInt < 50000) :
    Cert.KernelIdeal.Hand.rowsK (F := Ideal) a0 idx = Cert.ReferenceIdeal.Hand.rowsOf (F := Ideal) a0 idx := by
  have hn := normIdx_eq idx hr
  funext i
  unfold Cert.KernelIdeal.Hand.rowsK Cert.ReferenceIdeal.Hand.rowsOf
  dsimp only
  rw [select_apply, mask_one, select_one]
  · rfl
  · intro k
    unfold broadcastInDim
    rw [hn]
    exact hr _

/-- An entry of a column of the edge list is an entry of the edge list. -/
theorem srcOf_mem (a1 : IVec Cert.KernelIdeal.S600000x2 32) (e : Cert.KernelIdeal.S600000.Idx) :
    ∃ j, Cert.KernelIdeal.Hand.srcOf a1 e = a1 j := by
  unfold Cert.KernelIdeal.Hand.srcOf shapeCast extractStridedSlice
  exact ⟨_, rfl⟩
theorem dstOf_mem (a1 : IVec Cert.KernelIdeal.S600000x2 32) (e : Cert.KernelIdeal.S600000.Idx) :
    ∃ j, Cert.KernelIdeal.Hand.dstOf a1 e = a1 j := by
  unfold Cert.KernelIdeal.Hand.dstOf shapeCast extractStridedSlice
  exact ⟨_, rfl⟩

/-- A column of the edge list inherits the edge list's range. -/
theorem srcOf_range (a1 : IVec Cert.KernelIdeal.S600000x2 32) (hr : ∀ j, 0 ≤ (a1 j).toInt ∧ (a1 j).toInt < 50000) :
    ∀ e, 0 ≤ (Cert.KernelIdeal.Hand.srcOf a1 e).toInt ∧ (Cert.KernelIdeal.Hand.srcOf a1 e).toInt < 50000 := by
  intro e
  obtain ⟨j, hj⟩ := srcOf_mem a1 e
  rw [hj]
  exact hr j
theorem dstOf_range (a1 : IVec Cert.KernelIdeal.S600000x2 32) (hr : ∀ j, 0 ≤ (a1 j).toInt ∧ (a1 j).toInt < 50000) :
    ∀ e, 0 ≤ (Cert.KernelIdeal.Hand.dstOf a1 e).toInt ∧ (Cert.KernelIdeal.Hand.dstOf a1 e).toInt < 50000 := by
  intro e
  obtain ⟨j, hj⟩ := dstOf_mem a1 e
  rw [hj]
  exact hr j

/-- A gathered entry is an entry of the node table. -/
theorem rowsOf_real (a0 : FVec Ideal Cert.ReferenceIdeal.S50000x128 .f32) (hf : ∀ i, ∃ r : ℝ, a0 i = (r : EReal))
    (idx : IVec Cert.ReferenceIdeal.S600000 32) (i : Cert.ReferenceIdeal.S600000x128.Idx) :
    ∃ r : ℝ, Cert.ReferenceIdeal.Hand.rowsOf (F := Ideal) a0 idx i = (r : EReal) := by
  unfold Cert.ReferenceIdeal.Hand.rowsOf Host.gather
  exact hf _

end Cert.RowsHand

end
-- ==== Proof.Pre.lean ====
/-
  The precondition read back: where the printed predicate is all ones, every entry of the node table is a real number
  and every entry of the edge list is a node number, `0 ≤ i < 50000`.

  The predicate is the conjunction of three "for all entries" statements, each a fold by `and` of a one-bit array
  from the constant one. A fold by `and` that comes out one met only ones, so each of the three comparisons holds at
  every entry. At an entry `x` of the node table the comparison is `max x (-x) < ⊤` in the extended reals (the
  pattern 0x7F800000 denotes `⊤`): neither `⊥` nor `⊤` satisfies it, so `x` is a real. At an entry `w` of the edge
  list the two comparisons are the signed `0 ≤ w` and `w < 50000`, and the two constants read signed are 0 and 50000.
-/
import proofs.«427403_j16810501996741_2_alg».proof.Pre_finite_inputs
import proofs.«427403_j16810501996741_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreHand

open Idealize.ShloMosaic Cert.Pre_finite_inputs

/-- The scalar shape has one index. -/
instance subsingleton_scalar_idx : Subsingleton S_.Idx := ⟨fun a b => funext fun d => d.elim0⟩

/-- The pattern 0x7F800000 denotes `⊤`. -/
theorem ofBits_inf : Ideal.ofBits .f32 0x7F800000#32 = (⊤ : EReal) := by
  simp [Ideal.ofBits, Ideal.ieee]

/-- An extended real whose absolute value `max x (-x)` is below `⊤` is a real. -/
theorem real_of_abs_lt_top (x : EReal) (hx : max x (-x) < ⊤) : ∃ r : ℝ, x = (r : EReal) := by
  induction x using EReal.rec with
  | bot => simp at hx
  | coe r => exact ⟨r, rfl⟩
  | top => simp at hx

/-- The float comparison at one entry: `|x| < +inf` says `x` is a real. -/
theorem real_of_cmp (x : EReal)
    (hx : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have e : BitVec.ofBool (decide (max x (-x) < Ideal.ofBits .f32 0x7F800000#32)) = 1#1 := hx
  rw [ofBits_inf, StableHlo.Predicate.ofBool_eq_one_iff, decide_eq_true_eq] at e
  exact real_of_abs_lt_top x e

/-- The two word comparisons at one entry: `0 ≤ w` and `w < 50000`, signed. -/
theorem range_of_cmp (w : BitVec 32) (h0 : IntOp.cmpi .sge w 0#32 = 1#1) (h1 : IntOp.cmpi .slt w 50000#32 = 1#1) :
    0 ≤ w.toInt ∧ w.toInt < 50000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (50000#32 : BitVec 32).toInt = 50000 := by decide
  rw [e0] at h0
  rw [e1] at h1
  exact ⟨h0, h1⟩

/-- The predicate split: each of its three comparisons holds at every entry. -/
theorem split_pre (a0 : FVec Ideal S50000x128 .f32) (a1 : IVec S600000x2 32)
    (h : Cert.Pre_finite_inputs.fn (F := Ideal) a0 a1 = fun _ => 1#1) :
    (∀ i, FloatOps.cmpf (F := Ideal) (φ := .f32) .olt (FloatOps.hostAbsf (F := Ideal) (φ := .f32) (a0 i))
        (FloatOps.ofBits (F := Ideal) .f32 0x7F800000#32) = 1#1)
    ∧ (∀ j, IntOp.cmpi .sge (a1 j) 0#32 = 1#1) ∧ (∀ j, IntOp.cmpi .slt (a1 j) 50000#32 = 1#1) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  refine ⟨fun i => ?_, fun j => ?_, fun j => ?_⟩
  · exact Host.reduce_andi_all _ _ _ _ _ h0' i
  · exact Host.reduce_andi_all _ _ _ _ _ h1 j
  · exact Host.reduce_andi_all _ _ _ _ _ h2 j

/-- Under the precondition every entry of the node table is a real number. -/
theorem finite_of_pre (a0 : FVec Ideal S50000x128 .f32) (a1 : IVec S600000x2 32)
    (h : Cert.Pre_finite_inputs.fn (F := Ideal) a0 a1 = fun _ => 1#1) : ∀ i, ∃ r : ℝ, a0 i = (r : EReal) :=
  fun i => real_of_cmp (a0 i) ((split_pre a0 a1 h).1 i)

/-- Under the precondition every entry of the edge list is a node number. -/
theorem range_of_pre (a0 : FVec Ideal S50000x128 .f32) (a1 : IVec S600000x2 32)
    (h : Cert.Pre_finite_inputs.fn (F := Ideal) a0 a1 = fun _ => 1#1) : ∀ j, 0 ≤ (a1 j).toInt ∧ (a1 j).toInt < 50000 :=
  fun j => range_of_cmp (a1 j) ((split_pre a0 a1 h).2.1 j) ((split_pre a0 a1 h).2.2 j)

end Cert.PreHand

end
-- ==== Proof.Bridge.lean ====
/-
  The two results are one function under the precondition.

  Both programs end by summing weighted neighbour rows at their source nodes and adding the node table, so it is
  enough that the weighted rows agree. On the kernel's side they are read off the two regions: region 1 scales each
  neighbour row by the exponential of its score less the maximum word over the sum word, and region 0 left the scores
  and the two words at the online softmax totals — so the entry is `Spec.WK` of the two gathered row arrays. On the
  reference's side the entry is `Spec.WR` of its two gathered row arrays. Under the precondition every index is a node
  number, so the kernel's range-tested gathers are the reference's plain gathers, and every gathered entry is a real
  number; the online and the one-pass softmax then agree.
-/
import proofs.«427403_j16810501996741_2_alg».proof.Proof.KI.Run
import proofs.«427403_j16810501996741_2_alg».proof.Proof.KI.HostVal
import proofs.«427403_j16810501996741_2_alg».proof.Proof.KI.Value0
import proofs.«427403_j16810501996741_2_alg».proof.Proof.KI.Value1
import proofs.«427403_j16810501996741_2_alg».proof.Proof.Ref.Run
import proofs.«427403_j16810501996741_2_alg».proof.Proof.Ref.Value
import proofs.«427403_j16810501996741_2_alg».proof.Proof.Rows
import proofs.«427403_j16810501996741_2_alg».proof.Proof.Pre
import proofs.«427403_j16810501996741_2_alg».proof.Proof.Spec

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-- The two gathered row arrays as region 0 finds them, at their literal type. -/
abbrev xiArr : FVec Ideal S600000x128 .f32 := W3 m c (Proc.devRef .tc main_v4)
abbrev xjArr0 : FVec Ideal S600000x128 .f32 := W3 m c (Proc.devRef .tc main_v5)
/-- The weighted rows region 1 leaves, at their literal type. -/
abbrev wOut : FVec Ideal S600000x128 .f32 := W5 m c (Proc.devRef .tc main_v7)

/-- Region 0 does not write the neighbour rows: region 1 finds them as region 0 did. -/
theorem V4_xj : (V4 m c main_v5 : FVec Ideal S600000x128 .f32) = xjArr0 m c := by
  show W4 m c (Proc.devRef .tc (Pipeline.arrRef spec0 1)) = _
  rw [W4_arr]
  exact ((dat0 (V3 m) c).arrAt_in 1 rfl _).trans (A_eq0 (V3 m) c 1)

/-- What region 1 finds in the score array and the two words is what region 0 left. -/
theorem V4_sc : V4 m c main_v6_0 = (dat0 (V3 m) c).arrAt 2 cfg0.N := W4_arr m c 2
theorem V4_mx : V4 m c main_v6_1 = (dat0 (V3 m) c).arrAt 3 cfg0.N := W4_arr m c 3
theorem V4_sm : V4 m c main_v6_2 = (dat0 (V3 m) c).arrAt 4 cfg0.N := W4_arr m c 4

/-- The kernel's weighted rows, entry by entry: the online reading of the two gathered row arrays. -/
theorem kernel_weighted (e : Fin 600000) (k : Fin 128) :
    wOut m c (ix2 e k) = Cert.Spec.WK (xiOf (V3 m) c) (xjOf (V3 m) c) e k := by
  have h5 : wOut m c = wArr (V4 m) c := W5_arr m c 4
  rw [h5, weighted_final (V4 m) c e k]
  have hx : Cert.KernelIdeal.Hand.xjArr (V4 m) c = xjArr0 m c := V4_xj m c
  have hs : scArr (V4 m) c (ix2 e 0) = Cert.Spec.sK (xiOf (V3 m) c) (xjOf (V3 m) c) e :=
    (congrFun (V4_sc m c) (ix2 e 0)).trans (scores_final (V3 m) c e)
  have hm : mArr (V4 m) c (ix2 0 0) = Cert.Spec.MK (xiOf (V3 m) c) (xjOf (V3 m) c) :=
    (congrFun (V4_mx m c) (ix2 0 0)).trans (max_final (V3 m) c)
  have hl : lArr (V4 m) c (ix2 0 0) = Cert.Spec.LK (xiOf (V3 m) c) (xjOf (V3 m) c) :=
    (congrFun (V4_sm m c) (ix2 0 0)).trans (sum_final (V3 m) c)
  rw [hx, hs, hm, hl]
  rfl

/-- Under the precondition the kernel's result is the reference's result of the same arguments. -/
theorem result_eq
    (hpre : Cert.Pre_finite_inputs.fn (F := Ideal) (m ((c.tc : Thread nD τ).loc main_arg0)) (m ((c.tc : Thread nD τ).loc main_arg1)) = fun _ => 1#1) :
    Cert.ReferenceIdeal.Hand.refOut (F := Ideal) (arg0Of m c) (arg1Of m c)
      = (W6 m c (Proc.devRef .tc main_v11) : FVec Ideal S50000x128 .f32) := by
  have hf := Cert.PreHand.finite_of_pre _ _ hpre
  have hr := Cert.PreHand.range_of_pre _ _ hpre
  -- the gathered rows: the range test passes everywhere, and every entry is a real number
  have hxi : xiArr m c = Cert.ReferenceIdeal.Hand.rowsOf (F := Ideal) (arg0Of m c) (Cert.ReferenceIdeal.Hand.srcOf (arg1Of m c)) := by
    refine (W3_xi m c).trans ?_
    rw [Cert.RowsHand.rowsK_eq _ _ (Cert.RowsHand.srcOf_range _ hr), Cert.RowsHand.srcOf_eq]
  have hxj : xjArr0 m c = Cert.ReferenceIdeal.Hand.rowsOf (F := Ideal) (arg0Of m c) (Cert.ReferenceIdeal.Hand.dstOf (arg1Of m c)) := by
    refine (W3_xj m c).trans ?_
    rw [Cert.RowsHand.rowsK_eq _ _ (Cert.RowsHand.dstOf_range _ hr), Cert.RowsHand.dstOf_eq]
  -- the weighted rows agree, entry by entry
  have hw : Cert.ReferenceIdeal.Hand.weightedOf (F := Ideal)
        (Cert.ReferenceIdeal.Hand.rowsOf (F := Ideal) (arg0Of m c) (Cert.ReferenceIdeal.Hand.srcOf (arg1Of m c)))
        (Cert.ReferenceIdeal.Hand.rowsOf (F := Ideal) (arg0Of m c) (Cert.ReferenceIdeal.Hand.dstOf (arg1Of m c)))
      = wOut m c := by
    funext i
    obtain ⟨e, k, rfl⟩ : ∃ (e : Fin 600000) (k : Fin 128), i = ix2 e k := ⟨i 0, i 1, eq_ix2 i⟩
    rw [Cert.ReferenceIdeal.Hand.weightedOf_apply, kernel_weighted m c e k, ← hxi, ← hxj]
    have hreal_i : ∀ e k, ∃ r : ℝ, xiOf (V3 m) c e k = (r : EReal) := fun e k => by
      show ∃ r : ℝ, xiArr m c (ix2 e k) = _
      rw [hxi]; exact Cert.RowsHand.rowsOf_real _ hf _ _
    have hreal_j : ∀ e k, ∃ r : ℝ, xjOf (V3 m) c e k = (r : EReal) := fun e k => by
      show ∃ r : ℝ, xjArr0 m c (ix2 e k) = _
      rw [hxj]; exact Cert.RowsHand.rowsOf_real _ hf _ _
    exact (congrFun (congrFun (Cert.Spec.WK_eq_WR _ _ hreal_i hreal_j) e) k).symm
  unfold Cert.ReferenceIdeal.Hand.refOut
  rw [hw, W6_out m c, Cert.RowsHand.tailOf_eq, Cert.RowsHand.srcOf_eq]

end Cert.Bridge

end
-- ==== Proof.lean ====
/-
  The certificate. The kernel's program scores every edge by the rectified inner product of its two gathered rows,
  takes the GLOBAL softmax of the scores online — 60 blocks of 10000 edges, a running maximum and a running sum
  rescaled whenever the maximum rises —, scales each neighbour row by its weight, sums the scaled rows at their
  source nodes and adds the node table; the reference does the same with the one-pass softmax. The edge list's
  entries are node numbers `0 ≤ i < 50000` (the statement's precondition: outside that range the reference itself
  indexes out of range, and the two programs' gathers differ there) and the node table's entries are finite.

  The three frames: each of the kernel's two programs runs as four host stretches and two kernel regions (the same
  proof at the word level and at the extended reals); the reference is a straight line of host operations. Nothing the
  ideal pass rewrote, so `preserves` is trivial. The algebraic claim: the kernel's run names its result as the last
  boundary's contents, the reference's as `refOut` of the arguments, and under the precondition the two are one
  function — the gathered rows agree and are real, so the online totals are the one-pass totals (on the reals
  `exp (a - b) * exp (s - a) = exp (s - b)`), and the two programs end with the same scatter-add.
-/
import proofs.«427403_j16810501996741_2_alg».proof.Defs
import proofs.«427403_j16810501996741_2_alg».proof.Proof.Gen.Kernel
import proofs.«427403_j16810501996741_2_alg».proof.Proof.Gen.KernelIdeal
import proofs.«427403_j16810501996741_2_alg».proof.Proof.Gen.ReferenceIdeal
import proofs.«427403_j16810501996741_2_alg».proof.Proof.Gen.Pre_finite_inputs
import proofs.«427403_j16810501996741_2_alg».proof.Proof.K.Run
import proofs.«427403_j16810501996741_2_alg».proof.Proof.Bridge

noncomputable section

namespace Cert.Proof

open Idealize.ShloMosaic Idealize.ShloMosaic.TcCoe Idealize.SL.Sem

/-- The word-level program runs to the end and leaves its arguments unchanged. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- And the reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments, under the precondition, both programs end with the same result. -/
theorem algebraic : Cert.algebraic_KernelIdeal_ReferenceIdeal := by
  intro m g m' g' hpre hagree
  refine ⟨fun c => Cert.KernelIdeal.Hand.W6 m c (Proc.devRef .tc Cert.KernelIdeal.main_v11), ?_, ?_⟩
  · exact (θ_run (Cert.KernelIdeal.defs (F := Ideal)) _ _).mono
      (fun r h c => ⟨h c _ (Cert.KernelIdeal.Hand.mem_uc Cert.KernelIdeal.main_v11 (by decide)),
        (h c _ (Cert.KernelIdeal.Hand.mem_uc Cert.KernelIdeal.main_arg0 (by decide))).trans (Cert.KernelIdeal.Hand.W6_main_arg0 m c),
        (h c _ (Cert.KernelIdeal.Hand.mem_uc Cert.KernelIdeal.main_arg1 (by decide))).trans (Cert.KernelIdeal.Hand.W6_main_arg1 m c)⟩)
      (Cert.KernelIdeal.Hand.run_all (F := Ideal) m g)
  · refine (θ_run (Cert.ReferenceIdeal.defs (F := Ideal)) _ _).mono
      (fun r h c => ⟨(h c).1.trans ?_, (h c).2.1, (h c).2.2⟩) (Cert.ReferenceIdeal.Hand.run (F := Ideal) m' g')
    rw [(hagree c).1, (hagree c).2]
    exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
